-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x3 : Shape := ⟨2, ![1048576, 3]⟩
abbrev S16x1 : Shape := ⟨2, ![16, 1]⟩
abbrev S16 : Shape := ⟨1, ![16]⟩
abbrev S48x16 : Shape := ⟨2, ![48, 16]⟩
abbrev S48 : Shape := ⟨1, ![48]⟩
abbrev S16x16 : Shape := ⟨2, ![16, 16]⟩
abbrev S16x32 : Shape := ⟨2, ![16, 32]⟩
abbrev S64x32 : Shape := ⟨2, ![64, 32]⟩
abbrev S64 : Shape := ⟨1, ![64]⟩
abbrev S3x64 : Shape := ⟨2, ![3, 64]⟩
abbrev S3 : Shape := ⟨1, ![3]⟩
abbrev S_ : Shape := ⟨0, ![]⟩

class Facts : Prop where
  bcast_S_S1048576x3 : S_.BroadcastsInDim S1048576x3 (![] : Fin 0 → Fin S1048576x3.rank)
  reducesTo_S1048576x3_S_d0_1 : S1048576x3.ReducesTo [0, 1] S_
  h_S_ : 0 < S_.numel
  bcast_S_S16x1 : S_.BroadcastsInDim S16x1 (![] : Fin 0 → Fin S16x1.rank)
  reducesTo_S16x1_S_d0_1 : S16x1.ReducesTo [0, 1] S_
  bcast_S_S16 : S_.BroadcastsInDim S16 (![] : Fin 0 → Fin S16.rank)
  reducesTo_S16_S_d0 : S16.ReducesTo [0] S_
  bcast_S_S48x16 : S_.BroadcastsInDim S48x16 (![] : Fin 0 → Fin S48x16.rank)
  reducesTo_S48x16_S_d0_1 : S48x16.ReducesTo [0, 1] S_
  bcast_S_S48 : S_.BroadcastsInDim S48 (![] : Fin 0 → Fin S48.rank)
  reducesTo_S48_S_d0 : S48.ReducesTo [0] S_
  bcast_S_S16x16 : S_.BroadcastsInDim S16x16 (![] : Fin 0 → Fin S16x16.rank)
  reducesTo_S16x16_S_d0_1 : S16x16.ReducesTo [0, 1] S_
  bcast_S_S16x32 : S_.BroadcastsInDim S16x32 (![] : Fin 0 → Fin S16x32.rank)
  reducesTo_S16x32_S_d0_1 : S16x32.ReducesTo [0, 1] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S3x64 : S_.BroadcastsInDim S3x64 (![] : Fin 0 → Fin S3x64.rank)
  reducesTo_S3x64_S_d0_1 : S3x64.ReducesTo [0, 1] S_
  bcast_S_S3 : S_.BroadcastsInDim S3 (![] : Fin 0 → Fin S3.rank)
  reducesTo_S3_S_d0 : S3.ReducesTo [0] S_

variable [Facts]

def fn_part7 {F : FTy → Type} [FloatOps F] (main_v118 : IVec S_ 1) (main_v119 : FVec F S3 .f32) : IVec S_ 1 :=
  let main_cst_46 : FVec F S_ .f32 := constant S_ .f32 0x7F800000#32
  let main_v120 : FVec F S3 .f32 := broadcastInDim S3 ![] bcast_S_S3 main_cst_46
  let main_v121 : IVec S3 1 := cmpf .olt main_v119 main_v120
  let main_c_47 : IVec S_ 1 := constantI S_ 1 1#1
  let main_v122 : IVec S_ 1 := (fun x v => Host.reduce IntOp.andi x v reducesTo_S3_S_d0 h_S_) main_v121 main_c_47
  let main_v123 : IVec S_ 1 := andi main_v118 main_v122
  main_v123

def fn_part6 {F : FTy → Type} [FloatOps F] (main_arg21 : FVec F S64 .f32) (main_arg22 : FVec F S64 .f32) (main_arg23 : FVec F S3x64 .f32) (main_arg24 : FVec F S3 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg21
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64 .f32 := Host.absf main_arg22
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S3x64 .f32 := Host.absf main_arg23
  let main_cst_44 : FVec F S_ .f32 := constant S_ .f32 0x7F800000#32
  let main_v115 : FVec F S3x64 .f32 := broadcastInDim S3x64 ![] bcast_S_S3x64 main_cst_44
  let main_v116 : IVec S3x64 1 := cmpf .olt main_v114 main_v115
  let main_c_45 : IVec S_ 1 := constantI S_ 1 1#1
  let main_v117 : IVec S_ 1 := (fun x v => Host.reduce IntOp.andi x v reducesTo_S3x64_S_d0_1 h_S_) main_v116 main_c_45
  let main_v118 : IVec S_ 1 := andi main_v113 main_v117
  let main_v119 : FVec F S3 .f32 := Host.absf main_arg24
  fn_part7 (F := F) main_v118 main_v119

def fn_part5 {F : FTy → Type} [FloatOps F] (main_arg18 : FVec F S16 .f32) (main_arg19 : FVec F S64x32 .f32) (main_arg20 : FVec F S64 .f32) (main_arg21 : FVec F S64 .f32) (main_arg22 : FVec F S64 .f32) (main_arg23 : FVec F S3x64 .f32) (main_arg24 : FVec F S3 .f32) (main_v83 : IVec S_ 1) (main_v84 : FVec F S16x32 .f32) (main_cst_32 : FVec F S_ .f32) : IVec S_ 1 :=
  let main_v85 : FVec F S16x32 .f32 := broadcastInDim S16x32 ![] bcast_S_S16x32 main_cst_32
  let main_v86 : IVec S16x32 1 := cmpf .olt main_v84 main_v85
  let main_c_33 : IVec S_ 1 := constantI S_ 1 1#1
  let main_v87 : IVec S_ 1 := (fun x v => Host.reduce IntOp.andi x v reducesTo_S16x32_S_d0_1 h_S_) main_v86 main_c_33
  let main_v88 : IVec S_ 1 := andi main_v83 main_v87
  let main_v89 : FVec F S16 .f32 := Host.absf main_arg18
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  let main_v94 : FVec F S64x32 .f32 := Host.absf main_arg19
  let main_cst_36 : FVec F S_ .f32 := constant S_ .f32 0x7F800000#32
  let main_v95 : FVec F S64x32 .f32 := broadcastInDim S64x32 ![] bcast_S_S64x32 main_cst_36
  let main_v96 : IVec S64x32 1 := cmpf .olt main_v94 main_v95
  let main_c_37 : IVec S_ 1 := constantI S_ 1 1#1
  let main_v97 : IVec S_ 1 := (fun x v => Host.reduce IntOp.andi x v reducesTo_S64x32_S_d0_1 h_S_) main_v96 main_c_37
  let main_v98 : IVec S_ 1 := andi main_v93 main_v97
  let main_v99 : FVec F S64 .f32 := Host.absf main_arg20
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S48 .f32) (main_arg15 : FVec F S16x16 .f32) (main_arg16 : FVec F S16 .f32) (main_arg17 : FVec F S16x32 .f32) (main_arg18 : FVec F S16 .f32) (main_arg19 : FVec F S64x32 .f32) (main_arg20 : FVec F S64 .f32) (main_arg21 : FVec F S64 .f32) (main_arg22 : FVec F S64 .f32) (main_arg23 : FVec F S3x64 .f32) (main_arg24 : FVec F S3 .f32) (main_v63 : IVec S_ 1) (main_v67 : IVec S_ 1) : IVec S_ 1 :=
  let main_v68 : IVec S_ 1 := andi main_v63 main_v67
  let main_v69 : FVec F S48 .f32 := Host.absf main_arg14
  let main_cst_26 : FVec F S_ .f32 := constant S_ .f32 0x7F800000#32
  let main_v70 : FVec F S48 .f32 := broadcastInDim S48 ![] bcast_S_S48 main_cst_26
  let main_v71 : IVec S48 1 := cmpf .olt main_v69 main_v70
  let main_c_27 : IVec S_ 1 := constantI S_ 1 1#1
  let main_v72 : IVec S_ 1 := (fun x v => Host.reduce IntOp.andi x v reducesTo_S48_S_d0 h_S_) main_v71 main_c_27
  let main_v73 : IVec S_ 1 := andi main_v68 main_v72
  let main_v74 : FVec F S16x16 .f32 := Host.absf main_arg15
  let main_cst_28 : FVec F S_ .f32 := constant S_ .f32 0x7F800000#32
  let main_v75 : FVec F S16x16 .f32 := broadcastInDim S16x16 ![] bcast_S_S16x16 main_cst_28
  let main_v76 : IVec S16x16 1 := cmpf .olt main_v74 main_v75
  let main_c_29 : IVec S_ 1 := constantI S_ 1 1#1
  let main_v77 : IVec S_ 1 := (fun x v => Host.reduce IntOp.andi x v reducesTo_S16x16_S_d0_1 h_S_) main_v76 main_c_29
  let main_v78 : IVec S_ 1 := andi main_v73 main_v77
  let main_v79 : FVec F S16 .f32 := Host.absf main_arg16
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  let main_v84 : FVec F S16x32 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S48x16 .f32) (main_arg12 : FVec F S48 .f32) (main_arg13 : FVec F S48x16 .f32) (main_arg14 : FVec F S48 .f32) (main_arg15 : FVec F S16x16 .f32) (main_arg16 : FVec F S16 .f32) (main_arg17 : FVec F S16x32 .f32) (main_arg18 : FVec F S16 .f32) (main_arg19 : FVec F S64x32 .f32) (main_arg20 : FVec F S64 .f32) (main_arg21 : FVec F S64 .f32) (main_arg22 : FVec F S64 .f32) (main_arg23 : FVec F S3x64 .f32) (main_arg24 : FVec F S3 .f32) (main_v48 : IVec S_ 1) (main_v49 : FVec F S48 .f32) (main_v50 : FVec F S48 .f32) : IVec S_ 1 :=
  let main_v51 : IVec S48 1 := cmpf .olt main_v49 main_v50
  let main_c_19 : IVec S_ 1 := constantI S_ 1 1#1
  let main_v52 : IVec S_ 1 := (fun x v => Host.reduce IntOp.andi x v reducesTo_S48_S_d0 h_S_) main_v51 main_c_19
  let main_v53 : IVec S_ 1 := andi main_v48 main_v52
  let main_v54 : FVec F S48x16 .f32 := Host.absf main_arg11
  let main_cst_20 : FVec F S_ .f32 := constant S_ .f32 0x7F800000#32
  let main_v55 : FVec F S48x16 .f32 := broadcastInDim S48x16 ![] bcast_S_S48x16 main_cst_20
  let main_v56 : IVec S48x16 1 := cmpf .olt main_v54 main_v55
  let main_c_21 : IVec S_ 1 := constantI S_ 1 1#1
  let main_v57 : IVec S_ 1 := (fun x v => Host.reduce IntOp.andi x v reducesTo_S48x16_S_d0_1 h_S_) main_v56 main_c_21
  let main_v58 : IVec S_ 1 := andi main_v53 main_v57
  let main_v59 : FVec F S48 .f32 := Host.absf main_arg12
  let main_cst_22 : FVec F S_ .f32 := constant S_ .f32 0x7F800000#32
  let main_v60 : FVec F S48 .f32 := broadcastInDim S48 ![] bcast_S_S48 main_cst_22
  let main_v61 : IVec S48 1 := cmpf .olt main_v59 main_v60
  let main_c_23 : IVec S_ 1 := constantI S_ 1 1#1
  let main_v62 : IVec S_ 1 := (fun x v => Host.reduce IntOp.andi x v reducesTo_S48_S_d0 h_S_) main_v61 main_c_23
  let main_v63 : IVec S_ 1 := andi main_v58 main_v62
  let main_v64 : FVec F S48x16 .f32 := Host.absf main_arg13
  let main_cst_24 : FVec F S_ .f32 := constant S_ .f32 0x7F800000#32
  let main_v65 : FVec F S48x16 .f32 := broadcastInDim S48x16 ![] bcast_S_S48x16 main_cst_24
  let main_v66 : IVec S48x16 1 := cmpf .olt main_v64 main_v65
  let main_c_25 : IVec S_ 1 := constantI S_ 1 1#1
  let main_v67 : IVec S_ 1 := (fun x v => Host.reduce IntOp.andi x v reducesTo_S48x16_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S48x16 .f32) (main_arg8 : FVec F S48 .f32) (main_arg9 : FVec F S48x16 .f32) (main_arg10 : FVec F S48 .f32) (main_arg11 : FVec F S48x16 .f32) (main_arg12 : FVec F S48 .f32) (main_arg13 : FVec F S48x16 .f32) (main_arg14 : FVec F S48 .f32) (main_arg15 : FVec F S16x16 .f32) (main_arg16 : FVec F S16 .f32) (main_arg17 : FVec F S16x32 .f32) (main_arg18 : FVec F S16 .f32) (main_arg19 : FVec F S64x32 .f32) (main_arg20 : FVec F S64 .f32) (main_arg21 : FVec F S64 .f32) (main_arg22 : FVec F S64 .f32) (main_arg23 : FVec F S3x64 .f32) (main_arg24 : FVec F S3 .f32) (main_v33 : IVec S_ 1) : IVec S_ 1 :=
  let main_v34 : FVec F S48x16 .f32 := Host.absf main_arg7
  let main_cst_12 : FVec F S_ .f32 := constant S_ .f32 0x7F800000#32
  let main_v35 : FVec F S48x16 .f32 := broadcastInDim S48x16 ![] bcast_S_S48x16 main_cst_12
  let main_v36 : IVec S48x16 1 := cmpf .olt main_v34 main_v35
  let main_c_13 : IVec S_ 1 := constantI S_ 1 1#1
  let main_v37 : IVec S_ 1 := (fun x v => Host.reduce IntOp.andi x v reducesTo_S48x16_S_d0_1 h_S_) main_v36 main_c_13
  let main_v38 : IVec S_ 1 := andi main_v33 main_v37
  let main_v39 : FVec F S48 .f32 := Host.absf main_arg8
  let main_cst_14 : FVec F S_ .f32 := constant S_ .f32 0x7F800000#32
  let main_v40 : FVec F S48 .f32 := broadcastInDim S48 ![] bcast_S_S48 main_cst_14
  let main_v41 : IVec S48 1 := cmpf .olt main_v39 main_v40
  let main_c_15 : IVec S_ 1 := constantI S_ 1 1#1
  let main_v42 : IVec S_ 1 := (fun x v => Host.reduce IntOp.andi x v reducesTo_S48_S_d0 h_S_) main_v41 main_c_15
  let main_v43 : IVec S_ 1 := andi main_v38 main_v42
  let main_v44 : FVec F S48x16 .f32 := Host.absf main_arg9
  let main_cst_16 : FVec F S_ .f32 := constant S_ .f32 0x7F800000#32
  let main_v45 : FVec F S48x16 .f32 := broadcastInDim S48x16 ![] bcast_S_S48x16 main_cst_16
  let main_v46 : IVec S48x16 1 := cmpf .olt main_v44 main_v45
  let main_c_17 : IVec S_ 1 := constantI S_ 1 1#1
  let main_v47 : IVec S_ 1 := (fun x v => Host.reduce IntOp.andi x v reducesTo_S48x16_S_d0_1 h_S_) main_v46 main_c_17
  let main_v48 : IVec S_ 1 := andi main_v43 main_v47
  let main_v49 : FVec F S48 .f32 := Host.absf main_arg10
  let main_cst_18 : FVec F S_ .f32 := constant S_ .f32 0x7F800000#32
  let main_v50 : FVec F S48 .f32 := broadcastInDim S48 ![] bcast_S_S48 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S16 .f32) (main_arg5 : FVec F S16x1 .f32) (main_arg6 : FVec F S16 .f32) (main_arg7 : FVec F S48x16 .f32) (main_arg8 : FVec F S48 .f32) (main_arg9 : FVec F S48x16 .f32) (main_arg10 : FVec F S48 .f32) (main_arg11 : FVec F S48x16 .f32) (main_arg12 : FVec F S48 .f32) (main_arg13 : FVec F S48x16 .f32) (main_arg14 : FVec F S48 .f32) (main_arg15 : FVec F S16x16 .f32) (main_arg16 : FVec F S16 .f32) (main_arg17 : FVec F S16x32 .f32) (main_arg18 : FVec F S16 .f32) (main_arg19 : FVec F S64x32 .f32) (main_arg20 : FVec F S64 .f32) (main_arg21 : FVec F S64 .f32) (main_arg22 : FVec F S64 .f32) (main_arg23 : FVec F S3x64 .f32) (main_arg24 : FVec F S3 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x1 .f32 := Host.absf main_arg5
  let main_cst_8 : FVec F S_ .f32 := constant S_ .f32 0x7F800000#32
  let main_v25 : FVec F S16x1 .f32 := broadcastInDim S16x1 ![] bcast_S_S16x1 main_cst_8
  let main_v26 : IVec S16x1 1 := cmpf .olt main_v24 main_v25
  let main_c_9 : IVec S_ 1 := constantI S_ 1 1#1
  let main_v27 : IVec S_ 1 := (fun x v => Host.reduce IntOp.andi x v reducesTo_S16x1_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S1048576x3 .f32) (main_arg1 : FVec F S16x1 .f32) (main_arg2 : FVec F S16 .f32) (main_arg3 : FVec F S16x1 .f32) (main_arg4 : FVec F S16 .f32) (main_arg5 : FVec F S16x1 .f32) (main_arg6 : FVec F S16 .f32) (main_arg7 : FVec F S48x16 .f32) (main_arg8 : FVec F S48 .f32) (main_arg9 : FVec F S48x16 .f32) (main_arg10 : FVec F S48 .f32) (main_arg11 : FVec F S48x16 .f32) (main_arg12 : FVec F S48 .f32) (main_arg13 : FVec F S48x16 .f32) (main_arg14 : FVec F S48 .f32) (main_arg15 : FVec F S16x16 .f32) (main_arg16 : FVec F S16 .f32) (main_arg17 : FVec F S16x32 .f32) (main_arg18 : FVec F S16 .f32) (main_arg19 : FVec F S64x32 .f32) (main_arg20 : FVec F S64 .f32) (main_arg21 : FVec F S64 .f32) (main_arg22 : FVec F S64 .f32) (main_arg23 : FVec F S3x64 .f32) (main_arg24 : FVec F S3 .f32) : IVec S_ 1 :=
  let main_v0 : FVec F S1048576x3 .f32 := Host.absf main_arg0
  let main_cst : FVec F S_ .f32 := constant S_ .f32 0x7F800000#32
  let main_v1 : FVec F S1048576x3 .f32 := broadcastInDim S1048576x3 ![] bcast_S_S1048576x3 main_cst
  let main_v2 : IVec S1048576x3 1 := cmpf .olt main_v0 main_v1
  let main_c : IVec S_ 1 := constantI S_ 1 1#1
  let main_v3 : IVec S_ 1 := (fun x v => Host.reduce IntOp.andi x v reducesTo_S1048576x3_S_d0_1 h_S_) main_v2 main_c
  let main_v4 : FVec F S16x1 .f32 := Host.absf main_arg1
  let main_cst_0 : FVec F S_ .f32 := constant S_ .f32 0x7F800000#32
  let main_v5 : FVec F S16x1 .f32 := broadcastInDim S16x1 ![] bcast_S_S16x1 main_cst_0
  let main_v6 : IVec S16x1 1 := cmpf .olt main_v4 main_v5
  let main_c_1 : IVec S_ 1 := constantI S_ 1 1#1
  let main_v7 : IVec S_ 1 := (fun x v => Host.reduce IntOp.andi x v reducesTo_S16x1_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg3
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S1048576x3 : Shape := ⟨2, ![1048576, 3]⟩
abbrev S16x1 : Shape := ⟨2, ![16, 1]⟩
abbrev S16 : Shape := ⟨1, ![16]⟩
abbrev S48x16 : Shape := ⟨2, ![48, 16]⟩
abbrev S48 : Shape := ⟨1, ![48]⟩
abbrev S16x16 : Shape := ⟨2, ![16, 16]⟩
abbrev S16x32 : Shape := ⟨2, ![16, 32]⟩
abbrev S64x32 : Shape := ⟨2, ![64, 32]⟩
abbrev S64 : Shape := ⟨1, ![64]⟩
abbrev S3x64 : Shape := ⟨2, ![3, 64]⟩
abbrev S3 : Shape := ⟨1, ![3]⟩
abbrev S1x16 : Shape := ⟨2, ![1, 16]⟩
abbrev S1x48 : Shape := ⟨2, ![1, 48]⟩
abbrev S1x64 : Shape := ⟨2, ![1, 64]⟩
abbrev S1x3 : Shape := ⟨2, ![1, 3]⟩
abbrev S8192x3 : Shape := ⟨2, ![8192, 3]⟩
abbrev S8192x1 : Shape := ⟨2, ![8192, 1]⟩
abbrev S8192x16 : Shape := ⟨2, ![8192, 16]⟩
abbrev S8192x48 : Shape := ⟨2, ![8192, 48]⟩
abbrev S8192x32 : Shape := ⟨2, ![8192, 32]⟩
abbrev S8192x64 : Shape := ⟨2, ![8192, 64]⟩
abbrev S_ : Shape := ⟨0, ![]⟩

abbrev nBuf : Space → Nat
  | .hbm => 47
  | .vmem => 46
  | .smem => 0
  | _ => 0

abbrev bufTy : (tb : Table) → Fin (tcTables nBuf tb) → BufTy
  | .hbm, ⟨0, _⟩ => ⟨S1048576x3, .f32⟩
  | .hbm, ⟨1, _⟩ => ⟨S16x1, .f32⟩
  | .hbm, ⟨2, _⟩ => ⟨S16, .f32⟩
  | .hbm, ⟨3, _⟩ => ⟨S16x1, .f32⟩
  | .hbm, ⟨4, _⟩ => ⟨S16, .f32⟩
  | .hbm, ⟨5, _⟩ => ⟨S16x1, .f32⟩
  | .hbm, ⟨6, _⟩ => ⟨S16, .f32⟩
  | .hbm, ⟨7, _⟩ => ⟨S48x16, .f32⟩
  | .hbm, ⟨8, _⟩ => ⟨S48, .f32⟩
  | .hbm, ⟨9, _⟩ => ⟨S48x16, .f32⟩
  | .hbm, ⟨10, _⟩ => ⟨S48, .f32⟩
  | .hbm, ⟨11, _⟩ => ⟨S48x16, .f32⟩
  | .hbm, ⟨12, _⟩ => ⟨S48, .f32⟩
  | .hbm, ⟨13, _⟩ => ⟨S48x16, .f32⟩
  | .hbm, ⟨14, _⟩ => ⟨S48, .f32⟩
  | .hbm, ⟨15, _⟩ => ⟨S16x16, .f32⟩
  | .hbm, ⟨16, _⟩ => ⟨S16, .f32⟩
  | .hbm, ⟨17, _⟩ => ⟨S16x32, .f32⟩
  | .hbm, ⟨18, _⟩ => ⟨S16, .f32⟩
  | .hbm, ⟨19, _⟩ => ⟨S64x32, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S3x64, .f32⟩
  | .hbm, ⟨24, _⟩ => ⟨S3, .f32⟩
  | .hbm, ⟨25, _⟩ => ⟨S1x16, .f32⟩
  | .hbm, ⟨26, _⟩ => ⟨S1x16, .f32⟩
  | .hbm, ⟨27, _⟩ => ⟨S1x48, .f32⟩
  | .hbm, ⟨28, _⟩ => ⟨S1x48, .f32⟩
  | .hbm, ⟨29, _⟩ => ⟨S1x48, .f32⟩
  | .hbm, ⟨30, _⟩ => ⟨S1x16, .f32⟩
  | .hbm, ⟨31, _⟩ => ⟨S1x16, .f32⟩
  | .hbm, ⟨32, _⟩ => ⟨S1x64, .f32⟩
  | .hbm, ⟨33, _⟩ => ⟨S1x64, .f32⟩
  | .hbm, ⟨34, _⟩ => ⟨S1x64, .f32⟩
  | .hbm, ⟨35, _⟩ => ⟨S1x3, .f32⟩
  | .hbm, ⟨36, _⟩ => ⟨S1x64, .f32⟩
  | .hbm, ⟨37, _⟩ => ⟨S1x64, .f32⟩
  | .hbm, ⟨38, _⟩ => ⟨S_, .f32⟩
  | .hbm, ⟨39, _⟩ => ⟨S1x64, .f32⟩
  | .hbm, ⟨40, _⟩ => ⟨S1x64, .f32⟩
  | .hbm, ⟨41, _⟩ => ⟨S_, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S1x64, .f32⟩
  | .hbm, ⟨46, _⟩ => ⟨S1048576x3, .f32⟩
  | .local _ .vmem, ⟨0, _⟩ => ⟨S8192x3, .f32⟩
  | .local _ .vmem, ⟨1, _⟩ => ⟨S8192x3, .f32⟩
  | .local _ .vmem, ⟨2, _⟩ => ⟨S16x1, .f32⟩
  | .local _ .vmem, ⟨3, _⟩ => ⟨S1x16, .f32⟩
  | .local _ .vmem, ⟨4, _⟩ => ⟨S16x1, .f32⟩
  | .local _ .vmem, ⟨5, _⟩ => ⟨S1x16, .f32⟩
  | .local _ .vmem, ⟨6, _⟩ => ⟨S48x16, .f32⟩
  | .local _ .vmem, ⟨7, _⟩ => ⟨S1x48, .f32⟩
  | .local _ .vmem, ⟨8, _⟩ => ⟨S48x16, .f32⟩
  | .local _ .vmem, ⟨9, _⟩ => ⟨S1x48, .f32⟩
  | .local _ .vmem, ⟨10, _⟩ => ⟨S48x16, .f32⟩
  | .local _ .vmem, ⟨11, _⟩ => ⟨S1x48, .f32⟩
  | .local _ .vmem, ⟨12, _⟩ => ⟨S16x16, .f32⟩
  | .local _ .vmem, ⟨13, _⟩ => ⟨S1x16, .f32⟩
  | .local _ .vmem, ⟨14, _⟩ => ⟨S16x32, .f32⟩
  | .local _ .vmem, ⟨15, _⟩ => ⟨S1x16, .f32⟩
  | .local _ .vmem, ⟨16, _⟩ => ⟨S64x32, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S8192x3, .f32⟩
  | .local _ .vmem, ⟨21, _⟩ => ⟨S8192x3, .f32⟩
  | .local _ .vmem, ⟨22, _⟩ => ⟨S16x1, .f32⟩
  | .local _ .vmem, ⟨23, _⟩ => ⟨S1x16, .f32⟩
  | .local _ .vmem, ⟨24, _⟩ => ⟨S16x1, .f32⟩
  | .local _ .vmem, ⟨25, _⟩ => ⟨S1x16, .f32⟩
  | .local _ .vmem, ⟨26, _⟩ => ⟨S48x16, .f32⟩
  | .local _ .vmem, ⟨27, _⟩ => ⟨S1x48, .f32⟩
  | .local _ .vmem, ⟨28, _⟩ => ⟨S48x16, .f32⟩
  | .local _ .vmem, ⟨29, _⟩ => ⟨S1x48, .f32⟩
  | .local _ .vmem, ⟨30, _⟩ => ⟨S48x16, .f32⟩
  | .local _ .vmem, ⟨31, _⟩ => ⟨S1x48, .f32⟩
  | .local _ .vmem, ⟨32, _⟩ => ⟨S16x16, .f32⟩
  | .local _ .vmem, ⟨33, _⟩ => ⟨S1x16, .f32⟩
  | .local _ .vmem, ⟨34, _⟩ => ⟨S16x32, .f32⟩
  | .local _ .vmem, ⟨35, _⟩ => ⟨S1x16, .f32⟩
  | .local _ .vmem, ⟨36, _⟩ => ⟨S64x32, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S1x64, .f32⟩
  | .local _ .vmem, ⟨41, _⟩ => ⟨S1x64, .f32⟩
  | .local _ .vmem, ⟨42, _⟩ => ⟨S3x64, .f32⟩
  | .local _ .vmem, ⟨43, _⟩ => ⟨S1x3, .f32⟩
  | .local _ .vmem, ⟨44, _⟩ => ⟨S8192x3, .f32⟩
  | .local _ .vmem, ⟨45, _⟩ => ⟨S8192x3, .f32⟩
  | _, _ => ⟨S1048576x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11_0 : Ref sig .tc := ⟨.hbm, 36, rfl⟩
abbrev main_v11_1 : Ref sig .tc := ⟨.hbm, 37, rfl⟩
abbrev main_cst : Ref sig .tc := ⟨.hbm, 38, rfl⟩
abbrev main_v12 : Ref sig .tc := ⟨.hbm, 39, rfl⟩
abbrev main_v13 : Ref sig .tc := ⟨.hbm, 40, rfl⟩
abbrev main_cst_0 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg10_0 : Ref sig .tc := ⟨.vmem, 31, rfl⟩
abbrev cc1_stg11_0 : Ref sig .tc := ⟨.vmem, 32, rfl⟩
abbrev cc1_stg12_0 : Ref sig .tc := ⟨.vmem, 33, rfl⟩
abbrev cc1_stg13_0 : Ref sig .tc := ⟨.vmem, 34, rfl⟩
abbrev cc1_stg14_0 : Ref sig .tc := ⟨.vmem, 35, rfl⟩
abbrev cc1_stg15_0 : Ref sig .tc := ⟨.vmem, 36, rfl⟩
abbrev cc1_stg16_0 : Ref sig .tc := ⟨.vmem, 37, rfl⟩
abbrev cc1_stg17_0 : Ref sig .tc := ⟨.vmem, 38, rfl⟩
abbrev cc1_stg18_0 : Ref sig .tc := ⟨.vmem, 39, rfl⟩
abbrev cc1_stg19_0 : Ref sig .tc := ⟨.vmem, 40, rfl⟩
abbrev cc1_stg20_0 : Ref sig .tc := ⟨.vmem, 41, rfl⟩
abbrev cc1_stg21_0 : Ref sig .tc := ⟨.vmem, 42, rfl⟩
abbrev cc1_stg22_0 : Ref sig .tc := ⟨.vmem, 43, rfl⟩
abbrev cc1_stg23_0 : Ref sig .tc := ⟨.vmem, 44, rfl⟩
abbrev cc1_stg23_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc1_sem0_0 : DmaSem sig := 20
abbrev cc1_sem0_1 : DmaSem sig := 21
abbrev cc1_sem1_0 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem10_0 : DmaSem sig := 31
abbrev cc1_sem11_0 : DmaSem sig := 32
abbrev cc1_sem12_0 : DmaSem sig := 33
abbrev cc1_sem13_0 : DmaSem sig := 34
abbrev cc1_sem14_0 : DmaSem sig := 35
abbrev cc1_sem15_0 : DmaSem sig := 36
abbrev cc1_sem16_0 : DmaSem sig := 37
abbrev cc1_sem17_0 : DmaSem sig := 38
abbrev cc1_sem18_0 : DmaSem sig := 39
abbrev cc1_sem19_0 : DmaSem sig := 40
abbrev cc1_sem20_0 : DmaSem sig := 41
abbrev cc1_sem21_0 : DmaSem sig := 42
abbrev cc1_sem22_0 : DmaSem sig := 43
abbrev cc1_sem23_0 : DmaSem sig := 44
abbrev cc1_sem23_1 : DmaSem sig := 45

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S48x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S48x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x48 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S48x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x48 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S48x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x48 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S48x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x48 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S48x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x48 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S16x16 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x16 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S16x32 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x16 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S64x32 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x64 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x64 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x64 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S1x64 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S1x64 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S3x64 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S1x3 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 2 → Memref sig .tc .vmem S8192x3 .f32 := fun | 0 => Memref.whole cc1_stg23_0 | 1 => Memref.whole cc1_stg23_1 | ⟨_ + 2, h⟩ => absurd h (Nat.not_lt.2 (Nat.le_add_left _ _))
abbrev sem1_23 : Fin 2 → DmaSem sig := fun | 0 => cc1_sem23_0 | 1 => cc1_sem23_1 | ⟨_ + 2, h⟩ => absurd h (Nat.not_lt.2 (Nat.le_add_left _ _))
abbrev reads1_23 : Fin grid1.rank → Bool := ![true]

class Facts₀ : Prop where
  shapeCasts_S16_S1x16 : S16.ShapeCasts S1x16
  shapeCasts_S48_S1x48 : S48.ShapeCasts S1x48
  shapeCasts_S64_S1x64 : S64.ShapeCasts S1x64
  shapeCasts_S3_S1x3 : S3.ShapeCasts S1x3
  inb_S1x64_S1x64_0_0 : ∀ a, (![0, 0] : Fin 2 → Nat) a + S1x64.size a ≤ S1x64.size a
  h_S1x64 : 0 < S1x64.numel
  inb_S8192x3_S8192x3_0_0 : ∀ a, (![0, 0] : Fin 2 → Nat) a + S8192x3.size a ≤ S8192x3.size a
  h_S8192x3 : 0 < S8192x3.numel
  inb_S16x1_S16x1_0_0 : ∀ a, (![0, 0] : Fin 2 → Nat) a + S16x1.size a ≤ S16x1.size a
  h_S16x1 : 0 < S16x1.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S48x16_S48x16_0_0 : ∀ a, (![0, 0] : Fin 2 → Nat) a + S48x16.size a ≤ S48x16.size a
  h_S48x16 : 0 < S48x16.numel
  inb_S1x48_S1x48_0_0 : ∀ a, (![0, 0] : Fin 2 → Nat) a + S1x48.size a ≤ S1x48.size a
  h_S1x48 : 0 < S1x48.numel
  shapeCasts_S1x48_S1x48 : S1x48.ShapeCasts S1x48
  inb_S16x16_S16x16_0_0 : ∀ a, (![0, 0] : Fin 2 → Nat) a + S16x16.size a ≤ S16x16.size a
  h_S16x16 : 0 < S16x16.numel
  inb_S16x32_S16x32_0_0 : ∀ a, (![0, 0] : Fin 2 → Nat) a + S16x32.size a ≤ S16x32.size a
  h_S16x32 : 0 < S16x32.numel
  inb_S64x32_S64x32_0_0 : ∀ a, (![0, 0] : Fin 2 → Nat) a + S64x32.size a ≤ S64x32.size a
  h_S64x32 : 0 < S64x32.numel
  shapeCasts_S1x64_S1x64 : S1x64.ShapeCasts S1x64
  slices_S8192x3_o0_0_S8192x1 : S8192x3.Slices ![0, 0] S8192x1
  slices_S8192x3_o0_2_S8192x1 : S8192x3.Slices ![0, 2] S8192x1
  shapeCasts_S16x1_S16 : S16x1.ShapeCasts S16
  broadcasts_S8192x1_S8192x16 : S8192x1.Broadcasts S8192x16
  broadcasts_S1x16_S8192x16 : S1x16.Broadcasts S8192x16
  bitsLt_bf16_f32 : FTy.bits .bf16 < FTy.bits .f32
  broadcasts_S1x48_S8192x48 : S1x48.Broadcasts S8192x48
  slices_S8192x48_o0_32_S8192x16 : S8192x48.Slices ![0, 32] S8192x16
  slices_S48x16_o32_0_S16x16 : S48x16.Slices ![32, 0] S16x16
  slices_S1x48_o0_32_S1x16 : S1x48.Slices ![0, 32] S1x16
  concatenates_S8192x16_S8192x16_S8192x32_d1 : Shape.Concatenates [S8192x16, S8192x16] S8192x32 1
  broadcasts_S1x64_S8192x64 : S1x64.Broadcasts S8192x64
  reduces_S8192x64_S64 : S8192x64.Reduces [0] S64
  bcast_S_S1x64 : S_.BroadcastsInDim S1x64 (![] : Fin 0 → Fin S1x64.rank)
  inb_S3x64_S3x64_0_0 : ∀ a, (![0, 0] : Fin 2 → Nat) a + S3x64.size a ≤ S3x64.size a
  h_S3x64 : 0 < S3x64.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S8192x3 : S1x3.Broadcasts S8192x3
  dot_S8192x16_S48x16_S8192x48_1_1_0_0_n_n_wf : DotDims.WF S8192x16 S48x16 S8192x48 [1] [1] [0] [0] [] []
  dot_S8192x16_S16x16_S8192x16_1_1_0_0_n_n_wf : DotDims.WF S8192x16 S16x16 S8192x16 [1] [1] [0] [0] [] []
  dot_S8192x32_S16x32_S8192x16_1_1_0_0_n_n_wf : DotDims.WF S8192x32 S16x32 S8192x16 [1] [1] [0] [0] [] []
  dot_S8192x32_S64x32_S8192x64_1_1_0_0_n_n_wf : DotDims.WF S8192x32 S64x32 S8192x64 [1] [1] [0] [0] [] []
  dot_S8192x64_S3x64_S8192x3_1_1_0_0_n_n_wf : DotDims.WF S8192x64 S3x64 S8192x3 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x3.size a ≤ S1048576x3.size a
  hwx0_0 : ∀ i : grid0.Coords, EltTy.bits .f32 = 32 ∨ (Rect.block (s := S1048576x3) S8192x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1.size a ≤ S16x1.size a
  hwx0_1 : ∀ i : grid0.Coords, EltTy.bits .f32 = 32 ∨ (Rect.block (s := S16x1) S16x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S16x1.size a
  hwx0_3 : ∀ i : grid0.Coords, EltTy.bits .f32 = 32 ∨ (Rect.block (s := S16x1) S16x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S48x16.size a ≤ S48x16.size a
  hwx0_5 : ∀ i : grid0.Coords, EltTy.bits .f32 = 32 ∨ (Rect.block (s := S48x16) S48x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x48.size a ≤ S1x48.size a
  hwx0_6 : ∀ i : grid0.Coords, EltTy.bits .f32 = 32 ∨ (Rect.block (s := S1x48) S1x48.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S48x16.size a ≤ S48x16.size a
  hwx0_7 : ∀ i : grid0.Coords, EltTy.bits .f32 = 32 ∨ (Rect.block (s := S48x16) S48x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x48.size a ≤ S1x48.size a
  hwx0_8 : ∀ i : grid0.Coords, EltTy.bits .f32 = 32 ∨ (Rect.block (s := S1x48) S1x48.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S48x16.size a ≤ S48x16.size a
  hwx0_9 : ∀ i : grid0.Coords, EltTy.bits .f32 = 32 ∨ (Rect.block (s := S48x16) S48x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x48.size a ≤ S1x48.size a
  hwx0_10 : ∀ i : grid0.Coords, EltTy.bits .f32 = 32 ∨ (Rect.block (s := S1x48) S1x48.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S16x16.size a ≤ S16x16.size a
  hwx0_11 : ∀ i : grid0.Coords, EltTy.bits .f32 = 32 ∨ (Rect.block (s := S16x16) S16x16.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x16.size a ≤ S1x16.size a
  hwx0_12 : ∀ i : grid0.Coords, EltTy.bits .f32 = 32 ∨ (Rect.block (s := S1x16) S1x16.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S16x32.size a ≤ S16x32.size a
  hwx0_13 : ∀ i : grid0.Coords, EltTy.bits .f32 = 32 ∨ (Rect.block (s := S16x32) S16x32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x16.size a ≤ S1x16.size a
  hwx0_14 : ∀ i : grid0.Coords, EltTy.bits .f32 = 32 ∨ (Rect.block (s := S1x16) S1x16.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x32.size a ≤ S64x32.size a
  hwx0_15 : ∀ i : grid0.Coords, EltTy.bits .f32 = 32 ∨ (Rect.block (s := S64x32) S64x32.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x64.size a ≤ S1x64.size a
  hwx0_16 : ∀ i : grid0.Coords, EltTy.bits .f32 = 32 ∨ (Rect.block (s := S1x64) S1x64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x64.size a ≤ S1x64.size a
  hwx0_17 : ∀ i : grid0.Coords, EltTy.bits .f32 = 32 ∨ (Rect.block (s := S1x64) S1x64.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x64.size a ≤ S1x64.size a
  hwx0_18 : ∀ i : grid0.Coords, EltTy.bits .f32 = 32 ∨ (Rect.block (s := S1x64) S1x64.size (cc0_transform_18 i) (hinb0_18 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x3.size a ≤ S1048576x3.size a
  hwx1_0 : ∀ i : grid1.Coords, EltTy.bits .f32 = 32 ∨ (Rect.block (s := S1048576x3) S8192x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x1.size a ≤ S16x1.size a
  hwx1_1 : ∀ i : grid1.Coords, EltTy.bits .f32 = 32 ∨ (Rect.block (s := S16x1) S16x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x1.size a ≤ S16x1.size a
  hwx1_3 : ∀ i : grid1.Coords, EltTy.bits .f32 = 32 ∨ (Rect.block (s := S16x1) S16x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S48x16.size a ≤ S48x16.size a
  hwx1_5 : ∀ i : grid1.Coords, EltTy.bits .f32 = 32 ∨ (Rect.block (s := S48x16) S48x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x48.size a ≤ S1x48.size a
  hwx1_6 : ∀ i : grid1.Coords, EltTy.bits .f32 = 32 ∨ (Rect.block (s := S1x48) S1x48.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S48x16.size a ≤ S48x16.size a
  hwx1_7 : ∀ i : grid1.Coords, EltTy.bits .f32 = 32 ∨ (Rect.block (s := S48x16) S48x16.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x48.size a ≤ S1x48.size a
  hwx1_8 : ∀ i : grid1.Coords, EltTy.bits .f32 = 32 ∨ (Rect.block (s := S1x48) S1x48.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S48x16.size a ≤ S48x16.size a
  hwx1_9 : ∀ i : grid1.Coords, EltTy.bits .f32 = 32 ∨ (Rect.block (s := S48x16) S48x16.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x48.size a ≤ S1x48.size a
  hwx1_10 : ∀ i : grid1.Coords, EltTy.bits .f32 = 32 ∨ (Rect.block (s := S1x48) S1x48.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S16x16.size a ≤ S16x16.size a
  hwx1_11 : ∀ i : grid1.Coords, EltTy.bits .f32 = 32 ∨ (Rect.block (s := S16x16) S16x16.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x16.size a ≤ S1x16.size a
  hwx1_12 : ∀ i : grid1.Coords, EltTy.bits .f32 = 32 ∨ (Rect.block (s := S1x16) S1x16.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S16x32.size a ≤ S16x32.size a
  hwx1_13 : ∀ i : grid1.Coords, EltTy.bits .f32 = 32 ∨ (Rect.block (s := S16x32) S16x32.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x16.size a ≤ S1x16.size a
  hwx1_14 : ∀ i : grid1.Coords, EltTy.bits .f32 = 32 ∨ (Rect.block (s := S1x16) S1x16.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S64x32.size a ≤ S64x32.size a
  hwx1_15 : ∀ i : grid1.Coords, EltTy.bits .f32 = 32 ∨ (Rect.block (s := S64x32) S64x32.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x64.size a ≤ S1x64.size a
  hwx1_16 : ∀ i : grid1.Coords, EltTy.bits .f32 = 32 ∨ (Rect.block (s := S1x64) S1x64.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S1x64.size a ≤ S1x64.size a
  hwx1_17 : ∀ i : grid1.Coords, EltTy.bits .f32 = 32 ∨ (Rect.block (s := S1x64) S1x64.size (cc1_transform_17 i) (hinb1_17 i)).WholeWords (EltTy.packing .f32)
  hstage1_18 : ∀ j, (stage1_18 j).IsWhole
  nbuf1_18 : grid1.bufCount reads1_18 true = 1
  hreads1_18 : ∀ i i' : grid1.Coords, (∀ a, reads1_18 a = true → i a = i' a) → cc1_transform_18 i = cc1_transform_18 i'
  hinb1_18 : ∀ (i : grid1.Coords) a, (cc1_transform_18 i a + 1) * S1x64.size a ≤ S1x64.size a
  hwx1_18 : ∀ i : grid1.Coords, EltTy.bits .f32 = 32 ∨ (Rect.block (s := S1x64) S1x64.size (cc1_transform_18 i) (hinb1_18 i)).WholeWords (EltTy.packing .f32)
  hstage1_19 : ∀ j, (stage1_19 j).IsWhole
  nbuf1_19 : grid1.bufCount reads1_19 true = 1
  hreads1_19 : ∀ i i' : grid1.Coords, (∀ a, reads1_19 a = true → i a = i' a) → cc1_transform_19 i = cc1_transform_19 i'
  hinb1_19 : ∀ (i : grid1.Coords) a, (cc1_transform_19 i a + 1) * S1x64.size a ≤ S1x64.size a
  hwx1_19 : ∀ i : grid1.Coords, EltTy.bits .f32 = 32 ∨ (Rect.block (s := S1x64) S1x64.size (cc1_transform_19 i) (hinb1_19 i)).WholeWords (EltTy.packing .f32)
  hstage1_20 : ∀ j, (stage1_20 j).IsWhole
  nbuf1_20 : grid1.bufCount reads1_20 true = 1
  hreads1_20 : ∀ i i' : grid1.Coords, (∀ a, reads1_20 a = true → i a = i' a) → cc1_transform_20 i = cc1_transform_20 i'
  hinb1_20 : ∀ (i : grid1.Coords) a, (cc1_transform_20 i a + 1) * S1x64.size a ≤ S1x64.size a
  hwx1_20 : ∀ i : grid1.Coords, EltTy.bits .f32 = 32 ∨ (Rect.block (s := S1x64) S1x64.size (cc1_transform_20 i) (hinb1_20 i)).WholeWords (EltTy.packing .f32)
  hstage1_21 : ∀ j, (stage1_21 j).IsWhole
  nbuf1_21 : grid1.bufCount reads1_21 true = 1
  hreads1_21 : ∀ i i' : grid1.Coords, (∀ a, reads1_21 a = true → i a = i' a) → cc1_transform_21 i = cc1_transform_21 i'
  hinb1_21 : ∀ (i : grid1.Coords) a, (cc1_transform_21 i a + 1) * S3x64.size a ≤ S3x64.size a
  hwx1_21 : ∀ i : grid1.Coords, EltTy.bits .f32 = 32 ∨ (Rect.block (s := S3x64) S3x64.size (cc1_transform_21 i) (hinb1_21 i)).WholeWords (EltTy.packing .f32)
  hstage1_22 : ∀ j, (stage1_22 j).IsWhole
  nbuf1_22 : grid1.bufCount reads1_22 true = 1
  hreads1_22 : ∀ i i' : grid1.Coords, (∀ a, reads1_22 a = true → i a = i' a) → cc1_transform_22 i = cc1_transform_22 i'
  hinb1_22 : ∀ (i : grid1.Coords) a, (cc1_transform_22 i a + 1) * S1x3.size a ≤ S1x3.size a
  hwx1_22 : ∀ i : grid1.Coords, EltTy.bits .f32 = 32 ∨ (Rect.block (s := S1x3) S1x3.size (cc1_transform_22 i) (hinb1_22 i)).WholeWords (EltTy.packing .f32)
  hstage1_23 : ∀ j, (stage1_23 j).IsWhole
  nbuf1_23 : grid1.bufCount reads1_23 false = 2
  hreads1_23 : ∀ i i' : grid1.Coords, (∀ a, reads1_23 a = true → i a = i' a) → cc1_transform_23 i = cc1_transform_23 i'
  hinb1_23 : ∀ (i : grid1.Coords) a, (cc1_transform_23 i a + 1) * S8192x3.size a ≤ S1048576x3.size a
  hwx1_23 : ∀ i : grid1.Coords, EltTy.bits .f32 = 32 ∨ (Rect.block (s := S1048576x3) S8192x3.size (cc1_transform_23 i) (hinb1_23 i)).WholeWords (EltTy.packing .f32)

variable [Facts₀]

def dot_S8192x16_S48x16_S8192x48_1_1_0_0_n_n : DotDims S8192x16 S48x16 S8192x48 where
  lhsContracting := [1]
  rhsContracting := [1]
  lhsNonContracting := [0]
  rhsNonContracting := [0]
  lhsBatch := []
  rhsBatch := []
  wf := dot_S8192x16_S48x16_S8192x48_1_1_0_0_n_n_wf
def dot_S8192x16_S16x16_S8192x16_1_1_0_0_n_n : DotDims S8192x16 S16x16 S8192x16 where
  lhsContracting := [1]
  rhsContracting := [1]
  lhsNonContracting := [0]
  rhsNonContracting := [0]
  lhsBatch := []
  rhsBatch := []
  wf := dot_S8192x16_S16x16_S8192x16_1_1_0_0_n_n_wf
def dot_S8192x32_S16x32_S8192x16_1_1_0_0_n_n : DotDims S8192x32 S16x32 S8192x16 where
  lhsContracting := [1]
  rhsContracting := [1]
  lhsNonContracting := [0]
  rhsNonContracting := [0]
  lhsBatch := []
  rhsBatch := []
  wf := dot_S8192x32_S16x32_S8192x16_1_1_0_0_n_n_wf
def dot_S8192x32_S64x32_S8192x64_1_1_0_0_n_n : DotDims S8192x32 S64x32 S8192x64 where
  lhsContracting := [1]
  rhsContracting := [1]
  lhsNonContracting := [0]
  rhsNonContracting := [0]
  lhsBatch := []
  rhsBatch := []
  wf := dot_S8192x32_S64x32_S8192x64_1_1_0_0_n_n_wf
def dot_S8192x64_S3x64_S8192x3_1_1_0_0_n_n : DotDims S8192x64 S3x64 S8192x3 where
  lhsContracting := [1]
  rhsContracting := [1]
  lhsNonContracting := [0]
  rhsNonContracting := [0]
  lhsBatch := []
  rhsBatch := []
  wf := dot_S8192x64_S3x64_S8192x3_1_1_0_0_n_n_wf

abbrev win0_0 : Pipeline.Window sig grid0 :=
  Pipeline.Window.ofSpec (Memref.whole main_arg0) S8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S16x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S48x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x48.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S48x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x48.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S48x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x48.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg15) S16x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x16.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg17) S16x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v6) S1x16.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg19) S64x32.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v7) S1x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v11_0) S1x64.size cc0_transform_17 reads0_17 true true 1 stage0_17 sem0_17
    hrank0 hreads0_17 hinb0_17 nbuf0_17 (Memref.isWhole_whole _) hwx0_17 hstage0_17

abbrev win0_18 : Pipeline.Window sig grid0 :=
  Pipeline.Window.ofSpec (Memref.whole main_v11_1) S1x64.size cc0_transform_18 reads0_18 true true 1 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev win1_0 : Pipeline.Window sig grid1 :=
  Pipeline.Window.ofSpec (Memref.whole main_arg0) S8192x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S16x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S16x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S48x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S1x48.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S48x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v3) S1x48.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg13) S48x16.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v4) S1x48.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg15) S16x16.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v5) S1x16.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg17) S16x32.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v6) S1x16.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_arg19) S64x32.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v7) S1x64.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v13) S1x64.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v17) S1x64.size cc1_transform_18 reads1_18 false true 1 stage1_18 sem1_18
    hrank1 hreads1_18 hinb1_18 nbuf1_18 (Memref.isWhole_whole _) hwx1_18 hstage1_18

abbrev win1_19 : Pipeline.Window sig grid1 :=
  Pipeline.Window.ofSpec (Memref.whole main_v8) S1x64.size cc1_transform_19 reads1_19 false true 1 stage1_19 sem1_19
    hrank1 hreads1_19 hinb1_19 nbuf1_19 (Memref.isWhole_whole _) hwx1_19 hstage1_19

abbrev win1_20 : Pipeline.Window sig grid1 :=
  Pipeline.Window.ofSpec (Memref.whole main_v9) S1x64.size cc1_transform_20 reads1_20 false true 1 stage1_20 sem1_20
    hrank1 hreads1_20 hinb1_20 nbuf1_20 (Memref.isWhole_whole _) hwx1_20 hstage1_20

abbrev win1_21 : Pipeline.Window sig grid1 :=
  Pipeline.Window.ofSpec (Memref.whole main_arg23) S3x64.size cc1_transform_21 reads1_21 false true 1 stage1_21 sem1_21
    hrank1 hreads1_21 hinb1_21 nbuf1_21 (Memref.isWhole_whole _) hwx1_21 hstage1_21

abbrev win1_22 : Pipeline.Window sig grid1 :=
  Pipeline.Window.ofSpec (Memref.whole main_v10) S1x3.size cc1_transform_22 reads1_22 false true 1 stage1_22 sem1_22
    hrank1 hreads1_22 hinb1_22 nbuf1_22 (Memref.isWhole_whole _) hwx1_22 hstage1_22

abbrev win1_23 : Pipeline.Window sig grid1 :=
  Pipeline.Window.ofSpec (Memref.whole main_v18) S8192x3.size cc1_transform_23 reads1_23 true false 2 stage1_23 sem1_23
    hrank1 hreads1_23 hinb1_23 nbuf1_23 (Memref.isWhole_whole _) hwx1_23 hstage1_23

abbrev win1 : Fin 24 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | 21 => win1_21 | 22 => win1_22 | 23 => win1_23 | ⟨_ + 24, h⟩ => absurd h (Nat.not_lt.2 (Nat.le_add_left _ _))
abbrev spec1 : Fin 24 → Pipeline.WinSpec sig grid1.rank := fun w => (win1 w).toWinSpec

class Facts : Prop extends Facts₀ where

variable [Facts]
-- ==== ReferenceIdeal.lean ====
abbrev S1048576x3 : Shape := ⟨2, ![1048576, 3]⟩
abbrev S16x1 : Shape := ⟨2, ![16, 1]⟩
abbrev S16 : Shape := ⟨1, ![16]⟩
abbrev S48x16 : Shape := ⟨2, ![48, 16]⟩
abbrev S48 : Shape := ⟨1, ![48]⟩
abbrev S16x16 : Shape := ⟨2, ![16, 16]⟩
abbrev S16x32 : Shape := ⟨2, ![16, 32]⟩
abbrev S64x32 : Shape := ⟨2, ![64, 32]⟩
abbrev S64 : Shape := ⟨1, ![64]⟩
abbrev S3x64 : Shape := ⟨2, ![3, 64]⟩
abbrev S3 : Shape := ⟨1, ![3]⟩
abbrev S1048576x1 : Shape := ⟨2, ![1048576, 1]⟩
abbrev S1x16 : Shape := ⟨2, ![1, 16]⟩
abbrev S1048576x16 : Shape := ⟨2, ![1048576, 16]⟩
abbrev S_ : Shape := ⟨0, ![]⟩
abbrev S16x48 : Shape := ⟨2, ![16, 48]⟩
abbrev S1048576x48 : Shape := ⟨2, ![1048576, 48]⟩
abbrev S1x48 : Shape := ⟨2, ![1, 48]⟩
abbrev S1048576x32 : Shape := ⟨2, ![1048576, 32]⟩
abbrev S32x16 : Shape := ⟨2, ![32, 16]⟩
abbrev S32x64 : Shape := ⟨2, ![32, 64]⟩
abbrev S1048576x64 : Shape := ⟨2, ![1048576, 64]⟩
abbrev S1x64 : Shape := ⟨2, ![1, 64]⟩
abbrev S64x3 : Shape := ⟨2, ![64, 3]⟩
abbrev S1x3 : Shape := ⟨2, ![1, 3]⟩

abbrev nBuf : Space → Nat
  | .hbm => 155
  | .vmem => 0
  | .smem => 0
  | _ => 0

abbrev hbmTy0_0 (i : Nat) : BufTy := match i % 128 with
  | 0 => ⟨S1048576x3, .f32⟩
  | 1 => ⟨S16x1, .f32⟩
  | 2 => ⟨S16, .f32⟩
  | 3 => ⟨S16x1, .f32⟩
  | 4 => ⟨S16, .f32⟩
  | 5 => ⟨S16x1, .f32⟩
  | 6 => ⟨S16, .f32⟩
  | 7 => ⟨S48x16, .f32⟩
  | 8 => ⟨S48, .f32⟩
  | 9 => ⟨S48x16, .f32⟩
  | 10 => ⟨S48, .f32⟩
  | 11 => ⟨S48x16, .f32⟩
  | 12 => ⟨S48, .f32⟩
  | 13 => ⟨S48x16, .f32⟩
  | 14 => ⟨S48, .f32⟩
  | 15 => ⟨S16x16, .f32⟩
  | 16 => ⟨S16, .f32⟩
  | 17 => ⟨S16x32, .f32⟩
  | 18 => ⟨S16, .f32⟩
  | 19 => ⟨S64x32, .f32⟩
  | 20 => ⟨S64, .f32⟩
  | 21 => ⟨S64, .f32⟩
  | 22 => ⟨S64, .f32⟩
  | 23 => ⟨S3x64, .f32⟩
  | 24 => ⟨S3, .f32⟩
  | 25 => ⟨S1048576x1, .f32⟩
  | 26 => ⟨S1x16, .f32⟩
  | 27 => ⟨S1048576x16, .f32⟩
  | 28 => ⟨S1x16, .f32⟩
  | 29 => ⟨S1048576x16, .f32⟩
  | 30 => ⟨S1048576x16, .f32⟩
  | 31 => ⟨S_, .f32⟩
  | 32 => ⟨S1048576x16, .f32⟩
  | 33 => ⟨S1048576x16, .f32⟩
  | 34 => ⟨S1048576x1, .f32⟩
  | 35 => ⟨S1x16, .f32⟩
  | 36 => ⟨S1048576x16, .f32⟩
  | 37 => ⟨S1x16, .f32⟩
  | 38 => ⟨S1048576x16, .f32⟩
  | 39 => ⟨S1048576x16, .f32⟩
  | 40 => ⟨S_, .f32⟩
  | 41 => ⟨S1048576x16, .f32⟩
  | 42 => ⟨S1048576x16, .f32⟩
  | 43 => ⟨S1048576x1, .f32⟩
  | 44 => ⟨S1x16, .f32⟩
  | 45 => ⟨S1048576x16, .f32⟩
  | 46 => ⟨S1x16, .f32⟩
  | 47 => ⟨S1048576x16, .f32⟩
  | 48 => ⟨S1048576x16, .f32⟩
  | 49 => ⟨S_, .f32⟩
  | 50 => ⟨S1048576x16, .f32⟩
  | 51 => ⟨S1048576x16, .f32⟩
  | 52 => ⟨S16x48, .f32⟩
  | 53 => ⟨S1048576x48, .f32⟩
  | 54 => ⟨S1x48, .f32⟩
  | 55 => ⟨S1048576x48, .f32⟩
  | 56 => ⟨S1048576x48, .f32⟩
  | 57 => ⟨S16x48, .f32⟩
  | 58 => ⟨S1048576x48, .f32⟩
  | 59 => ⟨S1x48, .f32⟩
  | 60 => ⟨S1048576x48, .f32⟩
  | 61 => ⟨S1048576x48, .f32⟩
  | 62 => ⟨S16x48, .f32⟩
  | 63 => ⟨S1048576x48, .f32⟩
  | 64 => ⟨S1x48, .f32⟩
  | 65 => ⟨S1048576x48, .f32⟩
  | 66 => ⟨S1048576x48, .f32⟩
  | 67 => ⟨S1048576x16, .f32⟩
  | 68 => ⟨S1048576x16, .f32⟩
  | 69 => ⟨S16x16, .f32⟩
  | 70 => ⟨S16, .f32⟩
  | 71 => ⟨S16x16, .f32⟩
  | 72 => ⟨S1048576x16, .f32⟩
  | 73 => ⟨S1x16, .f32⟩
  | 74 => ⟨S1048576x16, .f32⟩
  | 75 => ⟨S1048576x16, .f32⟩
  | 76 => ⟨S16x16, .f32⟩
  | 77 => ⟨S1048576x16, .f32⟩
  | 78 => ⟨S1x16, .f32⟩
  | 79 => ⟨S1048576x16, .f32⟩
  | 80 => ⟨S1048576x16, .f32⟩
  | 81 => ⟨S16x16, .f32⟩
  | 82 => ⟨S16, .f32⟩
  | 83 => ⟨S16x16, .f32⟩
  | 84 => ⟨S1048576x16, .f32⟩
  | 85 => ⟨S1x16, .f32⟩
  | 86 => ⟨S1048576x16, .f32⟩
  | 87 => ⟨S1048576x16, .f32⟩
  | 88 => ⟨S16x16, .f32⟩
  | 89 => ⟨S1048576x16, .f32⟩
  | 90 => ⟨S1x16, .f32⟩
  | 91 => ⟨S1048576x16, .f32⟩
  | 92 => ⟨S1048576x16, .f32⟩
  | 93 => ⟨S1048576x32, .f32⟩
  | 94 => ⟨S32x16, .f32⟩
  | 95 => ⟨S1048576x16, .f32⟩
  | 96 => ⟨S1x16, .f32⟩
  | 97 => ⟨S1048576x16, .f32⟩
  | 98 => ⟨S1048576x16, .f32⟩
  | 99 => ⟨S16x16, .f32⟩
  | 100 => ⟨S16, .f32⟩
  | 101 => ⟨S16x16, .f32⟩
  | 102 => ⟨S1048576x16, .f32⟩
  | 103 => ⟨S1x16, .f32⟩
  | 104 => ⟨S1048576x16, .f32⟩
  | 105 => ⟨S1048576x16, .f32⟩
  | 106 => ⟨S16x16, .f32⟩
  | 107 => ⟨S1048576x16, .f32⟩
  | 108 => ⟨S1x16, .f32⟩
  | 109 => ⟨S1048576x16, .f32⟩
  | 110 => ⟨S1048576x16, .f32⟩
  | 111 => ⟨S1048576x32, .f32⟩
  | 112 => ⟨S32x64, .f32⟩
  | 113 => ⟨S1048576x64, .f32⟩
  | 114 => ⟨S1x64, .f32⟩
  | 115 => ⟨S1048576x64, .f32⟩
  | 116 => ⟨S1048576x64, .f32⟩
  | 117 => ⟨S_, .f32⟩
  | 118 => ⟨S64, .f32⟩
  | 119 => ⟨S_, .f32⟩
  | 120 => ⟨S64, .f32⟩
  | 121 => ⟨S64, .f32⟩
  | 122 => ⟨S1x64, .f32⟩
  | 123 => ⟨S1048576x64, .f32⟩
  | 124 => ⟨S1048576x64, .f32⟩
  | 125 => ⟨S1048576x64, .f32⟩
  | 126 => ⟨S_, .f32⟩
  | 127 => ⟨S64, .f32⟩
  | _ => ⟨S1048576x3, .f32⟩

abbrev hbmTy0_1 (i : Nat) : BufTy := match i % 128 with
  | 0 => ⟨S_, .f32⟩
  | 1 => ⟨S64, .f32⟩
  | 2 => ⟨S64, .f32⟩
  | 3 => ⟨S1x64, .f32⟩
  | 4 => ⟨S1048576x64, .f32⟩
  | 5 => ⟨S1048576x64, .f32⟩
  | 6 => ⟨S_, .f32⟩
  | 7 => ⟨S64, .f32⟩
  | 8 => ⟨S64, .f32⟩
  | 9 => ⟨S64, .f32⟩
  | 10 => ⟨S1x64, .f32⟩
  | 11 => ⟨S1048576x64, .f32⟩
  | 12 => ⟨S1048576x64, .f32⟩
  | 13 => ⟨S1x64, .f32⟩
  | 14 => ⟨S1048576x64, .f32⟩
  | 15 => ⟨S1048576x64, .f32⟩
  | 16 => ⟨S1x64, .f32⟩
  | 17 => ⟨S1048576x64, .f32⟩
  | 18 => ⟨S1048576x64, .f32⟩
  | 19 => ⟨S_, .f32⟩
  | 20 => ⟨S1048576x64, .f32⟩
  | 21 => ⟨S1048576x64, .f32⟩
  | 22 => ⟨S64x3, .f32⟩
  | 23 => ⟨S1048576x3, .f32⟩
  | 24 => ⟨S1x3, .f32⟩
  | 25 => ⟨S1048576x3, .f32⟩
  | 26 => ⟨S1048576x3, .f32⟩
  | _ => ⟨S1048576x3, .f32⟩

abbrev hbmTy (i : Nat) : BufTy := match i / 128 with
  | 0 => hbmTy0_0 i
  | 1 => hbmTy0_1 i
  | _ => ⟨S1048576x3, .f32⟩

abbrev bufTy : (tb : Table) → Fin (tcTables nBuf tb) → BufTy
  | .hbm, ⟨i, _⟩ => hbmTy i
  | _, _ => ⟨S1048576x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_call0_cst : Ref sig .tc := ⟨.hbm, 31, rfl⟩
abbrev main_call0_v0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_call1_cst : Ref sig .tc := ⟨.hbm, 40, rfl⟩
abbrev main_call1_v0 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_call2_cst : Ref sig .tc := ⟨.hbm, 49, rfl⟩
abbrev main_call2_v0 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst : Ref sig .tc := ⟨.hbm, 117, rfl⟩
abbrev main_v86 : Ref sig .tc := ⟨.hbm, 118, rfl⟩
abbrev main_cst_0 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_1 : Ref sig .tc := ⟨.hbm, 126, rfl⟩
abbrev main_v93 : Ref sig .tc := ⟨.hbm, 127, rfl⟩
abbrev main_cst_2 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_3 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_call3_cst : Ref sig .tc := ⟨.hbm, 147, rfl⟩
abbrev main_call3_v0 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩

abbrev nD : Nat := 1
abbrev τ : Topo := Topo.v7x

variable {F : FTy → Type} [FloatOps F]

class Facts₀ : Prop where
  slices_S1048576x3_S1048576x1_0_0 : S1048576x3.Slices ![0, 0] S1048576x1
  transposes_S16x1_S1x16_1_0 : S16x1.Transposes [1, 0] S1x16
  bcast_S16_S1x16_1 : S16.BroadcastsInDim S1x16 (![1] : Fin 1 → Fin S1x16.rank)
  bcast_S1x16_S1048576x16_0_1 : S1x16.BroadcastsInDim S1048576x16 (![0, 1] : Fin 2 → Fin S1048576x16.rank)
  bcast_S_S1048576x16 : S_.BroadcastsInDim S1048576x16 (![] : Fin 0 → Fin S1048576x16.rank)
  slices_S1048576x3_S1048576x1_0_1 : S1048576x3.Slices ![0, 1] S1048576x1
  slices_S1048576x3_S1048576x1_0_2 : S1048576x3.Slices ![0, 2] S1048576x1
  transposes_S48x16_S16x48_1_0 : S48x16.Transposes [1, 0] S16x48
  bcast_S48_S1x48_1 : S48.BroadcastsInDim S1x48 (![1] : Fin 1 → Fin S1x48.rank)
  bcast_S1x48_S1048576x48_0_1 : S1x48.BroadcastsInDim S1048576x48 (![0, 1] : Fin 2 → Fin S1048576x48.rank)
  slices_S1048576x48_S1048576x16_0_32 : S1048576x48.Slices ![0, 32] S1048576x16
  slices_S48x16_S16x16_32_0 : S48x16.Slices ![32, 0] S16x16
  slices_S48_S16_32 : S48.Slices ![32] S16
  transposes_S16x16_S16x16_1_0 : S16x16.Transposes [1, 0] S16x16
  concatenates_S1048576x16_S1048576x16_S1048576x32_d1 : Shape.Concatenates [S1048576x16, S1048576x16] S1048576x32 1
  transposes_S16x32_S32x16_1_0 : S16x32.Transposes [1, 0] S32x16
  transposes_S64x32_S32x64_1_0 : S64x32.Transposes [1, 0] S32x64
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  reducesTo_S1048576x64_S64_d0 : S1048576x64.ReducesTo [0] S64
  h_S_ : 0 < S_.numel
  bcast_S_S64 : S_.BroadcastsInDim S64 (![] : Fin 0 → Fin S64.rank)
  bcast_S_S1048576x64 : S_.BroadcastsInDim S1048576x64 (![] : Fin 0 → Fin S1048576x64.rank)
  transposes_S3x64_S64x3_1_0 : S3x64.Transposes [1, 0] S64x3
  bcast_S3_S1x3_1 : S3.BroadcastsInDim S1x3 (![1] : Fin 1 → Fin S1x3.rank)
  bcast_S1x3_S1048576x3_0_1 : S1x3.BroadcastsInDim S1048576x3 (![0, 1] : Fin 2 → Fin S1048576x3.rank)
  dot_S1048576x1_S1x16_S1048576x16_1_0_0_1_n_n_wf : DotDims.WF S1048576x1 S1x16 S1048576x16 [1] [0] [0] [1] [] []
  dot_S1048576x16_S16x48_S1048576x48_1_0_0_1_n_n_wf : DotDims.WF S1048576x16 S16x48 S1048576x48 [1] [0] [0] [1] [] []
  dot_S1048576x16_S16x16_S1048576x16_1_0_0_1_n_n_wf : DotDims.WF S1048576x16 S16x16 S1048576x16 [1] [0] [0] [1] [] []
  dot_S1048576x32_S32x16_S1048576x16_1_0_0_1_n_n_wf : DotDims.WF S1048576x32 S32x16 S1048576x16 [1] [0] [0] [1] [] []
  dot_S1048576x32_S32x64_S1048576x64_1_0_0_1_n_n_wf : DotDims.WF S1048576x32 S32x64 S1048576x64 [1] [0] [0] [1] [] []
  dot_S1048576x64_S64x3_S1048576x3_1_0_0_1_n_n_wf : DotDims.WF S1048576x64 S64x3 S1048576x3 [1] [0] [0] [1] [] []

variable [Facts₀]

def dot_S1048576x1_S1x16_S1048576x16_1_0_0_1_n_n : DotDims S1048576x1 S1x16 S1048576x16 where
  lhsContracting := [1]
  rhsContracting := [0]
  lhsNonContracting := [0]
  rhsNonContracting := [1]
  lhsBatch := []
  rhsBatch := []
  wf := dot_S1048576x1_S1x16_S1048576x16_1_0_0_1_n_n_wf
def dot_S1048576x16_S16x48_S1048576x48_1_0_0_1_n_n : DotDims S1048576x16 S16x48 S1048576x48 where
  lhsContracting := [1]
  rhsContracting := [0]
  lhsNonContracting := [0]
  rhsNonContracting := [1]
  lhsBatch := []
  rhsBatch := []
  wf := dot_S1048576x16_S16x48_S1048576x48_1_0_0_1_n_n_wf
def dot_S1048576x16_S16x16_S1048576x16_1_0_0_1_n_n : DotDims S1048576x16 S16x16 S1048576x16 where
  lhsContracting := [1]
  rhsContracting := [0]
  lhsNonContracting := [0]
  rhsNonContracting := [1]
  lhsBatch := []
  rhsBatch := []
  wf := dot_S1048576x16_S16x16_S1048576x16_1_0_0_1_n_n_wf
def dot_S1048576x32_S32x16_S1048576x16_1_0_0_1_n_n : DotDims S1048576x32 S32x16 S1048576x16 where
  lhsContracting := [1]
  rhsContracting := [0]
  lhsNonContracting := [0]
  rhsNonContracting := [1]
  lhsBatch := []
  rhsBatch := []
  wf := dot_S1048576x32_S32x16_S1048576x16_1_0_0_1_n_n_wf
def dot_S1048576x32_S32x64_S1048576x64_1_0_0_1_n_n : DotDims S1048576x32 S32x64 S1048576x64 where
  lhsContracting := [1]
  rhsContracting := [0]
  lhsNonContracting := [0]
  rhsNonContracting := [1]
  lhsBatch := []
  rhsBatch := []
  wf := dot_S1048576x32_S32x64_S1048576x64_1_0_0_1_n_n_wf
def dot_S1048576x64_S64x3_S1048576x3_1_0_0_1_n_n : DotDims S1048576x64 S64x3 S1048576x3 where
  lhsContracting := [1]
  rhsContracting := [0]
  lhsNonContracting := [0]
  rhsNonContracting := [1]
  lhsBatch := []
  rhsBatch := []
  wf := dot_S1048576x64_S64x3_S1048576x3_1_0_0_1_n_n_wf

class Facts : Prop extends Facts₀ where

variable [Facts]
-- ==== Proof.Spec.lean ====
/-
  The mathematics both programs compute, as functions of one row and of the whole batch.

  A row of the input carries three scalars; the first and the third are each embedded in sixteen
  dimensions by an affine map and a rectifier. Each embedding goes through a 48-wide affine layer of
  which only the last sixteen outputs (the "value" part) are used; a length-one attention is then the
  value projection followed by the output projection, and does not depend on query or key. Two such
  attentions are joined and projected ("ab"), attended once more, joined with "ab" and mapped to 64
  features: the trunk `h`. The batch normalisation uses the mean and the variance of each feature over
  ALL rows, then a rectifier and a last affine layer give three outputs per row.

  The two programs differ in one place only: one takes the variance as the mean of squares minus the
  square of the mean, the other as the mean of the squared deviations. `outK` and `outR` are the two
  results; they agree whenever every trunk entry is a real number (Moments.lean).
-/
import Idealize.ShloMosaic.PureOps.Ideal
import Idealize.ShloMosaic.Lib.ValueIdx

noncomputable section

namespace Cert.Spec

open Idealize.ShloMosaic Idealize.ShloMosaic.ValueIdx

/-- A matrix of extended reals with literal extents, indexed as the arrays of the programs are. -/
abbrev Mat (a b : ℕ) : Type := (⟨2, ![a, b]⟩ : Shape).Idx → EReal
/-- A vector of extended reals with a literal extent. -/
abbrev Vc (a : ℕ) : Type := (⟨1, ![a]⟩ : Shape).Idx → EReal

/-- The weights the result depends on (the image branch of the model reaches no output). -/
structure Params where
  ehrW : Mat 16 1
  ehrB : Vc 16
  bioW : Mat 16 1
  bioB : Vc 16
  bioQkvW : Mat 48 16
  bioQkvB : Vc 48
  ehrQkvW : Mat 48 16
  ehrQkvB : Vc 48
  attnInW : Mat 48 16
  attnInB : Vc 48
  attnOutW : Mat 16 16
  attnOutB : Vc 16
  abW : Mat 16 32
  abB : Vc 16
  f1W : Mat 64 32
  f1B : Vc 64
  bnG : Vc 64
  bnB : Vc 64
  f2W : Mat 3 64
  f2B : Vc 3

/-- One affine layer on a row: output `o` is the sum over `q` of (row entry `q`) · (weight `o, q`), plus the bias. -/
def lin {k n : ℕ} (W : Mat n k) (b : Vc n) (v : Fin k → EReal) (o : Fin n) : EReal :=
  (∑ q : Fin k, v q * W (ix2 o q)) + b (ix1 o)

/-- A scalar embedded in sixteen dimensions: `max (x · w_o + b_o) 0`. -/
def enc (W : Mat 16 1) (b : Vc 16) (x : EReal) (o : Fin 16) : EReal :=
  max (x * W (ix2 o (0 : Fin 1)) + b (ix1 o)) 0

/-- The last sixteen of 48 outputs: the value part of a stacked query/key/value layer. -/
def upper (u : Fin 48 → EReal) (o : Fin 16) : EReal := u ⟨32 + o.val, by omega⟩

/-- The value projection of the attention: rows 32 … 47 of its stacked input weights and biases. -/
def vproj (P : Params) (v : Fin 16 → EReal) (o : Fin 16) : EReal :=
  (∑ q : Fin 16, v q * P.attnInW (ix2 (⟨32 + o.val, by omega⟩ : Fin 48) q)) + P.attnInB (ix1 (⟨32 + o.val, by omega⟩ : Fin 48))

/-- Attention over a single key: the output projection of the value projection. -/
def attn (P : Params) (v : Fin 16 → EReal) : Fin 16 → EReal := lin P.attnOutW P.attnOutB (vproj P v)

/-- Two sixteen-vectors side by side. -/
def join (u v : Fin 16 → EReal) (q : Fin 32) : EReal :=
  if h : q.val < 16 then u ⟨q.val, h⟩ else v ⟨q.val - 16, by omega⟩

/-- The trunk on one row: 64 features of the row's first scalar `x0` and third scalar `x2`. -/
def trunk (P : Params) (x0 x2 : EReal) : Fin 64 → EReal :=
  let va := upper (lin P.bioQkvW P.bioQkvB (enc P.bioW P.bioB x2))
  let vb := upper (lin P.ehrQkvW P.ehrQkvB (enc P.ehrW P.ehrB x0))
  let ab := lin P.abW P.abB (join (attn P vb) (attn P va))
  lin P.f1W P.f1B (join ab (attn P ab))

/-- The trunk of row `i` of the batch. -/
def hAt (P : Params) (X : Mat 1048576 3) (i : Fin 1048576) : Fin 64 → EReal :=
  trunk P (X (ix2 i (0 : Fin 3))) (X (ix2 i (2 : Fin 3)))

/-- The number of rows, as both programs write it (the f32 word of 2^20). -/
def nB : EReal := Ideal.ofBits .f32 0x49800000#32
/-- The normalisation's epsilon, as both programs write it (the f32 word nearest 1e-5). -/
def eps : EReal := Ideal.ofBits .f32 0x3727C5AC#32

/-- Feature `j` summed over all rows, and its square summed over all rows. -/
def sum1 (P : Params) (X : Mat 1048576 3) (j : Fin 64) : EReal := ∑ i : Fin 1048576, hAt P X i j
def sum2 (P : Params) (X : Mat 1048576 3) (j : Fin 64) : EReal := ∑ i : Fin 1048576, hAt P X i j * hAt P X i j

/-- The batch mean of feature `j`. -/
def mean (P : Params) (X : Mat 1048576 3) (j : Fin 64) : EReal := Ideal.div (sum1 P X j) nB
/-- The variance as the mean of the squares minus the square of the mean. -/
def varK (P : Params) (X : Mat 1048576 3) (j : Fin 64) : EReal :=
  Ideal.div (sum2 P X j) nB - mean P X j * mean P X j
/-- The variance as the mean of the squared deviations from the mean. -/
def varR (P : Params) (X : Mat 1048576 3) (j : Fin 64) : EReal :=
  Ideal.div (∑ i : Fin 1048576, (hAt P X i j - mean P X j) * (hAt P X i j - mean P X j)) nB

/-- Output `k` of a row with trunk `h`, normalised by the statistics `mu`, `var`. -/
def outAt (P : Params) (h mu var : Fin 64 → EReal) (k : Fin 3) : EReal :=
  (∑ j : Fin 64, max ((h j - mu j) * Ideal.rsqrt (var j + eps) * P.bnG (ix1 j) + P.bnB (ix1 j)) 0 * P.f2W (ix2 k j))
    + P.f2B (ix1 k)

/-- The whole result with the variance taken the first way. -/
def outK (P : Params) (X : Mat 1048576 3) : Mat 1048576 3 := fun idx =>
  outAt P (hAt P X ⟨(idx 0).val, idx2_lt0 idx⟩) (mean P X) (varK P X) ⟨(idx 1).val, idx2_lt1 idx⟩
/-- The whole result with the variance taken the second way. -/
def outR (P : Params) (X : Mat 1048576 3) : Mat 1048576 3 := fun idx =>
  outAt P (hAt P X ⟨(idx 0).val, idx2_lt0 idx⟩) (mean P X) (varR P X) ⟨(idx 1).val, idx2_lt1 idx⟩

theorem outK_ix2 (P : Params) (X : Mat 1048576 3) (i : Fin 1048576) (k : Fin 3) :
    outK P X (ix2 i k) = outAt P (hAt P X i) (mean P X) (varK P X) k := rfl
theorem outR_ix2 (P : Params) (X : Mat 1048576 3) (i : Fin 1048576) (k : Fin 3) :
    outR P X (ix2 i k) = outAt P (hAt P X i) (mean P X) (varR P X) k := rfl

end Cert.Spec

end
-- ==== Proof.Finite.lean ====
/-
  "Every entry is a real number": the hypothesis under which the two ways of taking a variance agree.
-/
import proofs.«121510_j66580583023034_1_alg».proof.Proof.Spec

noncomputable section

namespace Cert.Spec

/-- An extended real that is neither infinity. -/
def IsReal (x : EReal) : Prop := ∃ r : ℝ, x = (r : EReal)

/-- Every weight is a real number. -/
structure Params.Finite (P : Params) : Prop where
  ehrW : ∀ i, IsReal (P.ehrW i)
  ehrB : ∀ i, IsReal (P.ehrB i)
  bioW : ∀ i, IsReal (P.bioW i)
  bioB : ∀ i, IsReal (P.bioB i)
  bioQkvW : ∀ i, IsReal (P.bioQkvW i)
  bioQkvB : ∀ i, IsReal (P.bioQkvB i)
  ehrQkvW : ∀ i, IsReal (P.ehrQkvW i)
  ehrQkvB : ∀ i, IsReal (P.ehrQkvB i)
  attnInW : ∀ i, IsReal (P.attnInW i)
  attnInB : ∀ i, IsReal (P.attnInB i)
  attnOutW : ∀ i, IsReal (P.attnOutW i)
  attnOutB : ∀ i, IsReal (P.attnOutB i)
  abW : ∀ i, IsReal (P.abW i)
  abB : ∀ i, IsReal (P.abB i)
  f1W : ∀ i, IsReal (P.f1W i)
  f1B : ∀ i, IsReal (P.f1B i)
  bnG : ∀ i, IsReal (P.bnG i)
  bnB : ∀ i, IsReal (P.bnB i)
  f2W : ∀ i, IsReal (P.f2W i)
  f2B : ∀ i, IsReal (P.f2B i)

end Cert.Spec

end
-- ==== Proof.Moments.lean ====
/-
  The one algebraic law between the two programs: over real numbers the mean of the squares minus the square of the
  mean is the mean of the squared deviations. On the extended reals the law needs every summand to be a real, which
  holds for the trunk because it is built from sums, products and maxima of reals.
-/
import proofs.«121510_j66580583023034_1_alg».proof.Proof.Spec
import proofs.«121510_j66580583023034_1_alg».proof.Proof.Finite

noncomputable section

namespace Cert.Spec

open Idealize.ShloMosaic Idealize.ShloMosaic.ValueIdx

/-! ### The reals inside the extended reals are closed under the operations of the trunk -/

/-- The sum of two reals is a real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two reals is a real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The rectifier of a real is a real: it is that real or zero. -/
theorem IsReal.max_zero {x : EReal} (hx : IsReal x) : IsReal (max x 0) := by
  obtain ⟨a, rfl⟩ := hx
  rcases le_total ((a : ℝ) : EReal) 0 with h | h
  · exact ⟨0, by rw [max_eq_right h, EReal.coe_zero]⟩
  · exact ⟨a, by rw [max_eq_left h]⟩

/-- A finite sum of reals is a real. -/
theorem IsReal.sum {ι : Type*} (s : Finset ι) (f : ι → EReal) (hf : ∀ i, IsReal (f i)) :
    IsReal (∑ i ∈ s, f i) := by
  classical
  induction s using Finset.induction_on with
  | empty => exact ⟨0, by rw [Finset.sum_empty, EReal.coe_zero]⟩
  | insert i s hi ih => rw [Finset.sum_insert hi]; exact (hf i).add ih

/-- An affine layer with real weights and biases sends a real row to a real row. -/
theorem IsReal.lin {k n : ℕ} (W : Mat n k) (b : Vc n) (v : Fin k → EReal) (hW : ∀ i, IsReal (W i))
    (hb : ∀ i, IsReal (b i)) (hv : ∀ q, IsReal (v q)) (o : Fin n) : IsReal (lin W b v o) :=
  (IsReal.sum _ _ fun q => (hv q).mul (hW _)).add (hb _)

/-- The embedding of a real scalar is a real in every coordinate. -/
theorem IsReal.enc (W : Mat 16 1) (b : Vc 16) (x : EReal) (hW : ∀ i, IsReal (W i)) (hb : ∀ i, IsReal (b i))
    (hx : IsReal x) (o : Fin 16) : IsReal (enc W b x o) :=
  ((hx.mul (hW _)).add (hb _)).max_zero

/-- The value part of a real 48-vector is real. -/
theorem IsReal.upper (u : Fin 48 → EReal) (hu : ∀ q, IsReal (u q)) (o : Fin 16) : IsReal (upper u o) :=
  hu _

/-- The value projection of a real vector is real. -/
theorem IsReal.vproj (P : Params) (hP : P.Finite) (v : Fin 16 → EReal) (hv : ∀ q, IsReal (v q)) (o : Fin 16) :
    IsReal (vproj P v o) :=
  (IsReal.sum _ _ fun q => (hv q).mul (hP.attnInW _)).add (hP.attnInB _)

/-- The single-key attention of a real vector is real. -/
theorem IsReal.attn (P : Params) (hP : P.Finite) (v : Fin 16 → EReal) (hv : ∀ q, IsReal (v q)) (o : Fin 16) :
    IsReal (attn P v o) :=
  IsReal.lin _ _ _ hP.attnOutW hP.attnOutB (IsReal.vproj P hP v hv) o

/-- Two real vectors side by side are a real vector. -/
theorem IsReal.join (u v : Fin 16 → EReal) (hu : ∀ q, IsReal (u q)) (hv : ∀ q, IsReal (v q)) (q : Fin 32) :
    IsReal (join u v q) := by
  unfold Spec.join
  split
  · exact hu _
  · exact hv _

/-- The trunk of two real scalars is real in each of its 64 features. -/
theorem IsReal.trunk (P : Params) (hP : P.Finite) (x0 x2 : EReal) (h0 : IsReal x0) (h2 : IsReal x2) (j : Fin 64) :
    IsReal (trunk P x0 x2 j) := by
  have hva : ∀ o, IsReal (Spec.upper (Spec.lin P.bioQkvW P.bioQkvB (Spec.enc P.bioW P.bioB x2)) o) :=
    IsReal.upper _ (IsReal.lin _ _ _ hP.bioQkvW hP.bioQkvB (IsReal.enc _ _ _ hP.bioW hP.bioB h2))
  have hvb : ∀ o, IsReal (Spec.upper (Spec.lin P.ehrQkvW P.ehrQkvB (Spec.enc P.ehrW P.ehrB x0)) o) :=
    IsReal.upper _ (IsReal.lin _ _ _ hP.ehrQkvW hP.ehrQkvB (IsReal.enc _ _ _ hP.ehrW hP.ehrB h0))
  have hab := IsReal.lin _ _ _ hP.abW hP.abB
    (IsReal.join _ _ (IsReal.attn P hP _ hvb) (IsReal.attn P hP _ hva))
  exact IsReal.lin _ _ _ hP.f1W hP.f1B (IsReal.join _ _ hab (IsReal.attn P hP _ hab)) j

/-- With real weights and a real batch every trunk entry is a real number. -/
theorem hAt_isReal (P : Params) (X : Mat 1048576 3) (hP : P.Finite) (hX : ∀ i, IsReal (X i))
    (i : Fin 1048576) (j : Fin 64) : IsReal (hAt P X i j) := by
  exact IsReal.trunk P hP _ _ (hX _) (hX _) j

/-! ### The two variances -/

/-- A finite sum of coerced reals is the coercion of the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => rw [Finset.sum_empty, Finset.sum_empty, EReal.coe_zero]
  | insert i s hi ih => rw [Finset.sum_insert hi, Finset.sum_insert hi, ih, EReal.coe_add]

/-- The number of rows both programs divide by is the real 1048576 = 2^20. -/
theorem nB_eq : nB = ((1048576 : ℝ) : EReal) := by
  simp [nB, Ideal.ofBits, Ideal.ieee, -EReal.coe_mul]; norm_num

/-- Over the reals: with B the number of summands, S their sum and Q the sum of their squares,
    Q/B − (S/B)² = (∑ (aᵢ − S/B)²)/B. Expanding the square, the middle term sums to −2 (S/B) S and the
    last to B (S/B)², which together are −S²/B. -/
theorem real_var {ι : Type*} [Fintype ι] (a : ι → ℝ) (B : ℝ) (hB : (Fintype.card ι : ℝ) = B) (hB0 : B ≠ 0) :
    (∑ i, a i * a i) * (1 / B) - ((∑ i, a i) * (1 / B)) * ((∑ i, a i) * (1 / B))
      = (∑ i, (a i - (∑ i, a i) * (1 / B)) * (a i - (∑ i, a i) * (1 / B))) * (1 / B) := by
  generalize hS : (∑ i, a i) = S
  generalize hm : S * (1 / B) = m
  have h1 : (∑ i, (a i - m) * (a i - m)) = (∑ i, a i * a i) - 2 * m * S + B * (m * m) := by
    have h : ∀ i, (a i - m) * (a i - m) = a i * a i - 2 * m * a i + m * m := fun i => by ring
    simp only [h]
    rw [Finset.sum_add_distrib, Finset.sum_sub_distrib, ← Finset.mul_sum, Finset.sum_const, Finset.card_univ,
      nsmul_eq_mul, hB, hS]
  rw [h1, ← hm]
  field_simp
  ring

/-- With real weights and a real batch the two variances are one number, feature by feature. -/
theorem varK_eq_varR (P : Params) (X : Mat 1048576 3) (hP : P.Finite) (hX : ∀ i, IsReal (X i)) (j : Fin 64) :
    varK P X j = varR P X j := by
  choose a ha using fun i => hAt_isReal P X hP hX i j
  have hB0 : (1048576 : ℝ) ≠ 0 := by norm_num
  have hcard : (Fintype.card (Fin 1048576) : ℝ) = 1048576 := by
    rw [Fintype.card_fin]; norm_num
  -- the mean is the real S/B
  have hmean : mean P X j = (((∑ i, a i) * (1 / 1048576) : ℝ) : EReal) := by
    unfold mean sum1
    simp only [ha]
    rw [nB_eq, Ideal.div_coe hB0, coe_sum, ← EReal.coe_mul]
  -- the first variance is the real Q/B − (S/B)²
  have hK : varK P X j = (((∑ i, a i * a i) * (1 / 1048576)
      - ((∑ i, a i) * (1 / 1048576)) * ((∑ i, a i) * (1 / 1048576)) : ℝ) : EReal) := by
    unfold varK sum2
    rw [hmean]
    simp only [ha]
    simp only [← EReal.coe_mul]
    rw [nB_eq, Ideal.div_coe hB0, coe_sum, ← EReal.coe_mul, ← EReal.coe_sub]
  -- the second is the real (∑ (aᵢ − S/B)²)/B
  have hR : varR P X j = (((∑ i, (a i - (∑ i, a i) * (1 / 1048576)) * (a i - (∑ i, a i) * (1 / 1048576)))
      * (1 / 1048576) : ℝ) : EReal) := by
    unfold varR
    rw [hmean]
    simp only [ha]
    simp only [← EReal.coe_sub, ← EReal.coe_mul]
    rw [nB_eq, Ideal.div_coe hB0, coe_sum, ← EReal.coe_mul]
  rw [hK, hR]
  exact congrArg _ (real_var a 1048576 hcard hB0)

/-- So the two results are one array. -/
theorem outK_eq_outR (P : Params) (X : Mat 1048576 3) (hP : P.Finite) (hX : ∀ i, IsReal (X i)) :
    outK P X = outR P X := by
  funext idx
  show outAt P _ (mean P X) (varK P X) _ = outAt P _ (mean P X) (varR P X) _
  rw [show varK P X = varR P X from funext (varK_eq_varR P X hP hX)]

end Cert.Spec

end
-- ==== Proof.Entry.lean ====
/-
  What a region of the kernel program finds in the arrays it windows, said against the specification's names:
  the batch `X`, the weights `P` (each bias reshaped to one row by the program before the region), and for the
  second region the two statistics rows. These are the hypotheses the two regions' values are stated under;
  the program's own host operations establish them (HostReads.lean).
-/
import proofs.«121510_j66580583023034_1_alg».proof.Proof.Gen.KernelIdeal.Frame
import proofs.«121510_j66580583023034_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Entry

open Idealize.ShloMosaic Idealize.ShloMosaic.TcCoe Idealize.ShloMosaic.ValueIdx Idealize.SL.Sem
open Cert.KernelIdeal Cert.KernelIdeal.Gen Cert.Spec

/-- Region entry contents `V` on core `c` hold the batch `X` and the sixteen trunk weights of `P`. -/
structure Trunk (V : (c : Dev nD) → (b : Ref sig .tc) → Buf (Elt Ideal) ((c : Thread nD τ).loc b)) (c : Dev nD) (P : Params) (X : Mat 1048576 3) : Prop where
  x : ∀ (i : Fin 1048576) (a : Fin 3), V c main_arg0 (ix2 i a) = X (ix2 i a)
  ehrW : ∀ o : Fin 16, V c main_arg1 (ix2 o (0 : Fin 1)) = P.ehrW (ix2 o (0 : Fin 1))
  ehrB : ∀ o : Fin 16, V c main_v0 (ix2 (0 : Fin 1) o) = P.ehrB (ix1 o)
  bioW : ∀ o : Fin 16, V c main_arg5 (ix2 o (0 : Fin 1)) = P.bioW (ix2 o (0 : Fin 1))
  bioB : ∀ o : Fin 16, V c main_v1 (ix2 (0 : Fin 1) o) = P.bioB (ix1 o)
  bioQkvW : ∀ (o : Fin 48) (q : Fin 16), V c main_arg7 (ix2 o q) = P.bioQkvW (ix2 o q)
  bioQkvB : ∀ o : Fin 48, V c main_v2 (ix2 (0 : Fin 1) o) = P.bioQkvB (ix1 o)
  ehrQkvW : ∀ (o : Fin 48) (q : Fin 16), V c main_arg9 (ix2 o q) = P.ehrQkvW (ix2 o q)
  ehrQkvB : ∀ o : Fin 48, V c main_v3 (ix2 (0 : Fin 1) o) = P.ehrQkvB (ix1 o)
  attnInW : ∀ (o : Fin 48) (q : Fin 16), V c main_arg13 (ix2 o q) = P.attnInW (ix2 o q)
  attnInB : ∀ o : Fin 48, V c main_v4 (ix2 (0 : Fin 1) o) = P.attnInB (ix1 o)
  attnOutW : ∀ (o q : Fin 16), V c main_arg15 (ix2 o q) = P.attnOutW (ix2 o q)
  attnOutB : ∀ o : Fin 16, V c main_v5 (ix2 (0 : Fin 1) o) = P.attnOutB (ix1 o)
  abW : ∀ (o : Fin 16) (q : Fin 32), V c main_arg17 (ix2 o q) = P.abW (ix2 o q)
  abB : ∀ o : Fin 16, V c main_v6 (ix2 (0 : Fin 1) o) = P.abB (ix1 o)
  f1W : ∀ (o : Fin 64) (q : Fin 32), V c main_arg19 (ix2 o q) = P.f1W (ix2 o q)
  f1B : ∀ o : Fin 64, V c main_v7 (ix2 (0 : Fin 1) o) = P.f1B (ix1 o)

/-- The same, and the second region's further operands: the mean row `mu`, the variance row `var`, the
    normalisation's scale and shift, the last layer. -/
structure Final (V : (c : Dev nD) → (b : Ref sig .tc) → Buf (Elt Ideal) ((c : Thread nD τ).loc b)) (c : Dev nD) (P : Params) (X : Mat 1048576 3) (mu var : Fin 64 → EReal) : Prop
    extends Trunk V c P X where
  mean : ∀ j : Fin 64, V c main_v13 (ix2 (0 : Fin 1) j) = mu j
  variance : ∀ j : Fin 64, V c main_v17 (ix2 (0 : Fin 1) j) = var j
  bnG : ∀ j : Fin 64, V c main_v8 (ix2 (0 : Fin 1) j) = P.bnG (ix1 j)
  bnB : ∀ j : Fin 64, V c main_v9 (ix2 (0 : Fin 1) j) = P.bnB (ix1 j)
  f2W : ∀ (k : Fin 3) (j : Fin 64), V c main_arg23 (ix2 k j) = P.f2W (ix2 k j)
  f2B : ∀ k : Fin 3, V c main_v10 (ix2 (0 : Fin 1) k) = P.f2B (ix1 k)

/-- The weights the kernel program is launched with on core `c`, read out of its launch memory `m`. -/
def paramsOf (m : (ℓ : Loc nD τ sig) → Buf (Elt Ideal) ℓ) (c : Dev nD) : Params where
  ehrW := m ((c.tc : Thread nD τ).loc main_arg1)
  ehrB := m ((c.tc : Thread nD τ).loc main_arg2)
  bioW := m ((c.tc : Thread nD τ).loc main_arg5)
  bioB := m ((c.tc : Thread nD τ).loc main_arg6)
  bioQkvW := m ((c.tc : Thread nD τ).loc main_arg7)
  bioQkvB := m ((c.tc : Thread nD τ).loc main_arg8)
  ehrQkvW := m ((c.tc : Thread nD τ).loc main_arg9)
  ehrQkvB := m ((c.tc : Thread nD τ).loc main_arg10)
  attnInW := m ((c.tc : Thread nD τ).loc main_arg13)
  attnInB := m ((c.tc : Thread nD τ).loc main_arg14)
  attnOutW := m ((c.tc : Thread nD τ).loc main_arg15)
  attnOutB := m ((c.tc : Thread nD τ).loc main_arg16)
  abW := m ((c.tc : Thread nD τ).loc main_arg17)
  abB := m ((c.tc : Thread nD τ).loc main_arg18)
  f1W := m ((c.tc : Thread nD τ).loc main_arg19)
  f1B := m ((c.tc : Thread nD τ).loc main_arg20)
  bnG := m ((c.tc : Thread nD τ).loc main_arg21)
  bnB := m ((c.tc : Thread nD τ).loc main_arg22)
  f2W := m ((c.tc : Thread nD τ).loc main_arg23)
  f2B := m ((c.tc : Thread nD τ).loc main_arg24)

/-- The batch the kernel program is launched with on core `c`. -/
def batchOf (m : (ℓ : Loc nD τ sig) → Buf (Elt Ideal) ℓ) (c : Dev nD) : Mat 1048576 3 :=
  m ((c.tc : Thread nD τ).loc main_arg0)

end Cert.KernelIdeal.Entry

end
-- ==== Proof.PreDecode.lean ====
/-
  The precondition says, array by array, that the absolute value of every entry is below +infinity. Read at the
  extended reals that is: every entry of every argument is a real number.
-/
import proofs.«121510_j66580583023034_1_alg».proof.Defs
import proofs.«121510_j66580583023034_1_alg».proof.Proof.Gen.KernelIdeal.Frame
import proofs.«121510_j66580583023034_1_alg».proof.Proof.Gen.Pre_finite_inputs
import proofs.«121510_j66580583023034_1_alg».proof.Proof.Spec
import proofs.«121510_j66580583023034_1_alg».proof.Proof.Finite
import proofs.«121510_j66580583023034_1_alg».proof.Proof.Entry
import Idealize.ShloMosaic.Lib.ReduceAll
import Idealize.ShloMosaic.Lib.ValueIdx

noncomputable section

namespace Cert.KernelIdeal.PreDecode

open Idealize.ShloMosaic Idealize.ShloMosaic.TcCoe Idealize.ShloMosaic.ValueIdx Idealize.SL.Sem
open Cert.KernelIdeal Cert.Spec

/-- The f32 word 0x7F800000 is +infinity. -/
theorem ofBits_inf : Ideal.ofBits .f32 0x7F800000#32 = (⊤ : EReal) := by
  simp [Ideal.ofBits, Ideal.ieee]

/-- An extended real whose absolute value is below +infinity is a real number. -/
theorem isReal_of_abs_lt (x : EReal) (h : max x (-x) < ⊤) : IsReal x := by
  induction x using EReal.rec with
  | bot => simp at h
  | coe r => exact ⟨r, rfl⟩
  | top => simp at h

/-- The scalar shape has one index. -/
theorem idx0_subsingleton : Subsingleton (⟨0, ![]⟩ : Shape).Idx := ⟨fun a b => funext fun d => d.elim0⟩

/-- The all-finite test of one array, as the precondition writes it (|x| < +infinity at every entry, joined by "and"
    into one bit): if the bit is 1, every entry of the array is a real number. -/
theorem isReal_of_all {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr hu ix0 = 1#1) (i : s.Idx) : IsReal (x i) := by
  haveI := idx0_subsingleton
  -- the entry's own test is 1, and it reads: max (x i) (-(x i)) < +infinity
  have h1 := Host.reduce_andi_all _ _ hr hu ix0 e i
  have h2 : Ideal.cmp .olt (max (x i) (-(x i))) (Ideal.ofBits .f32 0x7F800000#32) = 1#1 := h1
  rw [ofBits_inf] at h2
  refine isReal_of_abs_lt _ ?_
  by_contra hn
  have h3 : BitVec.ofBool (decide (max (x i) (-(x i)) < ⊤)) = 1#1 := h2
  rw [decide_eq_false hn] at h3
  exact absurd h3 (by decide)

/-- Under the precondition the weights and the batch the kernel program is launched with are real numbers, on every core. -/
theorem finite_of_pre (m : (ℓ : Loc nD τ sig) → Buf (Elt Ideal) ℓ) (h : Cert.Pre_KernelIdeal m) (c : Dev nD) :
    (Entry.paramsOf m c).Finite ∧ ∀ i, IsReal (Entry.batchOf m c i) := by
  -- the precondition's one scalar, on core c: the conjunction of the 25 arrays' all-finite tests
  have h0 := congrFun (h c) ix0
  dsimp only [Cert.Pre_finite_inputs.fn, Cert.Pre_finite_inputs.fn_part1, Cert.Pre_finite_inputs.fn_part2, Cert.Pre_finite_inputs.fn_part3, Cert.Pre_finite_inputs.fn_part4, Cert.Pre_finite_inputs.fn_part5, Cert.Pre_finite_inputs.fn_part6, Cert.Pre_finite_inputs.fn_part7] at h0
  -- split the conjunction from the last array's test back to the first's; arrays 3, 4, 11 and 12 feed no result
  obtain ⟨h0, e24⟩ := IntOp.andi_eq_one.1 h0
  obtain ⟨h0, e23⟩ := IntOp.andi_eq_one.1 h0
  obtain ⟨h0, e22⟩ := IntOp.andi_eq_one.1 h0
  obtain ⟨h0, e21⟩ := IntOp.andi_eq_one.1 h0
  obtain ⟨h0, e20⟩ := IntOp.andi_eq_one.1 h0
  obtain ⟨h0, e19⟩ := IntOp.andi_eq_one.1 h0
  obtain ⟨h0, e18⟩ := IntOp.andi_eq_one.1 h0
  obtain ⟨h0, e17⟩ := IntOp.andi_eq_one.1 h0
  obtain ⟨h0, e16⟩ := IntOp.andi_eq_one.1 h0
  obtain ⟨h0, e15⟩ := IntOp.andi_eq_one.1 h0
  obtain ⟨h0, e14⟩ := IntOp.andi_eq_one.1 h0
  obtain ⟨h0, e13⟩ := IntOp.andi_eq_one.1 h0
  obtain ⟨h0, -⟩ := IntOp.andi_eq_one.1 h0
  obtain ⟨h0, -⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, -⟩ := IntOp.andi_eq_one.1 h0
  obtain ⟨h0, -⟩ := IntOp.andi_eq_one.1 h0
  obtain ⟨h0, e2⟩ := IntOp.andi_eq_one.1 h0
  obtain ⟨h0, e1⟩ := IntOp.andi_eq_one.1 h0
  exact
    ⟨{
      ehrW := isReal_of_all _ _ _ _ e1
      ehrB := isReal_of_all _ _ _ _ e2
      bioW := isReal_of_all _ _ _ _ e5
      bioB := isReal_of_all _ _ _ _ e6
      bioQkvW := isReal_of_all _ _ _ _ e7
      bioQkvB := isReal_of_all _ _ _ _ e8
      ehrQkvW := isReal_of_all _ _ _ _ e9
      ehrQkvB := isReal_of_all _ _ _ _ e10
      attnInW := isReal_of_all _ _ _ _ e13
      attnInB := isReal_of_all _ _ _ _ e14
      attnOutW := isReal_of_all _ _ _ _ e15
      attnOutB := isReal_of_all _ _ _ _ e16
      abW := isReal_of_all _ _ _ _ e17
      abB := isReal_of_all _ _ _ _ e18
      f1W := isReal_of_all _ _ _ _ e19
      f1B := isReal_of_all _ _ _ _ e20
      bnG := isReal_of_all _ _ _ _ e21
      bnB := isReal_of_all _ _ _ _ e22
      f2W := isReal_of_all _ _ _ _ e23
      f2B := isReal_of_all _ _ _ _ e24 },
      isReal_of_all _ _ _ _ h0⟩

end Cert.KernelIdeal.PreDecode

end
-- ==== Proof.PayloadDefs.lean ====
/-
  The two kernel bodies as pure functions of the blocks they load, read at an index.

  Both bodies recompute the trunk of the 8192 rows of their block; the first adds the column sums of the trunk
  and of its square into two running rows, the second normalises the trunk with the statistics it is given,
  rectifies, and applies the last affine layer. The statements say that, entry by entry, these are the
  specification's functions of the row (Spec.lean), when the loaded weight blocks hold the weights.
-/
import proofs.«121510_j66580583023034_1_alg».proof.Proof.Gen.KernelIdeal.Skeleton
import proofs.«121510_j66580583023034_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payloads

open Idealize.ShloMosaic Idealize.ShloMosaic.ValueIdx Cert.KernelIdeal Cert.KernelIdeal.Gen Cert.Spec

/-- The sixteen weight blocks a body loads hold the weights `P`: matrices as they are, each bias as a one-row matrix. -/
structure Agrees (P : Params) (x1 : Vec Ideal S16x1 .f32) (x2 : Vec Ideal S1x16 .f32) (x3 : Vec Ideal S16x1 .f32) (x4 : Vec Ideal S1x16 .f32) (x5 : Vec Ideal S48x16 .f32) (x6 : Vec Ideal S1x48 .f32) (x7 : Vec Ideal S48x16 .f32) (x8 : Vec Ideal S1x48 .f32) (x9 : Vec Ideal S48x16 .f32) (x10 : Vec Ideal S1x48 .f32) (x11 : Vec Ideal S16x16 .f32) (x12 : Vec Ideal S1x16 .f32) (x13 : Vec Ideal S16x32 .f32) (x14 : Vec Ideal S1x16 .f32) (x15 : Vec Ideal S64x32 .f32) (x16 : Vec Ideal S1x64 .f32) : Prop where
  ehrW : ∀ o : Fin 16, x1 (ix2 o (0 : Fin 1)) = P.ehrW (ix2 o (0 : Fin 1))
  ehrB : ∀ o : Fin 16, x2 (ix2 (0 : Fin 1) o) = P.ehrB (ix1 o)
  bioW : ∀ o : Fin 16, x3 (ix2 o (0 : Fin 1)) = P.bioW (ix2 o (0 : Fin 1))
  bioB : ∀ o : Fin 16, x4 (ix2 (0 : Fin 1) o) = P.bioB (ix1 o)
  bioQkvW : ∀ (o : Fin 48) (q : Fin 16), x5 (ix2 o q) = P.bioQkvW (ix2 o q)
  bioQkvB : ∀ o : Fin 48, x6 (ix2 (0 : Fin 1) o) = P.bioQkvB (ix1 o)
  ehrQkvW : ∀ (o : Fin 48) (q : Fin 16), x7 (ix2 o q) = P.ehrQkvW (ix2 o q)
  ehrQkvB : ∀ o : Fin 48, x8 (ix2 (0 : Fin 1) o) = P.ehrQkvB (ix1 o)
  attnInW : ∀ (o : Fin 48) (q : Fin 16), x9 (ix2 o q) = P.attnInW (ix2 o q)
  attnInB : ∀ o : Fin 48, x10 (ix2 (0 : Fin 1) o) = P.attnInB (ix1 o)
  attnOutW : ∀ (o q : Fin 16), x11 (ix2 o q) = P.attnOutW (ix2 o q)
  attnOutB : ∀ o : Fin 16, x12 (ix2 (0 : Fin 1) o) = P.attnOutB (ix1 o)
  abW : ∀ (o : Fin 16) (q : Fin 32), x13 (ix2 o q) = P.abW (ix2 o q)
  abB : ∀ o : Fin 16, x14 (ix2 (0 : Fin 1) o) = P.abB (ix1 o)
  f1W : ∀ (o : Fin 64) (q : Fin 32), x15 (ix2 o q) = P.f1W (ix2 o q)
  f1B : ∀ o : Fin 64, x16 (ix2 (0 : Fin 1) o) = P.f1B (ix1 o)

/-- The trunk of a block as the FIRST body computes it: its payloads composed as its text composes them. -/
def h0 (x0 : Vec Ideal S8192x3 .f32) (x1 : Vec Ideal S16x1 .f32) (x2 : Vec Ideal S1x16 .f32) (x3 : Vec Ideal S16x1 .f32) (x4 : Vec Ideal S1x16 .f32) (x5 : Vec Ideal S48x16 .f32) (x6 : Vec Ideal S1x48 .f32) (x7 : Vec Ideal S48x16 .f32) (x8 : Vec Ideal S1x48 .f32) (x9 : Vec Ideal S48x16 .f32) (x10 : Vec Ideal S1x48 .f32) (x11 : Vec Ideal S16x16 .f32) (x12 : Vec Ideal S1x16 .f32) (x13 : Vec Ideal S16x32 .f32) (x14 : Vec Ideal S1x16 .f32) (x15 : Vec Ideal S64x32 .f32) (x16 : Vec Ideal S1x64 .f32) : FVec Ideal S8192x64 .f32 :=
  k0_pay15 x11 (k0_pay8 x12) x13 (k0_pay9 x14) x15 (k0_pay10 x16) (k0_pay11 x9) (k0_pay12 (k0_pay7 x10))
    (k0_pay13 x0 x1 (k0_pay3 x2) x7 (k0_pay6 x8) x9 (k0_pay7 x10) x11 (k0_pay8 x12))
    (k0_pay14 x0 x3 (k0_pay4 x4) x5 (k0_pay5 x6) x9)

/-- What the SECOND body stores, as its text composes it: `x17` the mean row, `x18` the variance row, `x19`, `x20` the
    normalisation's scale and shift rows, `x21`, `x22` the last layer's weights and bias row. -/
def out1 (x0 : Vec Ideal S8192x3 .f32) (x1 : Vec Ideal S16x1 .f32) (x2 : Vec Ideal S1x16 .f32) (x3 : Vec Ideal S16x1 .f32) (x4 : Vec Ideal S1x16 .f32) (x5 : Vec Ideal S48x16 .f32) (x6 : Vec Ideal S1x48 .f32) (x7 : Vec Ideal S48x16 .f32) (x8 : Vec Ideal S1x48 .f32) (x9 : Vec Ideal S48x16 .f32) (x10 : Vec Ideal S1x48 .f32) (x11 : Vec Ideal S16x16 .f32) (x12 : Vec Ideal S1x16 .f32) (x13 : Vec Ideal S16x32 .f32) (x14 : Vec Ideal S1x16 .f32) (x15 : Vec Ideal S64x32 .f32) (x16 : Vec Ideal S1x64 .f32) (x17 x18 x19 x20 : Vec Ideal S1x64 .f32) (x21 : Vec Ideal S3x64 .f32) (x22 : Vec Ideal S1x3 .f32) :
    FVec Ideal S8192x3 .f32 :=
  k1_pay1 (k1_pay14 x11 (k1_pay7 x12) x13 (k1_pay8 x14) x15 (k1_pay9 x16) (k1_pay10 x9) (k1_pay11 (k1_pay6 x10))
      (k1_pay12 x0 x1 (k1_pay2 x2) x7 (k1_pay5 x8) x9 (k1_pay6 x10) x11 (k1_pay7 x12))
      (k1_pay13 x0 x3 (k1_pay3 x4) x5 (k1_pay4 x6) x9 (k1_pay6 x10) x11) x18 x17 x19 x20) x21 x22

end Cert.KernelIdeal.Payloads

end
-- ==== Proof.PayloadsTrunk.lean ====
/-
  The first kernel body read at an index: the trunk of a block entry by entry, and the two running rows after a point.

  The body's trunk is a chain of affine layers on the 8192 rows of a block. Each layer is a product into a zero accumulator
  that contracts the second axis of both factors (activations times the transposed weights) plus a bias row broadcast over
  the rows; the format changes before each product are the identity on the extended reals. Read at row r, a layer sends
  the row f of its input block to the specification's lin W B f, so the chain read at row r is the specification's trunk of
  the row's two scalars. The two running rows add the column sums of the trunk and of its square.
-/
import proofs.«121510_j66580583023034_1_alg».proof.Proof.Gen.KernelIdeal.Skeleton
import proofs.«121510_j66580583023034_1_alg».proof.Proof.Spec
import proofs.«121510_j66580583023034_1_alg».proof.Proof.PayloadDefs
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payloads

open Idealize.ShloMosaic Idealize.ShloMosaic.ValueIdx Cert.KernelIdeal Cert.KernelIdeal.Gen Cert.Spec

/-! ## Layout operations at an index -/

section Layout
variable {α : Type}

/-- A column [a, 1] broadcast to [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column [a, 1] cast to the vector [a] reads, at i, the column's entry i. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Layout

/-- Two sixteen-wide blocks joined along the columns read, at (r, q), the specification's join of their rows r. -/
theorem concat16_apply (u v : FVec Ideal S8192x16 .f32) (h : Shape.Concatenates [S8192x16, S8192x16] S8192x32 1)
    (r : Fin 8192) (q : Fin 32) :
    concatenate S8192x32 1 [⟨S8192x16, u⟩, ⟨S8192x16, v⟩] h (ix2 r q) = join (fun k => u (ix2 r k)) (fun k => v (ix2 r k)) q := by
  unfold join
  split
  · rename_i hq
    exact concatenate_pair_apply_left (1 : Fin S8192x32.rank) u v h (ix2 r q) rfl (ix2 r ⟨q.val, hq⟩)
      (fun b => by match b with | ⟨0, _⟩ => rfl | ⟨1, _⟩ => rfl)
  · rename_i hq
    exact concatenate_pair_apply_right (1 : Fin S8192x32.rank) u v h (ix2 r q) rfl rfl (ix2 r ⟨q.val - 16, by omega⟩)
      (fun b hb => by match b, hb with | ⟨0, _⟩, _ => rfl | ⟨1, _⟩, hb => exact absurd rfl hb)
      (by show q.val - 16 + 16 = q.val; omega)

/-- The sum over the rows of a [8192, 64] block, read at column c. -/
theorem colSum_apply (src : FVec Ideal S8192x64 .f32) (h : S8192x64.Reduces [0] S64) (hφ : FKind.Formats .f32)
    (hacc : (0x00000000#32 : BitVec FTy.f32.bits) = FKind.add.neutral .f32 hφ) (c : Fin 64) :
    multiReduction .add [0] S64 src 0x00000000#32 h hφ hacc (ix1 c) = ∑ r : Fin 8192, src (ix2 r c) := by
  refine (Ideal.multiReduction_add_single src 0x00000000#32 h hφ hacc (ix1 c)).trans ?_
  show ∑ k : Fin 8192, src (h.lift (ix1 c) k) = _
  refine Finset.sum_congr rfl fun k _ => congrArg src (funext fun a => Fin.ext ?_)
  match a with
  | ⟨0, _⟩ => rfl
  | ⟨1, _⟩ => rfl

/-! ## A product that contracts the second axis of both factors -/

/-- A [m, k] by [n, k] product into a zero accumulator, read at (r, o), is the sum over q of a (r, q) · w (o, q), whenever
    the dimension numbers contract one axis of extent k and send the operands' axes where the four axis facts say:
    the left factor's axis 0 to the result's axis 0, the right factor's axis 0 to the result's axis 1, and both axes 1 to
    the contraction index. -/
theorem mm_apply_of_axes {m n k : ℕ} (D : DotDims (⟨2, ![m, k]⟩ : Shape) ⟨2, ![n, k]⟩ ⟨2, ![m, n]⟩)
    (hr : D.contr.rank = 1) (hs : D.contr.size ⟨0, by omega⟩ = k)
    (hl0 : ∀ (i : (⟨2, ![m, n]⟩ : Shape).Idx) (q : D.contr.Idx), (D.lhsIdx i q 0).val = (i 0).val)
    (hl1 : ∀ (i : (⟨2, ![m, n]⟩ : Shape).Idx) (q : D.contr.Idx), (D.lhsIdx i q 1).val = (q ⟨0, by omega⟩).val)
    (hr0 : ∀ (i : (⟨2, ![m, n]⟩ : Shape).Idx) (q : D.contr.Idx), (D.rhsIdx i q 0).val = (i 1).val)
    (hr1 : ∀ (i : (⟨2, ![m, n]⟩ : Shape).Idx) (q : D.contr.Idx), (D.rhsIdx i q 1).val = (q ⟨0, by omega⟩).val)
    (a : FVec Ideal (⟨2, ![m, k]⟩ : Shape) .bf16) (w : FVec Ideal (⟨2, ![n, k]⟩ : Shape) .bf16) (r : Fin m) (o : Fin n) :
    matmul D none a w (constant (F := Ideal) (⟨2, ![m, n]⟩ : Shape) .f32 0x00000000#32) (ix2 r o)
      = ∑ q : Fin k, a (ix2 r q) * w (ix2 o q) := by
  refine (Ideal.matmul_constant_zero_apply D none a w (ix2 r o)).trans ?_
  rw [← Equiv.sum_comp (ValueIdx.contrEquiv1 D k hr hs).symm]
  refine Finset.sum_congr rfl fun c _ => ?_
  have hc := ValueIdx.contrEquiv1_symm_val D k hr hs c
  have el : D.lhsIdx (ix2 r o) ((ValueIdx.contrEquiv1 D k hr hs).symm c) = ix2 r c := funext fun ax => Fin.ext (by
    match ax with
    | ⟨0, _⟩ => exact hl0 _ _
    | ⟨1, _⟩ => exact (hl1 _ _).trans hc)
  have er : D.rhsIdx (ix2 r o) ((ValueIdx.contrEquiv1 D k hr hs).symm c) = ix2 o c := funext fun ax => Fin.ext (by
    match ax with
    | ⟨0, _⟩ => exact hr0 _ _
    | ⟨1, _⟩ => exact (hr1 _ _).trans hc)
  rw [el, er]

/-- One affine layer of the body at entry (r, o): the product of the activations and the weights (their format changed, which
    is the identity here) into a zero accumulator, plus the bias row broadcast over the rows. When row r of the activations is
    f and the blocks hold W and B, it is the specification's lin W B f at o. hD is the product read at an index. -/
theorem layer_apply {k n : ℕ} (D : DotDims (⟨2, ![8192, k]⟩ : Shape) ⟨2, ![n, k]⟩ ⟨2, ![8192, n]⟩)
    (hD : ∀ (a : FVec Ideal (⟨2, ![8192, k]⟩ : Shape) .bf16) (w : FVec Ideal (⟨2, ![n, k]⟩ : Shape) .bf16) (r : Fin 8192) (o : Fin n),
      matmul D none a w (constant (F := Ideal) (⟨2, ![8192, n]⟩ : Shape) .f32 0x00000000#32) (ix2 r o)
        = ∑ q : Fin k, a (ix2 r q) * w (ix2 o q))
    (a : FVec Ideal (⟨2, ![8192, k]⟩ : Shape) .f32) (w : FVec Ideal (⟨2, ![n, k]⟩ : Shape) .f32)
    (b : FVec Ideal (⟨2, ![1, n]⟩ : Shape) .f32)
    (h1 : FTy.bits .bf16 < FTy.bits .f32) (hb : (⟨2, ![1, n]⟩ : Shape).Broadcasts ⟨2, ![8192, n]⟩)
    (W : Mat n k) (B : Vc n) (f : Fin k → EReal) (r : Fin 8192)
    (ha : ∀ q : Fin k, a (ix2 r q) = f q) (hw : ∀ (o : Fin n) (q : Fin k), w (ix2 o q) = W (ix2 o q))
    (hB : ∀ o : Fin n, b (ix2 (0 : Fin 1) o) = B (ix1 o)) (o : Fin n) :
    addf (matmul D none (truncf .bf16 a h1) (truncf .bf16 w h1) (constant (F := Ideal) (⟨2, ![8192, n]⟩ : Shape) .f32 0x00000000#32))
        (broadcastTo (⟨2, ![8192, n]⟩ : Shape) b hb) (ix2 r o) = lin W B f o := by
  show matmul D none (truncf .bf16 a h1) (truncf .bf16 w h1) (constant (F := Ideal) (⟨2, ![8192, n]⟩ : Shape) .f32 0x00000000#32) (ix2 r o)
      + broadcastTo (⟨2, ![8192, n]⟩ : Shape) b hb (ix2 r o) = (∑ q : Fin k, f q * W (ix2 o q)) + B (ix1 o)
  rw [hD, broadcastTo_1b_ab_apply b hb r o, hB o]
  refine congrArg (· + B (ix1 o)) (Finset.sum_congr rfl fun q _ => ?_)
  show a (ix2 r q) * w (ix2 o q) = _
  rw [ha q, hw o q]

/-! ## The body's four dimension-number records: where each sends the operands' axes -/

theorem lhs48_0 (i : S8192x48.Idx) (q : dot_S8192x16_S48x16_S8192x48_1_1_0_0_n_n.contr.Idx) :
    (dot_S8192x16_S48x16_S8192x48_1_1_0_0_n_n.lhsIdx i q 0).val = (i 0).val := by
  unfold DotDims.lhsIdx
  rw [dif_neg (show ¬(0 : Fin S8192x16.rank) ∈ dot_S8192x16_S48x16_S8192x48_1_1_0_0_n_n.lhsBatch by decide), dif_pos (show (0 : Fin S8192x16.rank) ∈ dot_S8192x16_S48x16_S8192x48_1_1_0_0_n_n.lhsNonContracting by decide)]
  rfl
theorem lhs48_1 (i : S8192x48.Idx) (q : dot_S8192x16_S48x16_S8192x48_1_1_0_0_n_n.contr.Idx) :
    (dot_S8192x16_S48x16_S8192x48_1_1_0_0_n_n.lhsIdx i q 1).val = (q ⟨0, by decide⟩).val :=
  dot_S8192x16_S48x16_S8192x48_1_1_0_0_n_n.lhsIdx_val_of_single rfl i q
theorem rhs48_0 (i : S8192x48.Idx) (q : dot_S8192x16_S48x16_S8192x48_1_1_0_0_n_n.contr.Idx) :
    (dot_S8192x16_S48x16_S8192x48_1_1_0_0_n_n.rhsIdx i q 0).val = (i 1).val := by
  unfold DotDims.rhsIdx
  rw [dif_neg (show ¬(0 : Fin S48x16.rank) ∈ dot_S8192x16_S48x16_S8192x48_1_1_0_0_n_n.rhsBatch by decide), dif_pos (show (0 : Fin S48x16.rank) ∈ dot_S8192x16_S48x16_S8192x48_1_1_0_0_n_n.rhsNonContracting by decide)]
  rfl
theorem rhs48_1 (i : S8192x48.Idx) (q : dot_S8192x16_S48x16_S8192x48_1_1_0_0_n_n.contr.Idx) :
    (dot_S8192x16_S48x16_S8192x48_1_1_0_0_n_n.rhsIdx i q 1).val = (q ⟨0, by decide⟩).val :=
  dot_S8192x16_S48x16_S8192x48_1_1_0_0_n_n.rhsIdx_val_of_single rfl i q
/-- The [8192, 16] by [48, 16] product at an index. -/
theorem mm48_apply (a : FVec Ideal S8192x16 .bf16) (w : FVec Ideal S48x16 .bf16) (r : Fin 8192) (o : Fin 48) :
    matmul dot_S8192x16_S48x16_S8192x48_1_1_0_0_n_n none a w (constant (F := Ideal) S8192x48 .f32 0x00000000#32) (ix2 r o)
      = ∑ q : Fin 16, a (ix2 r q) * w (ix2 o q) :=
  mm_apply_of_axes dot_S8192x16_S48x16_S8192x48_1_1_0_0_n_n rfl rfl lhs48_0 lhs48_1 rhs48_0 rhs48_1 a w r o

theorem lhs16_0 (i : S8192x16.Idx) (q : dot_S8192x16_S16x16_S8192x16_1_1_0_0_n_n.contr.Idx) :
    (dot_S8192x16_S16x16_S8192x16_1_1_0_0_n_n.lhsIdx i q 0).val = (i 0).val := by
  unfold DotDims.lhsIdx
  rw [dif_neg (show ¬(0 : Fin S8192x16.rank) ∈ dot_S8192x16_S16x16_S8192x16_1_1_0_0_n_n.lhsBatch by decide), dif_pos (show (0 : Fin S8192x16.rank) ∈ dot_S8192x16_S16x16_S8192x16_1_1_0_0_n_n.lhsNonContracting by decide)]
  rfl
theorem lhs16_1 (i : S8192x16.Idx) (q : dot_S8192x16_S16x16_S8192x16_1_1_0_0_n_n.contr.Idx) :
    (dot_S8192x16_S16x16_S8192x16_1_1_0_0_n_n.lhsIdx i q 1).val = (q ⟨0, by decide⟩).val :=
  dot_S8192x16_S16x16_S8192x16_1_1_0_0_n_n.lhsIdx_val_of_single rfl i q
theorem rhs16_0 (i : S8192x16.Idx) (q : dot_S8192x16_S16x16_S8192x16_1_1_0_0_n_n.contr.Idx) :
    (dot_S8192x16_S16x16_S8192x16_1_1_0_0_n_n.rhsIdx i q 0).val = (i 1).val := by
  unfold DotDims.rhsIdx
  rw [dif_neg (show ¬(0 : Fin S16x16.rank) ∈ dot_S8192x16_S16x16_S8192x16_1_1_0_0_n_n.rhsBatch by decide), dif_pos (show (0 : Fin S16x16.rank) ∈ dot_S8192x16_S16x16_S8192x16_1_1_0_0_n_n.rhsNonContracting by decide)]
  rfl
theorem rhs16_1 (i : S8192x16.Idx) (q : dot_S8192x16_S16x16_S8192x16_1_1_0_0_n_n.contr.Idx) :
    (dot_S8192x16_S16x16_S8192x16_1_1_0_0_n_n.rhsIdx i q 1).val = (q ⟨0, by decide⟩).val :=
  dot_S8192x16_S16x16_S8192x16_1_1_0_0_n_n.rhsIdx_val_of_single rfl i q
/-- The [8192, 16] by [16, 16] product at an index. -/
theorem mm16_apply (a : FVec Ideal S8192x16 .bf16) (w : FVec Ideal S16x16 .bf16) (r : Fin 8192) (o : Fin 16) :
    matmul dot_S8192x16_S16x16_S8192x16_1_1_0_0_n_n none a w (constant (F := Ideal) S8192x16 .f32 0x00000000#32) (ix2 r o)
      = ∑ q : Fin 16, a (ix2 r q) * w (ix2 o q) :=
  mm_apply_of_axes dot_S8192x16_S16x16_S8192x16_1_1_0_0_n_n rfl rfl lhs16_0 lhs16_1 rhs16_0 rhs16_1 a w r o

theorem lhsab_0 (i : S8192x16.Idx) (q : dot_S8192x32_S16x32_S8192x16_1_1_0_0_n_n.contr.Idx) :
    (dot_S8192x32_S16x32_S8192x16_1_1_0_0_n_n.lhsIdx i q 0).val = (i 0).val := by
  unfold DotDims.lhsIdx
  rw [dif_neg (show ¬(0 : Fin S8192x32.rank) ∈ dot_S8192x32_S16x32_S8192x16_1_1_0_0_n_n.lhsBatch by decide), dif_pos (show (0 : Fin S8192x32.rank) ∈ dot_S8192x32_S16x32_S8192x16_1_1_0_0_n_n.lhsNonContracting by decide)]
  rfl
theorem lhsab_1 (i : S8192x16.Idx) (q : dot_S8192x32_S16x32_S8192x16_1_1_0_0_n_n.contr.Idx) :
    (dot_S8192x32_S16x32_S8192x16_1_1_0_0_n_n.lhsIdx i q 1).val = (q ⟨0, by decide⟩).val :=
  dot_S8192x32_S16x32_S8192x16_1_1_0_0_n_n.lhsIdx_val_of_single rfl i q
theorem rhsab_0 (i : S8192x16.Idx) (q : dot_S8192x32_S16x32_S8192x16_1_1_0_0_n_n.contr.Idx) :
    (dot_S8192x32_S16x32_S8192x16_1_1_0_0_n_n.rhsIdx i q 0).val = (i 1).val := by
  unfold DotDims.rhsIdx
  rw [dif_neg (show ¬(0 : Fin S16x32.rank) ∈ dot_S8192x32_S16x32_S8192x16_1_1_0_0_n_n.rhsBatch by decide), dif_pos (show (0 : Fin S16x32.rank) ∈ dot_S8192x32_S16x32_S8192x16_1_1_0_0_n_n.rhsNonContracting by decide)]
  rfl
theorem rhsab_1 (i : S8192x16.Idx) (q : dot_S8192x32_S16x32_S8192x16_1_1_0_0_n_n.contr.Idx) :
    (dot_S8192x32_S16x32_S8192x16_1_1_0_0_n_n.rhsIdx i q 1).val = (q ⟨0, by decide⟩).val :=
  dot_S8192x32_S16x32_S8192x16_1_1_0_0_n_n.rhsIdx_val_of_single rfl i q
/-- The [8192, 32] by [16, 32] product at an index. -/
theorem mmab_apply (a : FVec Ideal S8192x32 .bf16) (w : FVec Ideal S16x32 .bf16) (r : Fin 8192) (o : Fin 16) :
    matmul dot_S8192x32_S16x32_S8192x16_1_1_0_0_n_n none a w (constant (F := Ideal) S8192x16 .f32 0x00000000#32) (ix2 r o)
      = ∑ q : Fin 32, a (ix2 r q) * w (ix2 o q) :=
  mm_apply_of_axes dot_S8192x32_S16x32_S8192x16_1_1_0_0_n_n rfl rfl lhsab_0 lhsab_1 rhsab_0 rhsab_1 a w r o

theorem lhsf1_0 (i : S8192x64.Idx) (q : dot_S8192x32_S64x32_S8192x64_1_1_0_0_n_n.contr.Idx) :
    (dot_S8192x32_S64x32_S8192x64_1_1_0_0_n_n.lhsIdx i q 0).val = (i 0).val := by
  unfold DotDims.lhsIdx
  rw [dif_neg (show ¬(0 : Fin S8192x32.rank) ∈ dot_S8192x32_S64x32_S8192x64_1_1_0_0_n_n.lhsBatch by decide), dif_pos (show (0 : Fin S8192x32.rank) ∈ dot_S8192x32_S64x32_S8192x64_1_1_0_0_n_n.lhsNonContracting by decide)]
  rfl
theorem lhsf1_1 (i : S8192x64.Idx) (q : dot_S8192x32_S64x32_S8192x64_1_1_0_0_n_n.contr.Idx) :
    (dot_S8192x32_S64x32_S8192x64_1_1_0_0_n_n.lhsIdx i q 1).val = (q ⟨0, by decide⟩).val :=
  dot_S8192x32_S64x32_S8192x64_1_1_0_0_n_n.lhsIdx_val_of_single rfl i q
theorem rhsf1_0 (i : S8192x64.Idx) (q : dot_S8192x32_S64x32_S8192x64_1_1_0_0_n_n.contr.Idx) :
    (dot_S8192x32_S64x32_S8192x64_1_1_0_0_n_n.rhsIdx i q 0).val = (i 1).val := by
  unfold DotDims.rhsIdx
  rw [dif_neg (show ¬(0 : Fin S64x32.rank) ∈ dot_S8192x32_S64x32_S8192x64_1_1_0_0_n_n.rhsBatch by decide), dif_pos (show (0 : Fin S64x32.rank) ∈ dot_S8192x32_S64x32_S8192x64_1_1_0_0_n_n.rhsNonContracting by decide)]
  rfl
theorem rhsf1_1 (i : S8192x64.Idx) (q : dot_S8192x32_S64x32_S8192x64_1_1_0_0_n_n.contr.Idx) :
    (dot_S8192x32_S64x32_S8192x64_1_1_0_0_n_n.rhsIdx i q 1).val = (q ⟨0, by decide⟩).val :=
  dot_S8192x32_S64x32_S8192x64_1_1_0_0_n_n.rhsIdx_val_of_single rfl i q
/-- The [8192, 32] by [64, 32] product at an index. -/
theorem mmf1_apply (a : FVec Ideal S8192x32 .bf16) (w : FVec Ideal S64x32 .bf16) (r : Fin 8192) (o : Fin 64) :
    matmul dot_S8192x32_S64x32_S8192x64_1_1_0_0_n_n none a w (constant (F := Ideal) S8192x64 .f32 0x00000000#32) (ix2 r o)
      = ∑ q : Fin 32, a (ix2 r q) * w (ix2 o q) :=
  mm_apply_of_axes dot_S8192x32_S64x32_S8192x64_1_1_0_0_n_n rfl rfl lhsf1_0 lhsf1_1 rhsf1_0 rhsf1_1 a w r o

/-! ## The pieces of the trunk at a row -/

/-- A scalar of the row embedded in sixteen dimensions, as the body computes it: column c of the block times the weight column
    (cast to a row) plus the bias row, against the zero splat. -/
theorem enc_apply (x : Vec Ideal S8192x3 .f32) (w : Vec Ideal S16x1 .f32) (b : FVec Ideal S1x16 .f32) (c : ℕ)
    (hs : S8192x3.Slices ![0, c] S8192x1) (h1 : S16x1.ShapeCasts S16) (h2 : S16.ShapeCasts S1x16)
    (h3 : S8192x1.Broadcasts S8192x16) (h4 : S1x16.Broadcasts S8192x16)
    (W : Mat 16 1) (B : Vc 16) (k : Fin 3) (hk : k.val = c)
    (hw : ∀ o : Fin 16, w (ix2 o (0 : Fin 1)) = W (ix2 o (0 : Fin 1))) (hB : ∀ o : Fin 16, b (ix2 (0 : Fin 1) o) = B (ix1 o))
    (r : Fin 8192) (o : Fin 16) :
    maximumf (addf (mulf (broadcastTo S8192x16 (extractStridedSlice S8192x1 ![0, c] x hs) h3)
        (broadcastTo S8192x16 (shapeCast S1x16 (shapeCast S16 w h1) h2) h4)) (broadcastTo S8192x16 b h4))
      (broadcast S8192x16 (Scalar.ofBits (F := Ideal) .f32 0x00000000#32)) (ix2 r o) = enc W B (x (ix2 r k)) o := by
  show max (broadcastTo S8192x16 (extractStridedSlice S8192x1 ![0, c] x hs) h3 (ix2 r o)
        * broadcastTo S8192x16 (shapeCast S1x16 (shapeCast S16 w h1) h2) h4 (ix2 r o) + broadcastTo S8192x16 b h4 (ix2 r o))
      (Ideal.ofBits .f32 0x00000000#32) = max (x (ix2 r k) * W (ix2 o (0 : Fin 1)) + B (ix1 o)) 0
  rw [broadcastTo_a1_ab_apply _ h3 r o, broadcastTo_1b_ab_apply _ h4 r o, broadcastTo_1b_ab_apply b h4 r o,
    shapeCast_a_1a_apply _ h2 (0 : Fin 1) o, shapeCast_a1_a_apply w h1 o,
    slice2_axis1_apply c x hs r (0 : Fin 1) k (by rw [hk]; rfl), hw o, hB o, Ideal.ofBits_zero_f32]

/-- A bias row cast to its own shape still holds the bias. -/
theorem selfCast_row {n : ℕ} (x : FVec Ideal (⟨2, ![1, n]⟩ : Shape) .f32) (h : (⟨2, ![1, n]⟩ : Shape).ShapeCasts ⟨2, ![1, n]⟩)
    (B : Vc n) (hx : ∀ o : Fin n, x (ix2 (0 : Fin 1) o) = B (ix1 o)) (o : Fin n) :
    shapeCast (⟨2, ![1, n]⟩ : Shape) x h (ix2 (0 : Fin 1) o) = B (ix1 o) :=
  (congrFun (shapeCast_self x h) _).trans (hx o)

/-- Rows 32 … 47 of the attention's stacked input weights, as the body slices them. -/
theorem slicedW_apply (P : Params) (w : FVec Ideal S48x16 .f32) (hs : S48x16.Slices ![32, 0] S16x16)
    (hw : ∀ (o : Fin 48) (q : Fin 16), w (ix2 o q) = P.attnInW (ix2 o q)) (o q : Fin 16) :
    extractStridedSlice S16x16 ![32, 0] w hs (ix2 o q) = P.attnInW (ix2 (⟨32 + o.val, by omega⟩ : Fin 48) q) :=
  (slice2_axis0_apply 32 w hs o q (⟨32 + o.val, by omega⟩ : Fin 48) rfl).trans (hw _ q)

/-- Entries 32 … 47 of the attention's stacked input bias row, as the body slices them. -/
theorem slicedB_apply (P : Params) (b : FVec Ideal S1x48 .f32) (hs : S1x48.Slices ![0, 32] S1x16)
    (hB : ∀ o : Fin 48, b (ix2 (0 : Fin 1) o) = P.attnInB (ix1 o)) (o : Fin 16) :
    extractStridedSlice S1x16 ![0, 32] b hs (ix2 (0 : Fin 1) o) = P.attnInB (ix1 (⟨32 + o.val, by omega⟩ : Fin 48)) :=
  (slice2_axis1_apply 32 b hs (0 : Fin 1) o (⟨32 + o.val, by omega⟩ : Fin 48) rfl).trans (hB _)

/-- The attention's value projection as a layer of the body: the sliced weights and the sliced bias row. -/
theorem vprojLayer_apply (P : Params) (a : FVec Ideal S8192x16 .f32) (w : FVec Ideal S16x16 .f32) (b : FVec Ideal S1x16 .f32)
    (h1 : FTy.bits .bf16 < FTy.bits .f32) (hb : S1x16.Broadcasts S8192x16) (f : Fin 16 → EReal) (r : Fin 8192)
    (ha : ∀ q : Fin 16, a (ix2 r q) = f q)
    (hw : ∀ o q : Fin 16, w (ix2 o q) = P.attnInW (ix2 (⟨32 + o.val, by omega⟩ : Fin 48) q))
    (hB : ∀ o : Fin 16, b (ix2 (0 : Fin 1) o) = P.attnInB (ix1 (⟨32 + o.val, by omega⟩ : Fin 48))) (o : Fin 16) :
    addf (matmul dot_S8192x16_S16x16_S8192x16_1_1_0_0_n_n none (truncf .bf16 a h1) (truncf .bf16 w h1) (constant (F := Ideal) S8192x16 .f32 0x00000000#32))
        (broadcastTo S8192x16 b hb) (ix2 r o) = vproj P f o := by
  show matmul dot_S8192x16_S16x16_S8192x16_1_1_0_0_n_n none (truncf .bf16 a h1) (truncf .bf16 w h1) (constant (F := Ideal) S8192x16 .f32 0x00000000#32) (ix2 r o)
      + broadcastTo S8192x16 b hb (ix2 r o)
    = (∑ q : Fin 16, f q * P.attnInW (ix2 (⟨32 + o.val, by omega⟩ : Fin 48) q)) + P.attnInB (ix1 (⟨32 + o.val, by omega⟩ : Fin 48))
  rw [mm16_apply, broadcastTo_1b_ab_apply b hb r o, hB o]
  refine congrArg (· + P.attnInB (ix1 (⟨32 + o.val, by omega⟩ : Fin 48))) (Finset.sum_congr rfl fun q _ => ?_)
  show a (ix2 r q) * w (ix2 o q) = _
  rw [ha q, hw o q]

/-- One branch of the body up to the value part of its stacked layer: the scalar in column c embedded, the stacked affine layer,
    and its last sixteen outputs. -/
theorem branch_apply (x : Vec Ideal S8192x3 .f32) (w : Vec Ideal S16x1 .f32) (b : FVec Ideal S1x16 .f32)
    (wq : FVec Ideal S48x16 .f32) (bq : FVec Ideal S1x48 .f32) (c : ℕ)
    (hs : S8192x3.Slices ![0, c] S8192x1) (h1 : S16x1.ShapeCasts S16) (h2 : S16.ShapeCasts S1x16)
    (h3 : S8192x1.Broadcasts S8192x16) (h4 : S1x16.Broadcasts S8192x16) (h5 : FTy.bits .bf16 < FTy.bits .f32)
    (h6 : S1x48.Broadcasts S8192x48) (h7 : S8192x48.Slices ![0, 32] S8192x16)
    (W : Mat 16 1) (B : Vc 16) (Wq : Mat 48 16) (Bq : Vc 48) (k : Fin 3) (hk : k.val = c)
    (hw : ∀ o : Fin 16, w (ix2 o (0 : Fin 1)) = W (ix2 o (0 : Fin 1))) (hB : ∀ o : Fin 16, b (ix2 (0 : Fin 1) o) = B (ix1 o))
    (hwq : ∀ (o : Fin 48) (q : Fin 16), wq (ix2 o q) = Wq (ix2 o q)) (hBq : ∀ o : Fin 48, bq (ix2 (0 : Fin 1) o) = Bq (ix1 o))
    (r : Fin 8192) (o : Fin 16) :
    extractStridedSlice S8192x16 ![0, 32]
        (addf (matmul dot_S8192x16_S48x16_S8192x48_1_1_0_0_n_n none
            (truncf .bf16 (maximumf (addf (mulf (broadcastTo S8192x16 (extractStridedSlice S8192x1 ![0, c] x hs) h3)
                (broadcastTo S8192x16 (shapeCast S1x16 (shapeCast S16 w h1) h2) h4)) (broadcastTo S8192x16 b h4))
              (broadcast S8192x16 (Scalar.ofBits (F := Ideal) .f32 0x00000000#32))) h5)
            (truncf .bf16 wq h5) (constant (F := Ideal) S8192x48 .f32 0x00000000#32))
          (broadcastTo S8192x48 bq h6)) h7 (ix2 r o)
      = upper (lin Wq Bq (enc W B (x (ix2 r k)))) o := by
  refine (slice2_axis1_apply 32 _ h7 r o (⟨32 + o.val, by omega⟩ : Fin 48) rfl).trans ?_
  exact layer_apply _ mm48_apply _ wq bq h5 h6 Wq Bq _ r
    (fun q => enc_apply x w b c hs h1 h2 h3 h4 W B k hk hw hB r q) hwq hBq _

/-- The layer over two joined sixteen-wide blocks: row r of the joined block is the join of the two rows. D is the layer's
    product (sixteen or sixty-four outputs), hD the product read at an index. -/
theorem joinLayer_apply {n : ℕ} (D : DotDims S8192x32 (⟨2, ![n, 32]⟩ : Shape) ⟨2, ![8192, n]⟩)
    (hD : ∀ (a : FVec Ideal S8192x32 .bf16) (w : FVec Ideal (⟨2, ![n, 32]⟩ : Shape) .bf16) (r : Fin 8192) (o : Fin n),
      matmul D none a w (constant (F := Ideal) (⟨2, ![8192, n]⟩ : Shape) .f32 0x00000000#32) (ix2 r o)
        = ∑ q : Fin 32, a (ix2 r q) * w (ix2 o q))
    (u v : FVec Ideal S8192x16 .f32) (w : FVec Ideal (⟨2, ![n, 32]⟩ : Shape) .f32) (b : FVec Ideal (⟨2, ![1, n]⟩ : Shape) .f32)
    (hc : Shape.Concatenates [S8192x16, S8192x16] S8192x32 1) (h1 : FTy.bits .bf16 < FTy.bits .f32)
    (hb : (⟨2, ![1, n]⟩ : Shape).Broadcasts ⟨2, ![8192, n]⟩)
    (W : Mat n 32) (B : Vc n) (fu fv : Fin 16 → EReal) (r : Fin 8192)
    (hu : ∀ k : Fin 16, u (ix2 r k) = fu k) (hv : ∀ k : Fin 16, v (ix2 r k) = fv k)
    (hw : ∀ (o : Fin n) (q : Fin 32), w (ix2 o q) = W (ix2 o q)) (hB : ∀ o : Fin n, b (ix2 (0 : Fin 1) o) = B (ix1 o)) (o : Fin n) :
    addf (matmul D none (truncf .bf16 (concatenate S8192x32 1 [⟨S8192x16, u⟩, ⟨S8192x16, v⟩] hc) h1) (truncf .bf16 w h1)
          (constant (F := Ideal) (⟨2, ![8192, n]⟩ : Shape) .f32 0x00000000#32))
        (broadcastTo (⟨2, ![8192, n]⟩ : Shape) b hb) (ix2 r o) = lin W B (join fu fv) o :=
  layer_apply D hD _ w b h1 hb W B _ r
    (fun q => (concat16_apply u v hc r q).trans (congrArg₂ (fun a b => join a b q) (funext hu) (funext hv))) hw hB o

/-- The attention over a single key applied to a block whose row r is f: the value projection (sliced weights, sliced bias row)
    and the output projection. -/
theorem attnLayers_apply (P : Params) (a : FVec Ideal S8192x16 .f32) (v60 : FVec Ideal S16x16 .f32) (v61 : FVec Ideal S1x16 .f32)
    (x11 : FVec Ideal S16x16 .f32) (v21 : FVec Ideal S1x16 .f32)
    (h1 : FTy.bits .bf16 < FTy.bits .f32) (hb : S1x16.Broadcasts S8192x16) (f : Fin 16 → EReal) (r : Fin 8192)
    (ha : ∀ q : Fin 16, a (ix2 r q) = f q)
    (h60 : ∀ o q : Fin 16, v60 (ix2 o q) = P.attnInW (ix2 (⟨32 + o.val, by omega⟩ : Fin 48) q))
    (h61 : ∀ o : Fin 16, v61 (ix2 (0 : Fin 1) o) = P.attnInB (ix1 (⟨32 + o.val, by omega⟩ : Fin 48)))
    (hW11 : ∀ (o q : Fin 16), x11 (ix2 o q) = P.attnOutW (ix2 o q))
    (hB11 : ∀ o : Fin 16, v21 (ix2 (0 : Fin 1) o) = P.attnOutB (ix1 o)) (o : Fin 16) :
    addf (matmul dot_S8192x16_S16x16_S8192x16_1_1_0_0_n_n none
          (truncf .bf16 (addf (matmul dot_S8192x16_S16x16_S8192x16_1_1_0_0_n_n none (truncf .bf16 a h1) (truncf .bf16 v60 h1)
              (constant (F := Ideal) S8192x16 .f32 0x00000000#32)) (broadcastTo S8192x16 v61 hb)) h1)
          (truncf .bf16 x11 h1) (constant (F := Ideal) S8192x16 .f32 0x00000000#32))
        (broadcastTo S8192x16 v21 hb) (ix2 r o) = attn P f o :=
  layer_apply _ mm16_apply _ x11 v21 h1 hb P.attnOutW P.attnOutB _ r
    (fun q => vprojLayer_apply P a v60 v61 h1 hb f r ha h60 h61 q) hW11 hB11 o

/-! ## The body's three large payloads at a row -/

/-- The first branch of the body (the row's first scalar), through the attention over its single key. -/
theorem pay13_apply (P : Params) (x0 : Vec Ideal S8192x3 .f32) (x1 : Vec Ideal S16x1 .f32) (v6 : FVec Ideal S1x16 .f32)
    (x7 : Vec Ideal S48x16 .f32) (v15 : FVec Ideal S1x48 .f32) (x9 : Vec Ideal S48x16 .f32) (v18 : FVec Ideal S1x48 .f32)
    (x11 : Vec Ideal S16x16 .f32) (v21 : FVec Ideal S1x16 .f32)
    (hW1 : ∀ o : Fin 16, x1 (ix2 o (0 : Fin 1)) = P.ehrW (ix2 o (0 : Fin 1)))
    (hB1 : ∀ o : Fin 16, v6 (ix2 (0 : Fin 1) o) = P.ehrB (ix1 o))
    (hW7 : ∀ (o : Fin 48) (q : Fin 16), x7 (ix2 o q) = P.ehrQkvW (ix2 o q))
    (hB7 : ∀ o : Fin 48, v15 (ix2 (0 : Fin 1) o) = P.ehrQkvB (ix1 o))
    (hW9 : ∀ (o : Fin 48) (q : Fin 16), x9 (ix2 o q) = P.attnInW (ix2 o q))
    (hB9 : ∀ o : Fin 48, v18 (ix2 (0 : Fin 1) o) = P.attnInB (ix1 o))
    (hW11 : ∀ (o q : Fin 16), x11 (ix2 o q) = P.attnOutW (ix2 o q))
    (hB11 : ∀ o : Fin 16, v21 (ix2 (0 : Fin 1) o) = P.attnOutB (ix1 o))
    (r : Fin 8192) (o : Fin 16) :
    k0_pay13 x0 x1 v6 x7 v15 x9 v18 x11 v21 (ix2 r o)
      = attn P (upper (lin P.ehrQkvW P.ehrQkvB (enc P.ehrW P.ehrB (x0 (ix2 r (0 : Fin 3)))))) o := by
  unfold k0_pay13 k0_pay11 k0_pay12
  refine attnLayers_apply P _ _ _ x11 v21 _ _ _ r (fun q => ?_) (slicedW_apply P x9 _ hW9) (slicedB_apply P v18 _ hB9) hW11 hB11 o
  exact branch_apply x0 x1 v6 x7 v15 0 _ _ _ _ _ _ _ _ P.ehrW P.ehrB P.ehrQkvW P.ehrQkvB (0 : Fin 3) rfl hW1 hB1 hW7 hB7 r q

/-- The second branch of the body (the row's third scalar), up to the value projection's products: the bias is added by the next part. -/
theorem pay14_apply (P : Params) (x0 : Vec Ideal S8192x3 .f32) (x3 : Vec Ideal S16x1 .f32) (v9 : FVec Ideal S1x16 .f32)
    (x5 : Vec Ideal S48x16 .f32) (v12 : FVec Ideal S1x48 .f32) (x9 : Vec Ideal S48x16 .f32)
    (hW3 : ∀ o : Fin 16, x3 (ix2 o (0 : Fin 1)) = P.bioW (ix2 o (0 : Fin 1)))
    (hB3 : ∀ o : Fin 16, v9 (ix2 (0 : Fin 1) o) = P.bioB (ix1 o))
    (hW5 : ∀ (o : Fin 48) (q : Fin 16), x5 (ix2 o q) = P.bioQkvW (ix2 o q))
    (hB5 : ∀ o : Fin 48, v12 (ix2 (0 : Fin 1) o) = P.bioQkvB (ix1 o))
    (hW9 : ∀ (o : Fin 48) (q : Fin 16), x9 (ix2 o q) = P.attnInW (ix2 o q))
    (r : Fin 8192) (o : Fin 16) :
    k0_pay14 x0 x3 v9 x5 v12 x9 (ix2 r o)
      = ∑ q : Fin 16, upper (lin P.bioQkvW P.bioQkvB (enc P.bioW P.bioB (x0 (ix2 r (2 : Fin 3))))) q
          * P.attnInW (ix2 (⟨32 + o.val, by omega⟩ : Fin 48) q) := by
  unfold k0_pay14 k0_pay11
  refine (mm16_apply _ _ r o).trans (Finset.sum_congr rfl fun q _ => ?_)
  exact congrArg₂ (· * ·)
    (branch_apply x0 x3 v9 x5 v12 2 Facts₀.slices_S8192x3_o0_2_S8192x1 Facts₀.shapeCasts_S16x1_S16 Facts₀.shapeCasts_S16_S1x16
      Facts₀.broadcasts_S8192x1_S8192x16 Facts₀.broadcasts_S1x16_S8192x16 Facts₀.bitsLt_bf16_f32 Facts₀.broadcasts_S1x48_S8192x48
      Facts₀.slices_S8192x48_o0_32_S8192x16 P.bioW P.bioB P.bioQkvW P.bioQkvB (2 : Fin 3) rfl hW3 hB3 hW5 hB5 r q)
    (slicedW_apply P x9 Facts₀.slices_S48x16_o32_0_S16x16 hW9 o q)

/-- The last part of the body: from the two branches' blocks to the sixty-four features. Row r of the first branch's block is
    fb (its attention already applied); row r of the second's holds the value projection's products of va, still without the bias. -/
theorem pay15_apply (P : Params) (x11 : Vec Ideal S16x16 .f32) (v21 : FVec Ideal S1x16 .f32) (x13 : Vec Ideal S16x32 .f32)
    (v24 : FVec Ideal S1x16 .f32) (x15 : Vec Ideal S64x32 .f32) (v27 : FVec Ideal S1x64 .f32)
    (v60 : FVec Ideal S16x16 .f32) (v61 : FVec Ideal S1x16 .f32) (v71 v74 : FVec Ideal S8192x16 .f32)
    (hW11 : ∀ (o q : Fin 16), x11 (ix2 o q) = P.attnOutW (ix2 o q))
    (hB11 : ∀ o : Fin 16, v21 (ix2 (0 : Fin 1) o) = P.attnOutB (ix1 o))
    (hW13 : ∀ (o : Fin 16) (q : Fin 32), x13 (ix2 o q) = P.abW (ix2 o q))
    (hB13 : ∀ o : Fin 16, v24 (ix2 (0 : Fin 1) o) = P.abB (ix1 o))
    (hW15 : ∀ (o : Fin 64) (q : Fin 32), x15 (ix2 o q) = P.f1W (ix2 o q))
    (hB15 : ∀ o : Fin 64, v27 (ix2 (0 : Fin 1) o) = P.f1B (ix1 o))
    (h60 : ∀ o q : Fin 16, v60 (ix2 o q) = P.attnInW (ix2 (⟨32 + o.val, by omega⟩ : Fin 48) q))
    (h61 : ∀ o : Fin 16, v61 (ix2 (0 : Fin 1) o) = P.attnInB (ix1 (⟨32 + o.val, by omega⟩ : Fin 48)))
    (fb va : Fin 16 → EReal) (r : Fin 8192)
    (h71 : ∀ o : Fin 16, v71 (ix2 r o) = fb o)
    (h74 : ∀ o : Fin 16, v74 (ix2 r o) = ∑ q : Fin 16, va q * P.attnInW (ix2 (⟨32 + o.val, by omega⟩ : Fin 48) q))
    (j : Fin 64) :
    k0_pay15 x11 v21 x13 v24 x15 v27 v60 v61 v71 v74 (ix2 r j)
      = lin P.f1W P.f1B (join (lin P.abW P.abB (join fb (attn P va))) (attn P (lin P.abW P.abB (join fb (attn P va))))) j := by
  unfold k0_pay15
  -- the second branch's value projection, its bias row now added
  have e76 : ∀ o : Fin 16, addf v74 (broadcastTo S8192x16 v61 Facts₀.broadcasts_S1x16_S8192x16) (ix2 r o) = vproj P va o := fun o => by
    show v74 (ix2 r o) + broadcastTo S8192x16 v61 Facts₀.broadcasts_S1x16_S8192x16 (ix2 r o) = _
    rw [h74 o, broadcastTo_1b_ab_apply v61 _ r o, h61 o]
    rfl
  -- the two attention outputs joined, through the layer of sixteen outputs
  have e87 := fun k : Fin 16 => joinLayer_apply _ mmab_apply v71 _ x13 v24 Facts₀.concatenates_S8192x16_S8192x16_S8192x32_d1
    Facts₀.bitsLt_bf16_f32 Facts₀.broadcasts_S1x16_S8192x16 P.abW P.abB fb (attn P va) r h71
    (fun o => layer_apply _ mm16_apply _ x11 v21 Facts₀.bitsLt_bf16_f32 Facts₀.broadcasts_S1x16_S8192x16 P.attnOutW P.attnOutB _ r
      e76 hW11 hB11 o)
    hW13 hB13 k
  -- that block joined with its attention, through the layer of sixty-four outputs
  exact joinLayer_apply _ mmf1_apply _ _ x15 v27 _ _ _ P.f1W P.f1B _ _ r e87
    (fun o => attnLayers_apply P _ v60 v61 x11 v21 _ _ _ r e87 h60 h61 hW11 hB11 o) hW15 hB15 j

/-! ## The stated facts -/

/-- Row `r`, feature `j` of the first body's trunk is the specification's trunk of the row's first and third scalar. -/
theorem h0_apply' (P : Params) (x0 : Vec Ideal S8192x3 .f32) (x1 : Vec Ideal S16x1 .f32) (x2 : Vec Ideal S1x16 .f32) (x3 : Vec Ideal S16x1 .f32) (x4 : Vec Ideal S1x16 .f32) (x5 : Vec Ideal S48x16 .f32) (x6 : Vec Ideal S1x48 .f32) (x7 : Vec Ideal S48x16 .f32) (x8 : Vec Ideal S1x48 .f32) (x9 : Vec Ideal S48x16 .f32) (x10 : Vec Ideal S1x48 .f32) (x11 : Vec Ideal S16x16 .f32) (x12 : Vec Ideal S1x16 .f32) (x13 : Vec Ideal S16x32 .f32) (x14 : Vec Ideal S1x16 .f32) (x15 : Vec Ideal S64x32 .f32) (x16 : Vec Ideal S1x64 .f32)
    (hW : Agrees P x1 x2 x3 x4 x5 x6 x7 x8 x9 x10 x11 x12 x13 x14 x15 x16) (r : Fin 8192) (j : Fin 64) :
    h0 x0 x1 x2 x3 x4 x5 x6 x7 x8 x9 x10 x11 x12 x13 x14 x15 x16 (ix2 r j) = trunk P (x0 (ix2 r (0 : Fin 3))) (x0 (ix2 r (2 : Fin 3))) j := by
  unfold h0 trunk
  have hB10 : ∀ o : Fin 48, k0_pay7 x10 (ix2 (0 : Fin 1) o) = P.attnInB (ix1 o) := selfCast_row x10 _ P.attnInB hW.attnInB
  have hB12 : ∀ o : Fin 16, k0_pay8 x12 (ix2 (0 : Fin 1) o) = P.attnOutB (ix1 o) := selfCast_row x12 _ P.attnOutB hW.attnOutB
  exact pay15_apply P x11 (k0_pay8 x12) x13 (k0_pay9 x14) x15 (k0_pay10 x16) (k0_pay11 x9) (k0_pay12 (k0_pay7 x10)) _ _
    hW.attnOutW hB12 hW.abW (selfCast_row x14 _ P.abB hW.abB) hW.f1W (selfCast_row x16 _ P.f1B hW.f1B)
    (slicedW_apply P x9 Facts₀.slices_S48x16_o32_0_S16x16 hW.attnInW)
    (slicedB_apply P (k0_pay7 x10) Facts₀.slices_S1x48_o0_32_S1x16 hB10) _ _ r
    (pay13_apply P x0 x1 (k0_pay3 x2) x7 (k0_pay6 x8) x9 (k0_pay7 x10) x11 (k0_pay8 x12) hW.ehrW (selfCast_row x2 _ P.ehrB hW.ehrB)
      hW.ehrQkvW (selfCast_row x8 _ P.ehrQkvB hW.ehrQkvB) hW.attnInW hB10 hW.attnOutW hB12 r)
    (pay14_apply P x0 x3 (k0_pay4 x4) x5 (k0_pay5 x6) x9 hW.bioW (selfCast_row x4 _ P.bioB hW.bioB)
      hW.bioQkvW (selfCast_row x6 _ P.bioQkvB hW.bioQkvB) hW.attnInW r) j

/-- A running row after a point: what it held plus the column sums of the block H. -/
theorem rowUpdate_apply (H : FVec Ideal S8192x64 .f32) (acc : FVec Ideal S1x64 .f32) (h1 : S1x64.ShapeCasts S1x64)
    (h2 : S64.ShapeCasts S1x64) (h : S8192x64.Reduces [0] S64) (hφ : FKind.Formats .f32)
    (hacc : (0x00000000#32 : BitVec FTy.f32.bits) = FKind.add.neutral .f32 hφ) (j : Fin 64) :
    addf (shapeCast S1x64 acc h1) (shapeCast S1x64 (multiReduction .add [0] S64 H 0x00000000#32 h hφ hacc) h2) (ix2 (0 : Fin 1) j)
      = acc (ix2 (0 : Fin 1) j) + ∑ r : Fin 8192, H (ix2 r j) := by
  show shapeCast S1x64 acc h1 (ix2 (0 : Fin 1) j) + shapeCast S1x64 (multiReduction .add [0] S64 H 0x00000000#32 h hφ hacc) h2 (ix2 (0 : Fin 1) j) = _
  rw [shapeCast_self acc h1, shapeCast_a_1a_apply _ h2 (0 : Fin 1) j, colSum_apply H h hφ hacc j]

/-- The first running row after a point: what it held (`acc`) plus the block's column sums of the trunk. -/
theorem sumUpdate_apply' (x0 : Vec Ideal S8192x3 .f32) (x1 : Vec Ideal S16x1 .f32) (x2 : Vec Ideal S1x16 .f32) (x3 : Vec Ideal S16x1 .f32) (x4 : Vec Ideal S1x16 .f32) (x5 : Vec Ideal S48x16 .f32) (x6 : Vec Ideal S1x48 .f32) (x7 : Vec Ideal S48x16 .f32) (x8 : Vec Ideal S1x48 .f32) (x9 : Vec Ideal S48x16 .f32) (x10 : Vec Ideal S1x48 .f32) (x11 : Vec Ideal S16x16 .f32) (x12 : Vec Ideal S1x16 .f32) (x13 : Vec Ideal S16x32 .f32) (x14 : Vec Ideal S1x16 .f32) (x15 : Vec Ideal S64x32 .f32) (x16 : Vec Ideal S1x64 .f32) (acc : Vec Ideal S1x64 .f32) (j : Fin 64) :
    k0_pay16 x11 (k0_pay8 x12) x13 (k0_pay9 x14) x15 (k0_pay10 x16) (k0_pay11 x9) (k0_pay12 (k0_pay7 x10))
        (k0_pay13 x0 x1 (k0_pay3 x2) x7 (k0_pay6 x8) x9 (k0_pay7 x10) x11 (k0_pay8 x12))
        (k0_pay14 x0 x3 (k0_pay4 x4) x5 (k0_pay5 x6) x9) acc (ix2 (0 : Fin 1) j)
      = acc (ix2 (0 : Fin 1) j) + ∑ r : Fin 8192, h0 x0 x1 x2 x3 x4 x5 x6 x7 x8 x9 x10 x11 x12 x13 x14 x15 x16 (ix2 r j) := by
  unfold k0_pay16 h0
  exact rowUpdate_apply _ acc _ _ _ _ _ j

/-- The second running row after a point: what it held plus the block's column sums of the squared trunk. -/
theorem sqUpdate_apply' (x0 : Vec Ideal S8192x3 .f32) (x1 : Vec Ideal S16x1 .f32) (x2 : Vec Ideal S1x16 .f32) (x3 : Vec Ideal S16x1 .f32) (x4 : Vec Ideal S1x16 .f32) (x5 : Vec Ideal S48x16 .f32) (x6 : Vec Ideal S1x48 .f32) (x7 : Vec Ideal S48x16 .f32) (x8 : Vec Ideal S1x48 .f32) (x9 : Vec Ideal S48x16 .f32) (x10 : Vec Ideal S1x48 .f32) (x11 : Vec Ideal S16x16 .f32) (x12 : Vec Ideal S1x16 .f32) (x13 : Vec Ideal S16x32 .f32) (x14 : Vec Ideal S1x16 .f32) (x15 : Vec Ideal S64x32 .f32) (x16 : Vec Ideal S1x64 .f32) (acc : Vec Ideal S1x64 .f32) (j : Fin 64) :
    k0_pay17 x11 (k0_pay8 x12) x13 (k0_pay9 x14) x15 (k0_pay10 x16) (k0_pay11 x9) (k0_pay12 (k0_pay7 x10))
        (k0_pay13 x0 x1 (k0_pay3 x2) x7 (k0_pay6 x8) x9 (k0_pay7 x10) x11 (k0_pay8 x12))
        (k0_pay14 x0 x3 (k0_pay4 x4) x5 (k0_pay5 x6) x9) acc (ix2 (0 : Fin 1) j)
      = acc (ix2 (0 : Fin 1) j) + ∑ r : Fin 8192, h0 x0 x1 x2 x3 x4 x5 x6 x7 x8 x9 x10 x11 x12 x13 x14 x15 x16 (ix2 r j) * h0 x0 x1 x2 x3 x4 x5 x6 x7 x8 x9 x10 x11 x12 x13 x14 x15 x16 (ix2 r j) := by
  unfold k0_pay17 h0
  exact rowUpdate_apply (mulf _ _) acc _ _ _ _ _ j

/-- The zero row the first point stores before it accumulates. -/
theorem zeroRow_apply' (j : Fin 64) : (k0_pay1 (F := Ideal)) (ix2 (0 : Fin 1) j) = 0 ∧ (k0_pay2 (F := Ideal)) (ix2 (0 : Fin 1) j) = 0 :=
  ⟨Ideal.ofBits_zero_f32, Ideal.ofBits_zero_f32⟩

end Cert.KernelIdeal.Payloads

end
-- ==== Proof.PayloadsOut.lean ====
/-
  The second kernel body read at an index: the trunk again, normalised by the statistics rows it is given, rectified,
  through the last affine layer.
-/
import proofs.«121510_j66580583023034_1_alg».proof.Proof.Gen.KernelIdeal.Skeleton
import proofs.«121510_j66580583023034_1_alg».proof.Proof.Spec
import proofs.«121510_j66580583023034_1_alg».proof.Proof.PayloadDefs
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payloads

open Idealize.ShloMosaic Idealize.ShloMosaic.ValueIdx Cert.KernelIdeal Cert.KernelIdeal.Gen Cert.Spec

namespace OutRead

/-! ## Two layout operations read at an index: a column broadcast along the rows, a column cast to a vector -/

/-- An `[a, 1]` column broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1]` column cast to `[a]` reads, at `i`, the column's entry `i`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Two blocks of sixteen columns side by side, at row `r`: the two rows side by side. -/
theorem concat16_apply (u v : FVec Ideal S8192x16 .f32) (h : Shape.Concatenates [S8192x16, S8192x16] S8192x32 1)
    (r : Fin 8192) (q : Fin 32) :
    concatenate S8192x32 1 [⟨S8192x16, u⟩, ⟨S8192x16, v⟩] h (ix2 r q)
      = join (fun o => u (ix2 r o)) (fun o => v (ix2 r o)) q := by
  unfold join
  by_cases hq : q.val < 16
  · rw [dif_pos hq]
    exact concatenate_pair_apply_left 1 u v h (ix2 r q) rfl (ix2 r (⟨q.val, hq⟩ : Fin 16))
      (fun b => by match b with | ⟨0, _⟩ => rfl | ⟨1, _⟩ => rfl)
  · rw [dif_neg hq]
    exact concatenate_pair_apply_right 1 u v h (ix2 r q) rfl rfl (ix2 r (⟨q.val - 16, by have := q.isLt; omega⟩ : Fin 16))
      (fun b hb => by match b with | ⟨0, _⟩ => rfl | ⟨1, _⟩ => exact absurd rfl hb)
      (by show (q.val - 16) + 16 = q.val; omega)

/-- A scalar column of the block embedded in sixteen dimensions, as the bodies write it: the column `c` of the rows
    broadcast along the sixteen, times the weight column laid as a row, plus the bias row, rectified. -/
theorem enc_apply (x0 : Vec Ideal S8192x3 .f32) (w : Vec Ideal S16x1 .f32) (b : FVec Ideal S1x16 .f32) (oc : ℕ)
    (hs : S8192x3.Slices ![0, oc] S8192x1) (hc1 : S16x1.ShapeCasts S16) (hc2 : S16.ShapeCasts S1x16)
    (hb1 : S8192x1.Broadcasts S8192x16) (hb2 : S1x16.Broadcasts S8192x16) (c : Fin 3) (hc : c.val = oc + (0 : Fin 1).val)
    (r : Fin 8192) (o : Fin 16) :
    maximumf (addf (mulf (broadcastTo S8192x16 (extractStridedSlice S8192x1 ![0, oc] x0 hs) hb1)
          (broadcastTo S8192x16 (shapeCast S1x16 (shapeCast S16 w hc1) hc2) hb2)) (broadcastTo S8192x16 b hb2))
        (broadcast S8192x16 (Scalar.ofBits (F := Ideal) .f32 0x00000000#32)) (ix2 r o)
      = max (x0 (ix2 r c) * w (ix2 o (0 : Fin 1)) + b (ix2 (0 : Fin 1) o)) 0 := by
  show max (broadcastTo S8192x16 (extractStridedSlice S8192x1 ![0, oc] x0 hs) hb1 (ix2 r o)
        * broadcastTo S8192x16 (shapeCast S1x16 (shapeCast S16 w hc1) hc2) hb2 (ix2 r o)
        + broadcastTo S8192x16 b hb2 (ix2 r o)) (Ideal.ofBits .f32 0x00000000#32) = _
  rw [broadcastTo_a1_ab_apply _ hb1 r o, broadcastTo_1b_ab_apply _ hb2 r o, broadcastTo_1b_ab_apply b hb2 r o,
    shapeCast_a_1a_apply _ hc2 (0 : Fin 1) o, shapeCast_a1_a_apply w hc1 o,
    slice2_axis1_apply oc x0 hs r (0 : Fin 1) c hc, Ideal.ofBits_zero_f32]

/-! ## A product of rows against weight rows, read at an entry -/

/-- Dimension numbers of a product of `R` rows of length `K` against `N` weight rows of length `K`: both operands
    contracted on their second axis, no batch axis. Each of the bodies' five records is of this form. -/
def RowsDot {R K N : ℕ} (D : DotDims ⟨2, ![R, K]⟩ ⟨2, ![N, K]⟩ ⟨2, ![R, N]⟩) : Prop :=
  D.lhsBatch = [] ∧ D.lhsNonContracting = [(0 : Fin 2)] ∧ D.lhsContracting = [(1 : Fin 2)]
    ∧ D.rhsBatch = [] ∧ D.rhsNonContracting = [(0 : Fin 2)] ∧ D.rhsContracting = [(1 : Fin 2)]

section RowsDot
variable {R K N : ℕ} {D : DotDims ⟨2, ![R, K]⟩ ⟨2, ![N, K]⟩ ⟨2, ![R, N]⟩}

/-- The left operand's index has the output's row … -/
theorem RowsDot.lhs0 (hD : RowsDot D) (i : (⟨2, ![R, N]⟩ : Shape).Idx) (q : D.contr.Idx) :
    (D.lhsIdx i q (0 : Fin 2)).val = (i 0).val := by
  obtain ⟨hlb, hln, hlc, hrb, hrn, hrc⟩ := hD
  have key : ∀ (p p' : ℕ) (hp : p < 2) (hp' : p' < 2), p = p' → (i ⟨p, hp⟩).val = (i ⟨p', hp'⟩).val :=
    fun p p' hp hp' h => by subst h; rfl
  unfold DotDims.lhsIdx
  rw [dif_neg (by rw [hlb]; exact List.not_mem_nil), dif_pos (by rw [hln]; exact List.mem_singleton.mpr rfl)]
  simp only [Fin.val_cast]
  exact key _ _ _ _ (by simp [hlb, hln])
/-- … and the contraction position; … -/
theorem RowsDot.lhs1 (hD : RowsDot D) (i : (⟨2, ![R, N]⟩ : Shape).Idx) (q : D.contr.Idx) :
    (D.lhsIdx i q (1 : Fin 2)).val = (q ⟨0, by rw [D.rank_contr, hD.2.2.1]; exact Nat.one_pos⟩).val :=
  D.lhsIdx_val_of_single hD.2.2.1 i q
/-- … the right operand's index has the output's column as its row … -/
theorem RowsDot.rhs0 (hD : RowsDot D) (i : (⟨2, ![R, N]⟩ : Shape).Idx) (q : D.contr.Idx) :
    (D.rhsIdx i q (0 : Fin 2)).val = (i 1).val := by
  obtain ⟨hlb, hln, hlc, hrb, hrn, hrc⟩ := hD
  have key : ∀ (p p' : ℕ) (hp : p < 2) (hp' : p' < 2), p = p' → (i ⟨p, hp⟩).val = (i ⟨p', hp'⟩).val :=
    fun p p' hp hp' h => by subst h; rfl
  unfold DotDims.rhsIdx
  rw [dif_neg (by rw [hrb]; exact List.not_mem_nil), dif_pos (by rw [hrn]; exact List.mem_singleton.mpr rfl)]
  simp only [Fin.val_cast]
  exact key _ _ _ _ (by simp [hlb, hln, hrn])
/-- … and the contraction position. -/
theorem RowsDot.rhs1 (hD : RowsDot D) (i : (⟨2, ![R, N]⟩ : Shape).Idx) (q : D.contr.Idx) :
    (D.rhsIdx i q (1 : Fin 2)).val = (q ⟨0, by rw [D.rank_contr, hD.2.2.1]; exact Nat.one_pos⟩).val :=
  D.rhsIdx_val_of_single hD.2.2.2.2.2 i q

/-- The contraction has one axis … -/
theorem RowsDot.contr_rank (hD : RowsDot D) : D.contr.rank = 1 := by rw [D.rank_contr, hD.2.2.1]; rfl
/-- … of extent `K`. -/
theorem RowsDot.contr_size (hD : RowsDot D) : D.contr.size ⟨0, by rw [hD.contr_rank]; exact Nat.one_pos⟩ = K := by
  have h := D.size_contr 0 (by rw [hD.2.2.1]; exact Nat.one_pos)
  simpa [hD.2.2.1] using h

/-- The product into a zero accumulator, at row `r` and output `o`: the sum over the `K` positions of the row's
    entry times the weight row's entry. -/
theorem mm_rows (hD : RowsDot D) {φ₁ φ₂ : FTy} (a : FVec Ideal ⟨2, ![R, K]⟩ φ₁) (w : FVec Ideal ⟨2, ![N, K]⟩ φ₂)
    (r : Fin R) (o : Fin N) :
    FloatOps.matmul D none a w (constant (F := Ideal) ⟨2, ![R, N]⟩ .f32 0x00000000#32) (ix2 r o)
      = ∑ q : Fin K, a (ix2 r q) * w (ix2 o q) := by
  rw [Ideal.matmul_constant_zero_apply, ← Equiv.sum_comp (ValueIdx.contrEquiv1 D K hD.contr_rank hD.contr_size).symm]
  refine Finset.sum_congr rfl fun k _ => ?_
  have hk := ValueIdx.contrEquiv1_symm_val D K hD.contr_rank hD.contr_size k
  have el : D.lhsIdx (ix2 r o) ((ValueIdx.contrEquiv1 D K hD.contr_rank hD.contr_size).symm k) = ix2 r k :=
    funext fun a => Fin.ext (by
      match a with
      | ⟨0, _⟩ => exact hD.lhs0 _ _
      | ⟨1, _⟩ => exact (hD.lhs1 _ _).trans hk)
  have er : D.rhsIdx (ix2 r o) ((ValueIdx.contrEquiv1 D K hD.contr_rank hD.contr_size).symm k) = ix2 o k :=
    funext fun a => Fin.ext (by
      match a with
      | ⟨0, _⟩ => exact hD.rhs0 _ _
      | ⟨1, _⟩ => exact (hD.rhs1 _ _).trans hk)
  rw [el, er]

/-- The product as the bodies write it (operands narrowed, zeros to accumulate into), when the left operand's row `r`
    is `v` and the weight block holds `W`. -/
theorem mm_rows_of (hD : RowsDot D) (a : FVec Ideal ⟨2, ![R, K]⟩ .f32) (w : FVec Ideal ⟨2, ![N, K]⟩ .f32)
    (hlt : FTy.bits .bf16 < FTy.bits .f32) (r : Fin R) (o : Fin N) (v : Fin K → EReal) (W : Mat N K)
    (ha : ∀ q : Fin K, a (ix2 r q) = v q) (hw : ∀ (o : Fin N) (q : Fin K), w (ix2 o q) = W (ix2 o q)) :
    matmul D none (truncf .bf16 a hlt) (truncf .bf16 w hlt) (constant (F := Ideal) ⟨2, ![R, N]⟩ .f32 0x00000000#32) (ix2 r o)
      = ∑ q : Fin K, v q * W (ix2 o q) :=
  (mm_rows hD (truncf .bf16 a hlt) (truncf .bf16 w hlt) r o).trans
    (Finset.sum_congr rfl fun q _ => congr (congrArg HMul.hMul (ha q)) (hw o q))

/-- The affine layer as the bodies write it (the bias row added down the block), at row `r` and output `o`. -/
theorem layer_rows (hD : RowsDot D) (a : FVec Ideal ⟨2, ![R, K]⟩ .f32) (w : FVec Ideal ⟨2, ![N, K]⟩ .f32)
    (b : FVec Ideal ⟨2, ![1, N]⟩ .f32) (hlt : FTy.bits .bf16 < FTy.bits .f32)
    (hb : (⟨2, ![1, N]⟩ : Shape).Broadcasts ⟨2, ![R, N]⟩) (r : Fin R) (o : Fin N) :
    addf (matmul D none (truncf .bf16 a hlt) (truncf .bf16 w hlt) (constant (F := Ideal) ⟨2, ![R, N]⟩ .f32 0x00000000#32))
        (broadcastTo ⟨2, ![R, N]⟩ b hb) (ix2 r o)
      = (∑ q : Fin K, a (ix2 r q) * w (ix2 o q)) + b (ix2 (0 : Fin 1) o) := by
  refine (addf_apply _ _ _).trans ?_
  rw [broadcastTo_1b_ab_apply b hb r o]
  exact congrArg (· + b (ix2 (0 : Fin 1) o)) (mm_rows hD _ _ r o)

/-- The same layer when the left operand's row `r` is `v`, the weight block holds `W` and the bias row holds `B`: the
    specification's affine layer of `v`. -/
theorem linlayer (hD : RowsDot D) (a : FVec Ideal ⟨2, ![R, K]⟩ .f32) (w : FVec Ideal ⟨2, ![N, K]⟩ .f32)
    (b : FVec Ideal ⟨2, ![1, N]⟩ .f32) (hlt : FTy.bits .bf16 < FTy.bits .f32)
    (hb : (⟨2, ![1, N]⟩ : Shape).Broadcasts ⟨2, ![R, N]⟩) (r : Fin R) (o : Fin N)
    (v : Fin K → EReal) (W : Mat N K) (B : Vc N) (ha : ∀ q : Fin K, a (ix2 r q) = v q)
    (hw : ∀ (o : Fin N) (q : Fin K), w (ix2 o q) = W (ix2 o q)) (hB : ∀ o : Fin N, b (ix2 (0 : Fin 1) o) = B (ix1 o)) :
    addf (matmul D none (truncf .bf16 a hlt) (truncf .bf16 w hlt) (constant (F := Ideal) ⟨2, ![R, N]⟩ .f32 0x00000000#32))
        (broadcastTo ⟨2, ![R, N]⟩ b hb) (ix2 r o)
      = lin W B v o := by
  refine (addf_apply _ _ _).trans ?_
  rw [broadcastTo_1b_ab_apply b hb r o, hB o]
  exact congrArg (· + B (ix1 o)) (mm_rows_of hD a w hlt r o v W ha hw)

end RowsDot

/-- The bodies' five products are of that form. -/
theorem rows_qkv : RowsDot dot_S8192x16_S48x16_S8192x48_1_1_0_0_n_n := ⟨rfl, rfl, rfl, rfl, rfl, rfl⟩
theorem rows_sq : RowsDot dot_S8192x16_S16x16_S8192x16_1_1_0_0_n_n := ⟨rfl, rfl, rfl, rfl, rfl, rfl⟩
theorem rows_ab : RowsDot dot_S8192x32_S16x32_S8192x16_1_1_0_0_n_n := ⟨rfl, rfl, rfl, rfl, rfl, rfl⟩
theorem rows_f1 : RowsDot dot_S8192x32_S64x32_S8192x64_1_1_0_0_n_n := ⟨rfl, rfl, rfl, rfl, rfl, rfl⟩
theorem rows_f2 : RowsDot dot_S8192x64_S3x64_S8192x3_1_1_0_0_n_n := ⟨rfl, rfl, rfl, rfl, rfl, rfl⟩

/-! ## The pieces of the trunk, read at a row -/

/-- The joined block at row `r`, when the two blocks' rows are `U` and `V`. -/
theorem concat_row (u v : FVec Ideal S8192x16 .f32) (h : Shape.Concatenates [S8192x16, S8192x16] S8192x32 1)
    (r : Fin 8192) (U V : Fin 16 → EReal) (hu : ∀ o : Fin 16, u (ix2 r o) = U o) (hv : ∀ o : Fin 16, v (ix2 r o) = V o)
    (q : Fin 32) :
    concatenate S8192x32 1 [⟨S8192x16, u⟩, ⟨S8192x16, v⟩] h (ix2 r q) = join U V q := by
  rw [concat16_apply u v h r q, show (fun o => u (ix2 r o)) = U from funext hu, show (fun o => v (ix2 r o)) = V from funext hv]

/-- The value part of a stacked layer at row `r`: columns 32 … 47 of the layer's output. -/
theorem upper_layer (a : FVec Ideal S8192x16 .f32) (w : FVec Ideal S48x16 .f32) (b : FVec Ideal S1x48 .f32)
    (hlt : FTy.bits .bf16 < FTy.bits .f32) (hb : S1x48.Broadcasts S8192x48) (hs : S8192x48.Slices ![0, 32] S8192x16)
    (r : Fin 8192) (o : Fin 16) (v : Fin 16 → EReal) (W : Mat 48 16) (B : Vc 48) (ha : ∀ q : Fin 16, a (ix2 r q) = v q)
    (hw : ∀ (o : Fin 48) (q : Fin 16), w (ix2 o q) = W (ix2 o q)) (hB : ∀ o : Fin 48, b (ix2 (0 : Fin 1) o) = B (ix1 o)) :
    extractStridedSlice S8192x16 ![0, 32]
        (addf (matmul dot_S8192x16_S48x16_S8192x48_1_1_0_0_n_n none (truncf .bf16 a hlt) (truncf .bf16 w hlt)
          (constant (F := Ideal) S8192x48 .f32 0x00000000#32)) (broadcastTo S8192x48 b hb)) hs (ix2 r o)
      = upper (lin W B v) o := by
  refine (slice2_axis1_apply 32 _ hs r o (⟨32 + o.val, by have := o.isLt; omega⟩ : Fin 48) rfl).trans ?_
  exact linlayer rows_qkv a w b hlt hb r _ v W B ha hw hB

/-- The attention's value projection at row `r`: the layer whose weights are rows 32 … 47 of the stacked input
    weights and whose bias is columns 32 … 47 of the stacked bias row. -/
theorem vproj_layer (P : Params) (a : FVec Ideal S8192x16 .f32) (x9 : Vec Ideal S48x16 .f32) (x10 : Vec Ideal S1x48 .f32)
    (hlt : FTy.bits .bf16 < FTy.bits .f32) (hb : S1x16.Broadcasts S8192x16)
    (h9 : ∀ (o : Fin 48) (q : Fin 16), x9 (ix2 o q) = P.attnInW (ix2 o q))
    (h10 : ∀ o : Fin 48, x10 (ix2 (0 : Fin 1) o) = P.attnInB (ix1 o))
    (r : Fin 8192) (o : Fin 16) (v : Fin 16 → EReal) (ha : ∀ q : Fin 16, a (ix2 r q) = v q) :
    addf (matmul dot_S8192x16_S16x16_S8192x16_1_1_0_0_n_n none (truncf .bf16 a hlt) (truncf .bf16 (k1_pay10 x9) hlt)
          (constant (F := Ideal) S8192x16 .f32 0x00000000#32)) (broadcastTo S8192x16 (k1_pay11 (k1_pay6 x10)) hb) (ix2 r o)
      = vproj P v o := by
  refine (layer_rows rows_sq a (k1_pay10 x9) (k1_pay11 (k1_pay6 x10)) hlt hb r o).trans ?_
  unfold vproj
  have e10 : k1_pay11 (k1_pay6 x10) (ix2 (0 : Fin 1) o) = P.attnInB (ix1 (⟨32 + o.val, by omega⟩ : Fin 48)) := by
    unfold k1_pay11 k1_pay6
    rw [shapeCast_self]
    exact (slice2_axis1_apply 32 x10 _ (0 : Fin 1) o (⟨32 + o.val, by have := o.isLt; omega⟩ : Fin 48) rfl).trans (h10 _)
  rw [e10]
  refine congrArg (· + P.attnInB (ix1 (⟨32 + o.val, by omega⟩ : Fin 48))) (Finset.sum_congr rfl fun q _ => ?_)
  rw [ha q]
  refine congrArg (v q * ·) ?_
  unfold k1_pay10
  exact (slice2_axis0_apply 32 x9 _ o q (⟨32 + o.val, by have := o.isLt; omega⟩ : Fin 48) rfl).trans (h9 _ q)

/-- The normalisation of a block `h` by a mean row `mm`, a variance row `vv`, a scale row `gg` and a shift row `bb`,
    rectified, at row `r` and feature `j`. -/
theorem norm_apply (h : FVec Ideal S8192x64 .f32) (vv mm gg bb : Vec Ideal S1x64 .f32) (hc : S1x64.ShapeCasts S1x64)
    (hbr : S1x64.Broadcasts S8192x64) (r : Fin 8192) (j : Fin 64) :
    maximumf (addf (mulf (mulf (subf h (broadcastTo S8192x64 (shapeCast S1x64 mm hc) hbr))
            (broadcastTo S8192x64 (rsqrt (addf (shapeCast S1x64 vv hc) (broadcast S1x64 (Scalar.ofBits (F := Ideal) .f32 0x3727C5AC#32)))) hbr))
          (broadcastTo S8192x64 (shapeCast S1x64 gg hc) hbr)) (broadcastTo S8192x64 (shapeCast S1x64 bb hc) hbr))
        (broadcast S8192x64 (Scalar.ofBits (F := Ideal) .f32 0x00000000#32)) (ix2 r j)
      = max ((h (ix2 r j) - mm (ix2 (0 : Fin 1) j)) * Ideal.rsqrt (vv (ix2 (0 : Fin 1) j) + eps) * gg (ix2 (0 : Fin 1) j)
          + bb (ix2 (0 : Fin 1) j)) 0 := by
  show max ((h (ix2 r j) - broadcastTo S8192x64 (shapeCast S1x64 mm hc) hbr (ix2 r j))
        * broadcastTo S8192x64 (rsqrt (addf (shapeCast S1x64 vv hc) (broadcast S1x64 (Scalar.ofBits (F := Ideal) .f32 0x3727C5AC#32)))) hbr (ix2 r j)
        * broadcastTo S8192x64 (shapeCast S1x64 gg hc) hbr (ix2 r j)
        + broadcastTo S8192x64 (shapeCast S1x64 bb hc) hbr (ix2 r j)) (Ideal.ofBits .f32 0x00000000#32) = _
  rw [broadcastTo_1b_ab_apply _ hbr r j, broadcastTo_1b_ab_apply _ hbr r j, broadcastTo_1b_ab_apply _ hbr r j,
    broadcastTo_1b_ab_apply _ hbr r j, shapeCast_self, shapeCast_self, shapeCast_self, shapeCast_self, Ideal.ofBits_zero_f32]
  rfl

/-- The layer that joins the two attended vectors, at row `r`: the second block gets its bias row on the way in. -/
theorem ab_layer (P : Params) (x12 : Vec Ideal S1x16 .f32) (x13 : Vec Ideal S16x32 .f32) (x14 : Vec Ideal S1x16 .f32)
    (v68 v76 : FVec Ideal S8192x16 .f32)
    (h12 : ∀ o : Fin 16, x12 (ix2 (0 : Fin 1) o) = P.attnOutB (ix1 o))
    (h13 : ∀ (o : Fin 16) (q : Fin 32), x13 (ix2 o q) = P.abW (ix2 o q))
    (h14 : ∀ o : Fin 16, x14 (ix2 (0 : Fin 1) o) = P.abB (ix1 o))
    (hlt : FTy.bits .bf16 < FTy.bits .f32) (hb : S1x16.Broadcasts S8192x16)
    (hcat : Shape.Concatenates [S8192x16, S8192x16] S8192x32 1)
    (r : Fin 8192) (A B : Fin 16 → EReal) (hA : ∀ o : Fin 16, v68 (ix2 r o) = A o)
    (hB : ∀ o : Fin 16, v76 (ix2 r o) + P.attnOutB (ix1 o) = B o) (o : Fin 16) :
    addf (matmul dot_S8192x32_S16x32_S8192x16_1_1_0_0_n_n none
          (truncf .bf16 (concatenate S8192x32 1 [⟨S8192x16, v68⟩, ⟨S8192x16, addf v76 (broadcastTo S8192x16 (k1_pay7 x12) hb)⟩] hcat) hlt)
          (truncf .bf16 x13 hlt) (constant (F := Ideal) S8192x16 .f32 0x00000000#32))
        (broadcastTo S8192x16 (k1_pay8 x14) hb) (ix2 r o)
      = lin P.abW P.abB (join A B) o := by
  refine linlayer rows_ab _ x13 (k1_pay8 x14) hlt hb r o (join A B) P.abW P.abB (fun q => ?_) h13 (fun o' => ?_)
  · refine concat_row v68 _ hcat r A B hA (fun o' => ?_) q
    refine (addf_apply _ _ _).trans ?_
    rw [broadcastTo_1b_ab_apply _ hb r o']
    unfold k1_pay7
    rw [shapeCast_self, h12 o']
    exact hB o'
  · unfold k1_pay8
    rw [shapeCast_self]
    exact h14 o'

/-- The attended value of the first branch (the row's first scalar) at row `r`. -/
theorem pay12_apply (P : Params) (x0 : Vec Ideal S8192x3 .f32) (x1 : Vec Ideal S16x1 .f32) (x2 : Vec Ideal S1x16 .f32)
    (x7 : Vec Ideal S48x16 .f32) (x8 : Vec Ideal S1x48 .f32) (x9 : Vec Ideal S48x16 .f32) (x10 : Vec Ideal S1x48 .f32)
    (x11 : Vec Ideal S16x16 .f32) (x12 : Vec Ideal S1x16 .f32)
    (h1 : ∀ o : Fin 16, x1 (ix2 o (0 : Fin 1)) = P.ehrW (ix2 o (0 : Fin 1)))
    (h2 : ∀ o : Fin 16, x2 (ix2 (0 : Fin 1) o) = P.ehrB (ix1 o))
    (h7 : ∀ (o : Fin 48) (q : Fin 16), x7 (ix2 o q) = P.ehrQkvW (ix2 o q))
    (h8 : ∀ o : Fin 48, x8 (ix2 (0 : Fin 1) o) = P.ehrQkvB (ix1 o))
    (h9 : ∀ (o : Fin 48) (q : Fin 16), x9 (ix2 o q) = P.attnInW (ix2 o q))
    (h10 : ∀ o : Fin 48, x10 (ix2 (0 : Fin 1) o) = P.attnInB (ix1 o))
    (h11 : ∀ (o q : Fin 16), x11 (ix2 o q) = P.attnOutW (ix2 o q))
    (h12 : ∀ o : Fin 16, x12 (ix2 (0 : Fin 1) o) = P.attnOutB (ix1 o))
    (r : Fin 8192) (o : Fin 16) :
    k1_pay12 x0 x1 (k1_pay2 x2) x7 (k1_pay5 x8) x9 (k1_pay6 x10) x11 (k1_pay7 x12) (ix2 r o)
      = attn P (upper (lin P.ehrQkvW P.ehrQkvB (enc P.ehrW P.ehrB (x0 (ix2 r (0 : Fin 3)))))) o := by
  unfold k1_pay12
  refine linlayer rows_sq _ x11 (k1_pay7 x12) _ _ r o _ P.attnOutW P.attnOutB (fun q => ?_) h11 (fun o' => ?_)
  · refine vproj_layer P _ x9 x10 _ _ h9 h10 r q _ (fun q' => ?_)
    refine upper_layer _ x7 (k1_pay5 x8) _ _ _ r q' _ P.ehrQkvW P.ehrQkvB (fun q'' => ?_) h7 (fun o' => ?_)
    · refine (enc_apply x0 x1 (k1_pay2 x2) 0 _ _ _ _ _ (0 : Fin 3) rfl r q'').trans ?_
      unfold enc k1_pay2
      rw [shapeCast_self, h1, h2]
    · unfold k1_pay5
      rw [shapeCast_self]
      exact h8 o'
  · unfold k1_pay7
    rw [shapeCast_self]
    exact h12 o'

/-- The attended value of the second branch (the row's third scalar) at row `r`, before its output bias. -/
theorem pay13_apply (P : Params) (x0 : Vec Ideal S8192x3 .f32) (x3 : Vec Ideal S16x1 .f32) (x4 : Vec Ideal S1x16 .f32)
    (x5 : Vec Ideal S48x16 .f32) (x6 : Vec Ideal S1x48 .f32) (x9 : Vec Ideal S48x16 .f32) (x10 : Vec Ideal S1x48 .f32)
    (x11 : Vec Ideal S16x16 .f32)
    (h3 : ∀ o : Fin 16, x3 (ix2 o (0 : Fin 1)) = P.bioW (ix2 o (0 : Fin 1)))
    (h4 : ∀ o : Fin 16, x4 (ix2 (0 : Fin 1) o) = P.bioB (ix1 o))
    (h5 : ∀ (o : Fin 48) (q : Fin 16), x5 (ix2 o q) = P.bioQkvW (ix2 o q))
    (h6 : ∀ o : Fin 48, x6 (ix2 (0 : Fin 1) o) = P.bioQkvB (ix1 o))
    (h9 : ∀ (o : Fin 48) (q : Fin 16), x9 (ix2 o q) = P.attnInW (ix2 o q))
    (h10 : ∀ o : Fin 48, x10 (ix2 (0 : Fin 1) o) = P.attnInB (ix1 o))
    (h11 : ∀ (o q : Fin 16), x11 (ix2 o q) = P.attnOutW (ix2 o q))
    (r : Fin 8192) (o : Fin 16) :
    k1_pay13 x0 x3 (k1_pay3 x4) x5 (k1_pay4 x6) x9 (k1_pay6 x10) x11 (ix2 r o)
      = ∑ q : Fin 16, vproj P (upper (lin P.bioQkvW P.bioQkvB (enc P.bioW P.bioB (x0 (ix2 r (2 : Fin 3)))))) q
          * P.attnOutW (ix2 o q) := by
  unfold k1_pay13
  refine mm_rows_of rows_sq _ x11 _ r o _ P.attnOutW (fun q => ?_) h11
  refine vproj_layer P _ x9 x10 _ _ h9 h10 r q _ (fun q' => ?_)
  refine upper_layer _ x5 (k1_pay4 x6) _ _ _ r q' _ P.bioQkvW P.bioQkvB (fun q'' => ?_) h5 (fun o' => ?_)
  · refine (enc_apply x0 x3 (k1_pay3 x4) 2 _ _ _ _ _ (2 : Fin 3) rfl r q'').trans ?_
    unfold enc k1_pay3
    rw [shapeCast_self, h3, h4]
  · unfold k1_pay4
    rw [shapeCast_self]
    exact h6 o'

/-- The normalised, rectified trunk at row `r` and feature `j`, from the two attended blocks' rows `A` and `B` (the second
    still without its output bias). -/
theorem pay14_apply (P : Params) (x9 : Vec Ideal S48x16 .f32) (x10 : Vec Ideal S1x48 .f32) (x11 : Vec Ideal S16x16 .f32)
    (x12 : Vec Ideal S1x16 .f32) (x13 : Vec Ideal S16x32 .f32) (x14 : Vec Ideal S1x16 .f32) (x15 : Vec Ideal S64x32 .f32)
    (x16 : Vec Ideal S1x64 .f32) (v68 v76 : FVec Ideal S8192x16 .f32) (x17 x18 x19 x20 : Vec Ideal S1x64 .f32)
    (h9 : ∀ (o : Fin 48) (q : Fin 16), x9 (ix2 o q) = P.attnInW (ix2 o q))
    (h10 : ∀ o : Fin 48, x10 (ix2 (0 : Fin 1) o) = P.attnInB (ix1 o))
    (h11 : ∀ (o q : Fin 16), x11 (ix2 o q) = P.attnOutW (ix2 o q))
    (h12 : ∀ o : Fin 16, x12 (ix2 (0 : Fin 1) o) = P.attnOutB (ix1 o))
    (h13 : ∀ (o : Fin 16) (q : Fin 32), x13 (ix2 o q) = P.abW (ix2 o q))
    (h14 : ∀ o : Fin 16, x14 (ix2 (0 : Fin 1) o) = P.abB (ix1 o))
    (h15 : ∀ (o : Fin 64) (q : Fin 32), x15 (ix2 o q) = P.f1W (ix2 o q))
    (h16 : ∀ o : Fin 64, x16 (ix2 (0 : Fin 1) o) = P.f1B (ix1 o))
    (r : Fin 8192) (A B : Fin 16 → EReal) (hA : ∀ o : Fin 16, v68 (ix2 r o) = A o)
    (hB : ∀ o : Fin 16, v76 (ix2 r o) + P.attnOutB (ix1 o) = B o) (j : Fin 64) :
    k1_pay14 x11 (k1_pay7 x12) x13 (k1_pay8 x14) x15 (k1_pay9 x16) (k1_pay10 x9) (k1_pay11 (k1_pay6 x10)) v68 v76
        x18 x17 x19 x20 (ix2 r j)
      = max ((lin P.f1W P.f1B (join (lin P.abW P.abB (join A B)) (attn P (lin P.abW P.abB (join A B)))) j
            - x17 (ix2 (0 : Fin 1) j)) * Ideal.rsqrt (x18 (ix2 (0 : Fin 1) j) + eps) * x19 (ix2 (0 : Fin 1) j)
          + x20 (ix2 (0 : Fin 1) j)) 0 := by
  unfold k1_pay14
  refine (norm_apply _ x18 x17 x19 x20 _ _ r j).trans ?_
  refine congrArg (fun t => max ((t - x17 (ix2 (0 : Fin 1) j)) * Ideal.rsqrt (x18 (ix2 (0 : Fin 1) j) + eps)
    * x19 (ix2 (0 : Fin 1) j) + x20 (ix2 (0 : Fin 1) j)) 0) ?_
  refine linlayer rows_f1 _ x15 (k1_pay9 x16) _ _ r j _ P.f1W P.f1B (fun q => ?_) h15 (fun o' => ?_)
  · refine concat_row _ _ _ r _ _ (fun o => ?_) (fun o => ?_) q
    · exact ab_layer P x12 x13 x14 v68 v76 h12 h13 h14 _ _ _ r A B hA hB o
    · refine linlayer rows_sq _ x11 (k1_pay7 x12) _ _ r o _ P.attnOutW P.attnOutB (fun q' => ?_) h11 (fun o' => ?_)
      · refine vproj_layer P _ x9 x10 _ _ h9 h10 r q' _ (fun q'' => ?_)
        exact ab_layer P x12 x13 x14 v68 v76 h12 h13 h14 _ _ _ r A B hA hB q''
      · unfold k1_pay7
        rw [shapeCast_self]
        exact h12 o'
  · unfold k1_pay9
    rw [shapeCast_self]
    exact h16 o'

end OutRead

open OutRead in
/-- Row `r`, output `k` of what the second body stores is the specification's output of the row under the statistics
    the body was given. -/
theorem out1_apply' (P : Params) (x0 : Vec Ideal S8192x3 .f32) (x1 : Vec Ideal S16x1 .f32) (x2 : Vec Ideal S1x16 .f32) (x3 : Vec Ideal S16x1 .f32) (x4 : Vec Ideal S1x16 .f32) (x5 : Vec Ideal S48x16 .f32) (x6 : Vec Ideal S1x48 .f32) (x7 : Vec Ideal S48x16 .f32) (x8 : Vec Ideal S1x48 .f32) (x9 : Vec Ideal S48x16 .f32) (x10 : Vec Ideal S1x48 .f32) (x11 : Vec Ideal S16x16 .f32) (x12 : Vec Ideal S1x16 .f32) (x13 : Vec Ideal S16x32 .f32) (x14 : Vec Ideal S1x16 .f32) (x15 : Vec Ideal S64x32 .f32) (x16 : Vec Ideal S1x64 .f32)
    (x17 x18 x19 x20 : Vec Ideal S1x64 .f32) (x21 : Vec Ideal S3x64 .f32) (x22 : Vec Ideal S1x3 .f32)
    (hW : Agrees P x1 x2 x3 x4 x5 x6 x7 x8 x9 x10 x11 x12 x13 x14 x15 x16) (mu var : Fin 64 → EReal)
    (hmu : ∀ j : Fin 64, x17 (ix2 (0 : Fin 1) j) = mu j) (hvar : ∀ j : Fin 64, x18 (ix2 (0 : Fin 1) j) = var j)
    (hg : ∀ j : Fin 64, x19 (ix2 (0 : Fin 1) j) = P.bnG (ix1 j)) (hb : ∀ j : Fin 64, x20 (ix2 (0 : Fin 1) j) = P.bnB (ix1 j))
    (hw : ∀ (k : Fin 3) (j : Fin 64), x21 (ix2 k j) = P.f2W (ix2 k j)) (hc : ∀ k : Fin 3, x22 (ix2 (0 : Fin 1) k) = P.f2B (ix1 k))
    (r : Fin 8192) (k : Fin 3) :
    out1 x0 x1 x2 x3 x4 x5 x6 x7 x8 x9 x10 x11 x12 x13 x14 x15 x16 x17 x18 x19 x20 x21 x22 (ix2 r k)
      = outAt P (trunk P (x0 (ix2 r (0 : Fin 3))) (x0 (ix2 r (2 : Fin 3)))) mu var k := by
  unfold out1 k1_pay1
  refine (linlayer rows_f2 _ x21 _ _ _ r k
    (fun j => max ((trunk P (x0 (ix2 r (0 : Fin 3))) (x0 (ix2 r (2 : Fin 3))) j - mu j) * Ideal.rsqrt (var j + eps) * P.bnG (ix1 j)
      + P.bnB (ix1 j)) 0) P.f2W P.f2B (fun j => ?_) hw (fun o' => ?_)).trans rfl
  · refine (pay14_apply P x9 x10 x11 x12 x13 x14 x15 x16 _ _ x17 x18 x19 x20 hW.attnInW hW.attnInB hW.attnOutW hW.attnOutB
      hW.abW hW.abB hW.f1W hW.f1B r
      (attn P (upper (lin P.ehrQkvW P.ehrQkvB (enc P.ehrW P.ehrB (x0 (ix2 r (0 : Fin 3)))))))
      (attn P (upper (lin P.bioQkvW P.bioQkvB (enc P.bioW P.bioB (x0 (ix2 r (2 : Fin 3)))))))
      (fun o => pay12_apply P x0 x1 x2 x7 x8 x9 x10 x11 x12 hW.ehrW hW.ehrB hW.ehrQkvW hW.ehrQkvB hW.attnInW hW.attnInB
        hW.attnOutW hW.attnOutB r o)
      (fun o => ?_) j).trans ?_
    · rw [pay13_apply P x0 x3 x4 x5 x6 x9 x10 x11 hW.bioW hW.bioB hW.bioQkvW hW.bioQkvB hW.attnInW hW.attnInB hW.attnOutW r o]
      rfl
    · rw [hmu j, hvar j, hg j, hb j]
      rfl
  · rw [shapeCast_self]
    exact hc o'

end Cert.KernelIdeal.Payloads

end
-- ==== Proof.Payloads.lean ====
/-
  The two kernel bodies read at an index: the statements the two regions' values rest on (their proofs: the trunk and
  the running rows in PayloadsTrunk.lean, the stored output in PayloadsOut.lean).
-/
import proofs.«121510_j66580583023034_1_alg».proof.Proof.Gen.KernelIdeal.Skeleton
import proofs.«121510_j66580583023034_1_alg».proof.Proof.Spec
import proofs.«121510_j66580583023034_1_alg».proof.Proof.PayloadDefs
import proofs.«121510_j66580583023034_1_alg».proof.Proof.PayloadsTrunk
import proofs.«121510_j66580583023034_1_alg».proof.Proof.PayloadsOut
import Idealize.ShloMosaic.Lib.ValueIdx

noncomputable section

namespace Cert.KernelIdeal.Payloads

open Idealize.ShloMosaic Idealize.ShloMosaic.ValueIdx Cert.KernelIdeal Cert.KernelIdeal.Gen Cert.Spec

/-- Row `r`, feature `j` of the first body's trunk is the specification's trunk of the row's first and third scalar. -/
theorem h0_apply (P : Params) (x0 : Vec Ideal S8192x3 .f32) (x1 : Vec Ideal S16x1 .f32) (x2 : Vec Ideal S1x16 .f32) (x3 : Vec Ideal S16x1 .f32) (x4 : Vec Ideal S1x16 .f32) (x5 : Vec Ideal S48x16 .f32) (x6 : Vec Ideal S1x48 .f32) (x7 : Vec Ideal S48x16 .f32) (x8 : Vec Ideal S1x48 .f32) (x9 : Vec Ideal S48x16 .f32) (x10 : Vec Ideal S1x48 .f32) (x11 : Vec Ideal S16x16 .f32) (x12 : Vec Ideal S1x16 .f32) (x13 : Vec Ideal S16x32 .f32) (x14 : Vec Ideal S1x16 .f32) (x15 : Vec Ideal S64x32 .f32) (x16 : Vec Ideal S1x64 .f32)
    (hW : Agrees P x1 x2 x3 x4 x5 x6 x7 x8 x9 x10 x11 x12 x13 x14 x15 x16) (r : Fin 8192) (j : Fin 64) :
    h0 x0 x1 x2 x3 x4 x5 x6 x7 x8 x9 x10 x11 x12 x13 x14 x15 x16 (ix2 r j) = trunk P (x0 (ix2 r (0 : Fin 3))) (x0 (ix2 r (2 : Fin 3))) j :=
  h0_apply' P x0 x1 x2 x3 x4 x5 x6 x7 x8 x9 x10 x11 x12 x13 x14 x15 x16 hW r j

/-- The first running row after a point: what it held (`acc`) plus the block's column sums of the trunk. -/
theorem sumUpdate_apply (x0 : Vec Ideal S8192x3 .f32) (x1 : Vec Ideal S16x1 .f32) (x2 : Vec Ideal S1x16 .f32) (x3 : Vec Ideal S16x1 .f32) (x4 : Vec Ideal S1x16 .f32) (x5 : Vec Ideal S48x16 .f32) (x6 : Vec Ideal S1x48 .f32) (x7 : Vec Ideal S48x16 .f32) (x8 : Vec Ideal S1x48 .f32) (x9 : Vec Ideal S48x16 .f32) (x10 : Vec Ideal S1x48 .f32) (x11 : Vec Ideal S16x16 .f32) (x12 : Vec Ideal S1x16 .f32) (x13 : Vec Ideal S16x32 .f32) (x14 : Vec Ideal S1x16 .f32) (x15 : Vec Ideal S64x32 .f32) (x16 : Vec Ideal S1x64 .f32) (acc : Vec Ideal S1x64 .f32) (j : Fin 64) :
    k0_pay16 x11 (k0_pay8 x12) x13 (k0_pay9 x14) x15 (k0_pay10 x16) (k0_pay11 x9) (k0_pay12 (k0_pay7 x10))
        (k0_pay13 x0 x1 (k0_pay3 x2) x7 (k0_pay6 x8) x9 (k0_pay7 x10) x11 (k0_pay8 x12))
        (k0_pay14 x0 x3 (k0_pay4 x4) x5 (k0_pay5 x6) x9) acc (ix2 (0 : Fin 1) j)
      = acc (ix2 (0 : Fin 1) j) + ∑ r : Fin 8192, h0 x0 x1 x2 x3 x4 x5 x6 x7 x8 x9 x10 x11 x12 x13 x14 x15 x16 (ix2 r j) :=
  sumUpdate_apply' x0 x1 x2 x3 x4 x5 x6 x7 x8 x9 x10 x11 x12 x13 x14 x15 x16 acc j

/-- The second running row after a point: what it held plus the block's column sums of the squared trunk. -/
theorem sqUpdate_apply (x0 : Vec Ideal S8192x3 .f32) (x1 : Vec Ideal S16x1 .f32) (x2 : Vec Ideal S1x16 .f32) (x3 : Vec Ideal S16x1 .f32) (x4 : Vec Ideal S1x16 .f32) (x5 : Vec Ideal S48x16 .f32) (x6 : Vec Ideal S1x48 .f32) (x7 : Vec Ideal S48x16 .f32) (x8 : Vec Ideal S1x48 .f32) (x9 : Vec Ideal S48x16 .f32) (x10 : Vec Ideal S1x48 .f32) (x11 : Vec Ideal S16x16 .f32) (x12 : Vec Ideal S1x16 .f32) (x13 : Vec Ideal S16x32 .f32) (x14 : Vec Ideal S1x16 .f32) (x15 : Vec Ideal S64x32 .f32) (x16 : Vec Ideal S1x64 .f32) (acc : Vec Ideal S1x64 .f32) (j : Fin 64) :
    k0_pay17 x11 (k0_pay8 x12) x13 (k0_pay9 x14) x15 (k0_pay10 x16) (k0_pay11 x9) (k0_pay12 (k0_pay7 x10))
        (k0_pay13 x0 x1 (k0_pay3 x2) x7 (k0_pay6 x8) x9 (k0_pay7 x10) x11 (k0_pay8 x12))
        (k0_pay14 x0 x3 (k0_pay4 x4) x5 (k0_pay5 x6) x9) acc (ix2 (0 : Fin 1) j)
      = acc (ix2 (0 : Fin 1) j) + ∑ r : Fin 8192, h0 x0 x1 x2 x3 x4 x5 x6 x7 x8 x9 x10 x11 x12 x13 x14 x15 x16 (ix2 r j) * h0 x0 x1 x2 x3 x4 x5 x6 x7 x8 x9 x10 x11 x12 x13 x14 x15 x16 (ix2 r j) :=
  sqUpdate_apply' x0 x1 x2 x3 x4 x5 x6 x7 x8 x9 x10 x11 x12 x13 x14 x15 x16 acc j

/-- The zero row the first point stores before it accumulates. -/
theorem zeroRow_apply (j : Fin 64) : (k0_pay1 (F := Ideal)) (ix2 (0 : Fin 1) j) = 0 ∧ (k0_pay2 (F := Ideal)) (ix2 (0 : Fin 1) j) = 0 :=
  zeroRow_apply' j

/-- Row `r`, output `k` of what the second body stores is the specification's output of the row under the statistics
    the body was given. -/
theorem out1_apply (P : Params) (x0 : Vec Ideal S8192x3 .f32) (x1 : Vec Ideal S16x1 .f32) (x2 : Vec Ideal S1x16 .f32) (x3 : Vec Ideal S16x1 .f32) (x4 : Vec Ideal S1x16 .f32) (x5 : Vec Ideal S48x16 .f32) (x6 : Vec Ideal S1x48 .f32) (x7 : Vec Ideal S48x16 .f32) (x8 : Vec Ideal S1x48 .f32) (x9 : Vec Ideal S48x16 .f32) (x10 : Vec Ideal S1x48 .f32) (x11 : Vec Ideal S16x16 .f32) (x12 : Vec Ideal S1x16 .f32) (x13 : Vec Ideal S16x32 .f32) (x14 : Vec Ideal S1x16 .f32) (x15 : Vec Ideal S64x32 .f32) (x16 : Vec Ideal S1x64 .f32)
    (x17 x18 x19 x20 : Vec Ideal S1x64 .f32) (x21 : Vec Ideal S3x64 .f32) (x22 : Vec Ideal S1x3 .f32)
    (hW : Agrees P x1 x2 x3 x4 x5 x6 x7 x8 x9 x10 x11 x12 x13 x14 x15 x16) (mu var : Fin 64 → EReal)
    (hmu : ∀ j : Fin 64, x17 (ix2 (0 : Fin 1) j) = mu j) (hvar : ∀ j : Fin 64, x18 (ix2 (0 : Fin 1) j) = var j)
    (hg : ∀ j : Fin 64, x19 (ix2 (0 : Fin 1) j) = P.bnG (ix1 j)) (hb : ∀ j : Fin 64, x20 (ix2 (0 : Fin 1) j) = P.bnB (ix1 j))
    (hw : ∀ (k : Fin 3) (j : Fin 64), x21 (ix2 k j) = P.f2W (ix2 k j)) (hc : ∀ k : Fin 3, x22 (ix2 (0 : Fin 1) k) = P.f2B (ix1 k))
    (r : Fin 8192) (k : Fin 3) :
    out1 x0 x1 x2 x3 x4 x5 x6 x7 x8 x9 x10 x11 x12 x13 x14 x15 x16 x17 x18 x19 x20 x21 x22 (ix2 r k)
      = outAt P (trunk P (x0 (ix2 r (0 : Fin 3))) (x0 (ix2 r (2 : Fin 3)))) mu var k :=
  out1_apply' P x0 x1 x2 x3 x4 x5 x6 x7 x8 x9 x10 x11 x12 x13 x14 x15 x16 x17 x18 x19 x20 x21 x22 hW mu var hmu hvar hg hb hw hc r k

end Cert.KernelIdeal.Payloads

end
-- ==== Proof.StatsRegion.lean ====
/-
  The first region: 128 points, each adding its block's column sums of the trunk and of the squared trunk into two
  rows that stay in place between points (the first point clears them first). After the last point the rows are
  written back once: they hold the sums over all 1048576 rows.
-/
import proofs.«121510_j66580583023034_1_alg».proof.Proof.Gen.KernelIdeal.Frame
import proofs.«121510_j66580583023034_1_alg».proof.Proof.Spec
import proofs.«121510_j66580583023034_1_alg».proof.Proof.Entry
import proofs.«121510_j66580583023034_1_alg».proof.Proof.Payloads
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stats

open Idealize.ShloMosaic Idealize.ShloMosaic.TcCoe Idealize.ShloMosaic.ValueIdx Idealize.SL.Sem
open Cert.KernelIdeal Cert.KernelIdeal.Gen Cert.Spec

variable (V : (c : Dev nD) → (b : Ref sig .tc) → Buf (Elt Ideal) ((c : Thread nD τ).loc b))

/-! ## What each case of the body leaves in the two rows -/

theorem hz : (![0, 0] : Fin 2 → Nat) = fun _ => 0 := funext fun a => by fin_cases a <;> rfl

section Pieces

variable (c : Dev nD) (i : grid0.Coords)
  (a1 : Memref sig .tc .vmem S8192x3 .f32) (h1 : a1.IsWhole) (a2 : Memref sig .tc .vmem S16x1 .f32) (h2 : a2.IsWhole)
  (a3 : Memref sig .tc .vmem S1x16 .f32) (h3 : a3.IsWhole) (a4 : Memref sig .tc .vmem S16x1 .f32) (h4 : a4.IsWhole)
  (a5 : Memref sig .tc .vmem S1x16 .f32) (h5 : a5.IsWhole) (a6 : Memref sig .tc .vmem S48x16 .f32) (h6 : a6.IsWhole)
  (a7 : Memref sig .tc .vmem S1x48 .f32) (h7 : a7.IsWhole) (a8 : Memref sig .tc .vmem S48x16 .f32) (h8 : a8.IsWhole)
  (a9 : Memref sig .tc .vmem S1x48 .f32) (h9 : a9.IsWhole) (a10 : Memref sig .tc .vmem S48x16 .f32) (h10 : a10.IsWhole)
  (a11 : Memref sig .tc .vmem S1x48 .f32) (h11 : a11.IsWhole) (a12 : Memref sig .tc .vmem S16x16 .f32) (h12 : a12.IsWhole)
  (a13 : Memref sig .tc .vmem S1x16 .f32) (h13 : a13.IsWhole) (a14 : Memref sig .tc .vmem S16x32 .f32) (h14 : a14.IsWhole)
  (a15 : Memref sig .tc .vmem S1x16 .f32) (h15 : a15.IsWhole) (a16 : Memref sig .tc .vmem S64x32 .f32) (h16 : a16.IsWhole)
  (a17 : Memref sig .tc .vmem S1x64 .f32) (h17 : a17.IsWhole) (a18 : Memref sig .tc .vmem S1x64 .f32) (h18 : a18.IsWhole)
  (a19 : Memref sig .tc .vmem S1x64 .f32) (h19 : a19.IsWhole)
  (x0 : Vec Ideal S8192x3 .f32) (x1 : Vec Ideal S16x1 .f32) (x2 : Vec Ideal S1x16 .f32) (x3 : Vec Ideal S16x1 .f32)
  (x4 : Vec Ideal S1x16 .f32) (x5 : Vec Ideal S48x16 .f32) (x6 : Vec Ideal S1x48 .f32) (x7 : Vec Ideal S48x16 .f32)
  (x8 : Vec Ideal S1x48 .f32) (x9 : Vec Ideal S48x16 .f32) (x10 : Vec Ideal S1x48 .f32) (x11 : Vec Ideal S16x16 .f32)
  (x12 : Vec Ideal S1x16 .f32) (x13 : Vec Ideal S16x32 .f32) (x14 : Vec Ideal S1x16 .f32) (x15 : Vec Ideal S64x32 .f32)
  (x16 : Vec Ideal S1x64 .f32)

/-- A later point's first row: the body's one store writes the sum update of the row the point found. -/
theorem pieceB17 (hc : ¬cond0_0 i) (xo17 xo18 : Vec Ideal S1x64 .f32) :
    out0_B_17 (F := Ideal) c i a1 h1 a2 h2 a3 h3 a4 h4 a5 h5 a6 h6 a7 h7 a8 h8 a9 h9 a10 h10 a11 h11 a12 h12 a13 h13
        a14 h14 a15 h15 a16 h16 a17 h17 a18 h18 a19 h19 hc x0 x1 x2 x3 x4 x5 x6 x7 x8 x9 x10 x11 x12 x13 x14 x15 x16 xo17 xo18
      = k0_pay16 x11 (k0_pay8 x12) x13 (k0_pay9 x14) x15 (k0_pay10 x16) (k0_pay11 x9) (k0_pay12 (k0_pay7 x10))
        (k0_pay13 x0 x1 (k0_pay3 x2) x7 (k0_pay6 x8) x9 (k0_pay7 x10) x11 (k0_pay8 x12))
        (k0_pay14 x0 x3 (k0_pay4 x4) x5 (k0_pay5 x6) x9) xo17 := by
  unfold out0_B_17
  rw [View.read_writes_eq_canon _ _ _ (cover0_B_17 c i a1 h1 a2 h2 a3 h3 a4 h4 a5 h5 a6 h6 a7 h7 a8 h8 a9 h9 a10 h10
    a11 h11 a12 h12 a13 h13 a14 h14 a15 h15 a16 h16 a17 h17 a18 h18 a19 h19 hc x0 x1 x2 x3 x4 x5 x6 x7 x8 x9 x10 x11 x12
    x13 x14 x15 x16 xo17 xo18)]
  unfold kernelRun0_B
  dsimp only
  sl_unfold_words
  rw [View.canon_unit_zero hz]
  simp only [View.readAt_eq_ld, Memref.IsWhole.read_unread, View.ld_unit_zero (S := S8192x3) hz,
    View.ld_unit_zero (S := S16x1) hz, View.ld_unit_zero (S := S1x16) hz, View.ld_unit_zero (S := S48x16) hz,
    View.ld_unit_zero (S := S1x48) hz, View.ld_unit_zero (S := S16x16) hz, View.ld_unit_zero (S := S16x32) hz,
    View.ld_unit_zero (S := S64x32) hz, View.ld_unit_zero (S := S1x64) hz]

/-- A later point's second row: the squares' update of the row the point found. -/
theorem pieceB18 (hc : ¬cond0_0 i) (xo17 xo18 : Vec Ideal S1x64 .f32) :
    out0_B_18 (F := Ideal) c i a1 h1 a2 h2 a3 h3 a4 h4 a5 h5 a6 h6 a7 h7 a8 h8 a9 h9 a10 h10 a11 h11 a12 h12 a13 h13
        a14 h14 a15 h15 a16 h16 a17 h17 a18 h18 a19 h19 hc x0 x1 x2 x3 x4 x5 x6 x7 x8 x9 x10 x11 x12 x13 x14 x15 x16 xo17 xo18
      = k0_pay17 x11 (k0_pay8 x12) x13 (k0_pay9 x14) x15 (k0_pay10 x16) (k0_pay11 x9) (k0_pay12 (k0_pay7 x10))
        (k0_pay13 x0 x1 (k0_pay3 x2) x7 (k0_pay6 x8) x9 (k0_pay7 x10) x11 (k0_pay8 x12))
        (k0_pay14 x0 x3 (k0_pay4 x4) x5 (k0_pay5 x6) x9) xo18 := by
  unfold out0_B_18
  rw [View.read_writes_eq_canon _ _ _ (cover0_B_18 c i a1 h1 a2 h2 a3 h3 a4 h4 a5 h5 a6 h6 a7 h7 a8 h8 a9 h9 a10 h10
    a11 h11 a12 h12 a13 h13 a14 h14 a15 h15 a16 h16 a17 h17 a18 h18 a19 h19 hc x0 x1 x2 x3 x4 x5 x6 x7 x8 x9 x10 x11 x12
    x13 x14 x15 x16 xo17 xo18)]
  unfold kernelRun0_B
  dsimp only
  sl_unfold_words
  rw [View.canon_unit_zero hz]
  simp only [View.readAt_eq_ld, Memref.IsWhole.read_unread, View.ld_unit_zero (S := S8192x3) hz,
    View.ld_unit_zero (S := S16x1) hz, View.ld_unit_zero (S := S1x16) hz, View.ld_unit_zero (S := S48x16) hz,
    View.ld_unit_zero (S := S1x48) hz, View.ld_unit_zero (S := S16x16) hz, View.ld_unit_zero (S := S16x32) hz,
    View.ld_unit_zero (S := S64x32) hz, View.ld_unit_zero (S := S1x64) hz]

/-- The first point's first row: the zero row is stored, read back, and updated. -/
theorem pieceA17 (hc : cond0_0 i) :
    out0_A_17 (F := Ideal) c i a1 h1 a2 h2 a3 h3 a4 h4 a5 h5 a6 h6 a7 h7 a8 h8 a9 h9 a10 h10 a11 h11 a12 h12 a13 h13
        a14 h14 a15 h15 a16 h16 a17 h17 a18 h18 a19 h19 hc x0 x1 x2 x3 x4 x5 x6 x7 x8 x9 x10 x11 x12 x13 x14 x15 x16
      = k0_pay16 x11 (k0_pay8 x12) x13 (k0_pay9 x14) x15 (k0_pay10 x16) (k0_pay11 x9) (k0_pay12 (k0_pay7 x10))
        (k0_pay13 x0 x1 (k0_pay3 x2) x7 (k0_pay6 x8) x9 (k0_pay7 x10) x11 (k0_pay8 x12))
        (k0_pay14 x0 x3 (k0_pay4 x4) x5 (k0_pay5 x6) x9) (k0_pay1 (F := Ideal)) := by
  unfold out0_A_17
  rw [View.read_writes_eq_canon _ _ _ (cover0_A_17 c i a1 h1 a2 h2 a3 h3 a4 h4 a5 h5 a6 h6 a7 h7 a8 h8 a9 h9 a10 h10
    a11 h11 a12 h12 a13 h13 a14 h14 a15 h15 a16 h16 a17 h17 a18 h18 a19 h19 hc x0 x1 x2 x3 x4 x5 x6 x7 x8 x9 x10 x11 x12
    x13 x14 x15 x16)]
  unfold kernelRun0_A
  dsimp only
  sl_unfold_words
  rw [View.canon_cons_unit_zero (S := S1x64) hz]
  simp only [View.readAt_eq_ld, View.readCov_unit_zero (S := S1x64) _ hz, Memref.IsWhole.read_unread,
    View.ld_unit_zero (S := S8192x3) hz, View.ld_unit_zero (S := S16x1) hz, View.ld_unit_zero (S := S1x16) hz,
    View.ld_unit_zero (S := S48x16) hz, View.ld_unit_zero (S := S1x48) hz, View.ld_unit_zero (S := S16x16) hz,
    View.ld_unit_zero (S := S16x32) hz, View.ld_unit_zero (S := S64x32) hz, View.ld_unit_zero (S := S1x64) hz]

/-- The first point's second row, likewise. -/
theorem pieceA18 (hc : cond0_0 i) :
    out0_A_18 (F := Ideal) c i a1 h1 a2 h2 a3 h3 a4 h4 a5 h5 a6 h6 a7 h7 a8 h8 a9 h9 a10 h10 a11 h11 a12 h12 a13 h13
        a14 h14 a15 h15 a16 h16 a17 h17 a18 h18 a19 h19 hc x0 x1 x2 x3 x4 x5 x6 x7 x8 x9 x10 x11 x12 x13 x14 x15 x16
      = k0_pay17 x11 (k0_pay8 x12) x13 (k0_pay9 x14) x15 (k0_pay10 x16) (k0_pay11 x9) (k0_pay12 (k0_pay7 x10))
        (k0_pay13 x0 x1 (k0_pay3 x2) x7 (k0_pay6 x8) x9 (k0_pay7 x10) x11 (k0_pay8 x12))
        (k0_pay14 x0 x3 (k0_pay4 x4) x5 (k0_pay5 x6) x9) (k0_pay2 (F := Ideal)) := by
  unfold out0_A_18
  rw [View.read_writes_eq_canon _ _ _ (cover0_A_18 c i a1 h1 a2 h2 a3 h3 a4 h4 a5 h5 a6 h6 a7 h7 a8 h8 a9 h9 a10 h10
    a11 h11 a12 h12 a13 h13 a14 h14 a15 h15 a16 h16 a17 h17 a18 h18 a19 h19 hc x0 x1 x2 x3 x4 x5 x6 x7 x8 x9 x10 x11 x12
    x13 x14 x15 x16)]
  unfold kernelRun0_A
  dsimp only
  sl_unfold_words
  rw [View.canon_cons_unit_zero (S := S1x64) hz]
  simp only [View.readAt_eq_ld, View.readCov_unit_zero (S := S1x64) _ hz, Memref.IsWhole.read_unread,
    View.ld_unit_zero (S := S8192x3) hz, View.ld_unit_zero (S := S16x1) hz, View.ld_unit_zero (S := S1x16) hz,
    View.ld_unit_zero (S := S48x16) hz, View.ld_unit_zero (S := S1x48) hz, View.ld_unit_zero (S := S16x16) hz,
    View.ld_unit_zero (S := S16x32) hz, View.ld_unit_zero (S := S64x32) hz, View.ld_unit_zero (S := S1x64) hz]

end Pieces

/-! ## The blocks a point loads -/

/-- The block of each input window at point t, at its literal type: the batch rows, then the sixteen weights. -/
abbrev blk0 (c : Dev nD) (t : Fin cfg0.N) : Vec Ideal S8192x3 .f32 := iblk0 V c 0 t
abbrev blk1 (c : Dev nD) (t : Fin cfg0.N) : Vec Ideal S16x1 .f32 := iblk0 V c 1 t
abbrev blk2 (c : Dev nD) (t : Fin cfg0.N) : Vec Ideal S1x16 .f32 := iblk0 V c 2 t
abbrev blk3 (c : Dev nD) (t : Fin cfg0.N) : Vec Ideal S16x1 .f32 := iblk0 V c 3 t
abbrev blk4 (c : Dev nD) (t : Fin cfg0.N) : Vec Ideal S1x16 .f32 := iblk0 V c 4 t
abbrev blk5 (c : Dev nD) (t : Fin cfg0.N) : Vec Ideal S48x16 .f32 := iblk0 V c 5 t
abbrev blk6 (c : Dev nD) (t : Fin cfg0.N) : Vec Ideal S1x48 .f32 := iblk0 V c 6 t
abbrev blk7 (c : Dev nD) (t : Fin cfg0.N) : Vec Ideal S48x16 .f32 := iblk0 V c 7 t
abbrev blk8 (c : Dev nD) (t : Fin cfg0.N) : Vec Ideal S1x48 .f32 := iblk0 V c 8 t
abbrev blk9 (c : Dev nD) (t : Fin cfg0.N) : Vec Ideal S48x16 .f32 := iblk0 V c 9 t
abbrev blk10 (c : Dev nD) (t : Fin cfg0.N) : Vec Ideal S1x48 .f32 := iblk0 V c 10 t
abbrev blk11 (c : Dev nD) (t : Fin cfg0.N) : Vec Ideal S16x16 .f32 := iblk0 V c 11 t
abbrev blk12 (c : Dev nD) (t : Fin cfg0.N) : Vec Ideal S1x16 .f32 := iblk0 V c 12 t
abbrev blk13 (c : Dev nD) (t : Fin cfg0.N) : Vec Ideal S16x32 .f32 := iblk0 V c 13 t
abbrev blk14 (c : Dev nD) (t : Fin cfg0.N) : Vec Ideal S1x16 .f32 := iblk0 V c 14 t
abbrev blk15 (c : Dev nD) (t : Fin cfg0.N) : Vec Ideal S64x32 .f32 := iblk0 V c 15 t
abbrev blk16 (c : Dev nD) (t : Fin cfg0.N) : Vec Ideal S1x64 .f32 := iblk0 V c 16 t

/-- Where each window's block sits: the batch window moves down one block a point, -/
theorem idx0 : ∀ t : Fin cfg0.N, win0_0.index t 0 = t.val ∧ win0_0.index t 1 = 0 :=
  (by decide +kernel : ∀ t : Fin grid0.N, win0_0.index t 0 = t.val ∧ win0_0.index t 1 = 0)
/-- and every weight window stays on its one block. -/
theorem idx1 : ∀ (t : Fin cfg0.N) (a : Fin 2), win0_1.index t a = 0 :=
  (by decide +kernel : ∀ (t : Fin grid0.N) (a : Fin 2), win0_1.index t a = 0)
theorem idx2 : ∀ (t : Fin cfg0.N) (a : Fin 2), win0_2.index t a = 0 :=
  (by decide +kernel : ∀ (t : Fin grid0.N) (a : Fin 2), win0_2.index t a = 0)
theorem idx3 : ∀ (t : Fin cfg0.N) (a : Fin 2), win0_3.index t a = 0 :=
  (by decide +kernel : ∀ (t : Fin grid0.N) (a : Fin 2), win0_3.index t a = 0)
theorem idx4 : ∀ (t : Fin cfg0.N) (a : Fin 2), win0_4.index t a = 0 :=
  (by decide +kernel : ∀ (t : Fin grid0.N) (a : Fin 2), win0_4.index t a = 0)
theorem idx5 : ∀ (t : Fin cfg0.N) (a : Fin 2), win0_5.index t a = 0 :=
  (by decide +kernel : ∀ (t : Fin grid0.N) (a : Fin 2), win0_5.index t a = 0)
theorem idx6 : ∀ (t : Fin cfg0.N) (a : Fin 2), win0_6.index t a = 0 :=
  (by decide +kernel : ∀ (t : Fin grid0.N) (a : Fin 2), win0_6.index t a = 0)
theorem idx7 : ∀ (t : Fin cfg0.N) (a : Fin 2), win0_7.index t a = 0 :=
  (by decide +kernel : ∀ (t : Fin grid0.N) (a : Fin 2), win0_7.index t a = 0)
theorem idx8 : ∀ (t : Fin cfg0.N) (a : Fin 2), win0_8.index t a = 0 :=
  (by decide +kernel : ∀ (t : Fin grid0.N) (a : Fin 2), win0_8.index t a = 0)
theorem idx9 : ∀ (t : Fin cfg0.N) (a : Fin 2), win0_9.index t a = 0 :=
  (by decide +kernel : ∀ (t : Fin grid0.N) (a : Fin 2), win0_9.index t a = 0)
theorem idx10 : ∀ (t : Fin cfg0.N) (a : Fin 2), win0_10.index t a = 0 :=
  (by decide +kernel : ∀ (t : Fin grid0.N) (a : Fin 2), win0_10.index t a = 0)
theorem idx11 : ∀ (t : Fin cfg0.N) (a : Fin 2), win0_11.index t a = 0 :=
  (by decide +kernel : ∀ (t : Fin grid0.N) (a : Fin 2), win0_11.index t a = 0)
theorem idx12 : ∀ (t : Fin cfg0.N) (a : Fin 2), win0_12.index t a = 0 :=
  (by decide +kernel : ∀ (t : Fin grid0.N) (a : Fin 2), win0_12.index t a = 0)
theorem idx13 : ∀ (t : Fin cfg0.N) (a : Fin 2), win0_13.index t a = 0 :=
  (by decide +kernel : ∀ (t : Fin grid0.N) (a : Fin 2), win0_13.index t a = 0)
theorem idx14 : ∀ (t : Fin cfg0.N) (a : Fin 2), win0_14.index t a = 0 :=
  (by decide +kernel : ∀ (t : Fin grid0.N) (a : Fin 2), win0_14.index t a = 0)
theorem idx15 : ∀ (t : Fin cfg0.N) (a : Fin 2), win0_15.index t a = 0 :=
  (by decide +kernel : ∀ (t : Fin grid0.N) (a : Fin 2), win0_15.index t a = 0)
theorem idx16 : ∀ (t : Fin cfg0.N) (a : Fin 2), win0_16.index t a = 0 :=
  (by decide +kernel : ∀ (t : Fin grid0.N) (a : Fin 2), win0_16.index t a = 0)

/-- Row r of the batch block of point t is row 8192 t + r of the batch: a block's element sits at the block's index
    times the block's size plus its own coordinate. -/
theorem blk0_apply (c : Dev nD) (t : Fin cfg0.N) (r : Fin 8192) (a : Fin 3) (h : 8192 * t.val + r.val < 1048576) :
    blk0 V c t (ix2 r a) = V c main_arg0 (ix2 (⟨8192 * t.val + r.val, h⟩ : Fin 1048576) a) := by
  unfold blk0 iblk0
  rw [View.read_apply]
  show V c main_arg0 _ = V c main_arg0 _
  refine congrArg (V c main_arg0) (funext fun d => Fin.ext ?_)
  match d with
  | ⟨0, _⟩ => show win0_0.index t 0 * 8192 + 1 * r.val = 8192 * t.val + r.val; rw [(idx0 t).1]; omega
  | ⟨1, _⟩ => show win0_0.index t 1 * 3 + 1 * a.val = a.val; rw [(idx0 t).2]; omega

/-- A block whose index is zero on both axes reads its array at the block's own coordinates. -/
local macro "whole_block " b:ident A:term:max w:ident h:ident : tactic =>
  `(tactic| (
    unfold $b iblk0
    rw [View.read_apply]
    exact congrArg $A (funext fun d => Fin.ext (Pipeline.Window.rect_emb_val_of_index_zero $w _ d ($h _ d) _))))

theorem blk1_apply (c : Dev nD) (t : Fin cfg0.N) (o : Fin 16) (q : Fin 1) :
    blk1 V c t (ix2 o q) = V c main_arg1 (ix2 o q) := by whole_block blk1 (V c main_arg1) win0_1 idx1
theorem blk2_apply (c : Dev nD) (t : Fin cfg0.N) (o : Fin 1) (q : Fin 16) :
    blk2 V c t (ix2 o q) = V c main_v0 (ix2 o q) := by whole_block blk2 (V c main_v0) win0_2 idx2
theorem blk3_apply (c : Dev nD) (t : Fin cfg0.N) (o : Fin 16) (q : Fin 1) :
    blk3 V c t (ix2 o q) = V c main_arg5 (ix2 o q) := by whole_block blk3 (V c main_arg5) win0_3 idx3
theorem blk4_apply (c : Dev nD) (t : Fin cfg0.N) (o : Fin 1) (q : Fin 16) :
    blk4 V c t (ix2 o q) = V c main_v1 (ix2 o q) := by whole_block blk4 (V c main_v1) win0_4 idx4
theorem blk5_apply (c : Dev nD) (t : Fin cfg0.N) (o : Fin 48) (q : Fin 16) :
    blk5 V c t (ix2 o q) = V c main_arg7 (ix2 o q) := by whole_block blk5 (V c main_arg7) win0_5 idx5
theorem blk6_apply (c : Dev nD) (t : Fin cfg0.N) (o : Fin 1) (q : Fin 48) :
    blk6 V c t (ix2 o q) = V c main_v2 (ix2 o q) := by whole_block blk6 (V c main_v2) win0_6 idx6
theorem blk7_apply (c : Dev nD) (t : Fin cfg0.N) (o : Fin 48) (q : Fin 16) :
    blk7 V c t (ix2 o q) = V c main_arg9 (ix2 o q) := by whole_block blk7 (V c main_arg9) win0_7 idx7
theorem blk8_apply (c : Dev nD) (t : Fin cfg0.N) (o : Fin 1) (q : Fin 48) :
    blk8 V c t (ix2 o q) = V c main_v3 (ix2 o q) := by whole_block blk8 (V c main_v3) win0_8 idx8
theorem blk9_apply (c : Dev nD) (t : Fin cfg0.N) (o : Fin 48) (q : Fin 16) :
    blk9 V c t (ix2 o q) = V c main_arg13 (ix2 o q) := by whole_block blk9 (V c main_arg13) win0_9 idx9
theorem blk10_apply (c : Dev nD) (t : Fin cfg0.N) (o : Fin 1) (q : Fin 48) :
    blk10 V c t (ix2 o q) = V c main_v4 (ix2 o q) := by whole_block blk10 (V c main_v4) win0_10 idx10
theorem blk11_apply (c : Dev nD) (t : Fin cfg0.N) (o : Fin 16) (q : Fin 16) :
    blk11 V c t (ix2 o q) = V c main_arg15 (ix2 o q) := by whole_block blk11 (V c main_arg15) win0_11 idx11
theorem blk12_apply (c : Dev nD) (t : Fin cfg0.N) (o : Fin 1) (q : Fin 16) :
    blk12 V c t (ix2 o q) = V c main_v5 (ix2 o q) := by whole_block blk12 (V c main_v5) win0_12 idx12
theorem blk13_apply (c : Dev nD) (t : Fin cfg0.N) (o : Fin 16) (q : Fin 32) :
    blk13 V c t (ix2 o q) = V c main_arg17 (ix2 o q) := by whole_block blk13 (V c main_arg17) win0_13 idx13
theorem blk14_apply (c : Dev nD) (t : Fin cfg0.N) (o : Fin 1) (q : Fin 16) :
    blk14 V c t (ix2 o q) = V c main_v6 (ix2 o q) := by whole_block blk14 (V c main_v6) win0_14 idx14
theorem blk15_apply (c : Dev nD) (t : Fin cfg0.N) (o : Fin 64) (q : Fin 32) :
    blk15 V c t (ix2 o q) = V c main_arg19 (ix2 o q) := by whole_block blk15 (V c main_arg19) win0_15 idx15
theorem blk16_apply (c : Dev nD) (t : Fin cfg0.N) (o : Fin 1) (q : Fin 64) :
    blk16 V c t (ix2 o q) = V c main_v7 (ix2 o q) := by whole_block blk16 (V c main_v7) win0_16 idx16

/-- So the sixteen weight blocks of every point hold the weights: each matrix as it is, each bias as a one-row matrix. -/
theorem agrees (c : Dev nD) (P : Params) (X : Mat 1048576 3) (hV : Entry.Trunk V c P X) (t : Fin cfg0.N) :
    Payloads.Agrees P (blk1 V c t) (blk2 V c t) (blk3 V c t) (blk4 V c t) (blk5 V c t) (blk6 V c t) (blk7 V c t)
      (blk8 V c t) (blk9 V c t) (blk10 V c t) (blk11 V c t) (blk12 V c t) (blk13 V c t) (blk14 V c t) (blk15 V c t)
      (blk16 V c t) :=
  ⟨fun o => (blk1_apply V c t o 0).trans (hV.ehrW o),
   fun o => (blk2_apply V c t 0 o).trans (hV.ehrB o),
   fun o => (blk3_apply V c t o 0).trans (hV.bioW o),
   fun o => (blk4_apply V c t 0 o).trans (hV.bioB o),
   fun o q => (blk5_apply V c t o q).trans (hV.bioQkvW o q),
   fun o => (blk6_apply V c t 0 o).trans (hV.bioQkvB o),
   fun o q => (blk7_apply V c t o q).trans (hV.ehrQkvW o q),
   fun o => (blk8_apply V c t 0 o).trans (hV.ehrQkvB o),
   fun o q => (blk9_apply V c t o q).trans (hV.attnInW o q),
   fun o => (blk10_apply V c t 0 o).trans (hV.attnInB o),
   fun o q => (blk11_apply V c t o q).trans (hV.attnOutW o q),
   fun o => (blk12_apply V c t 0 o).trans (hV.attnOutB o),
   fun o q => (blk13_apply V c t o q).trans (hV.abW o q),
   fun o => (blk14_apply V c t 0 o).trans (hV.abB o),
   fun o q => (blk15_apply V c t o q).trans (hV.f1W o q),
   fun o => (blk16_apply V c t 0 o).trans (hV.f1B o)⟩

/-! ## One point's contribution -/

/-- Feature j of row k of the batch (zero past the batch's end, which no point reads). -/
def rowAt (P : Params) (X : Mat 1048576 3) (j : Fin 64) (k : ℕ) : EReal :=
  if h : k < 1048576 then hAt P X ⟨k, h⟩ j else 0

/-- The trunk the body computes on row r of point t's block is the specification's trunk of row 8192 t + r. -/
theorem h0_block (c : Dev nD) (P : Params) (X : Mat 1048576 3) (hV : Entry.Trunk V c P X) (j : Fin 64)
    (t : Fin cfg0.N) (r : Fin 8192) :
    Payloads.h0 (blk0 V c t) (blk1 V c t) (blk2 V c t) (blk3 V c t) (blk4 V c t) (blk5 V c t) (blk6 V c t) (blk7 V c t)
        (blk8 V c t) (blk9 V c t) (blk10 V c t) (blk11 V c t) (blk12 V c t) (blk13 V c t) (blk14 V c t) (blk15 V c t)
        (blk16 V c t) (ix2 r j)
      = rowAt P X j (8192 * t.val + r.val) := by
  have hN : cfg0.N = 128 := N_0
  have ht := t.isLt
  have hr := r.isLt
  have hk : 8192 * t.val + r.val < 1048576 := by omega
  refine (Payloads.h0_apply P (blk0 V c t) (blk1 V c t) (blk2 V c t) (blk3 V c t) (blk4 V c t) (blk5 V c t) (blk6 V c t)
    (blk7 V c t) (blk8 V c t) (blk9 V c t) (blk10 V c t) (blk11 V c t) (blk12 V c t) (blk13 V c t) (blk14 V c t)
    (blk15 V c t) (blk16 V c t) (agrees V c P X hV t) r j).trans ?_
  unfold rowAt
  rw [dif_pos hk]
  show trunk P _ _ j = trunk P _ _ j
  exact congrArg₂ (fun a b => trunk P a b j)
    ((blk0_apply V c t r 0 hk).trans (hV.x ⟨8192 * t.val + r.val, hk⟩ 0))
    ((blk0_apply V c t r 2 hk).trans (hV.x ⟨8192 * t.val + r.val, hk⟩ 2))

/-- Point t adds the rows 8192 t … 8192 t + 8191 of feature j, -/
theorem blockSum1 (c : Dev nD) (P : Params) (X : Mat 1048576 3) (hV : Entry.Trunk V c P X) (j : Fin 64)
    (t : Fin cfg0.N) :
    ∑ r : Fin 8192, Payloads.h0 (blk0 V c t) (blk1 V c t) (blk2 V c t) (blk3 V c t) (blk4 V c t) (blk5 V c t)
        (blk6 V c t) (blk7 V c t) (blk8 V c t) (blk9 V c t) (blk10 V c t) (blk11 V c t) (blk12 V c t) (blk13 V c t)
        (blk14 V c t) (blk15 V c t) (blk16 V c t) (ix2 r j)
      = ∑ r ∈ Finset.range 8192, rowAt P X j (8192 * t.val + r) := by
  rw [Finset.sum_range]
  exact Finset.sum_congr rfl fun r _ => h0_block V c P X hV j t r

/-- and their squares. -/
theorem blockSum2 (c : Dev nD) (P : Params) (X : Mat 1048576 3) (hV : Entry.Trunk V c P X) (j : Fin 64)
    (t : Fin cfg0.N) :
    ∑ r : Fin 8192, Payloads.h0 (blk0 V c t) (blk1 V c t) (blk2 V c t) (blk3 V c t) (blk4 V c t) (blk5 V c t)
          (blk6 V c t) (blk7 V c t) (blk8 V c t) (blk9 V c t) (blk10 V c t) (blk11 V c t) (blk12 V c t) (blk13 V c t)
          (blk14 V c t) (blk15 V c t) (blk16 V c t) (ix2 r j)
        * Payloads.h0 (blk0 V c t) (blk1 V c t) (blk2 V c t) (blk3 V c t) (blk4 V c t) (blk5 V c t)
          (blk6 V c t) (blk7 V c t) (blk8 V c t) (blk9 V c t) (blk10 V c t) (blk11 V c t) (blk12 V c t) (blk13 V c t)
          (blk14 V c t) (blk15 V c t) (blk16 V c t) (ix2 r j)
      = ∑ r ∈ Finset.range 8192, rowAt P X j (8192 * t.val + r) * rowAt P X j (8192 * t.val + r) := by
  rw [Finset.sum_range]
  exact Finset.sum_congr rfl fun r _ => by rw [h0_block V c P X hV j t r]

/-! ## The two rows after a point -/

/-- After the first point the first row is the block's column sums (the zero row plus them). -/
theorem first17 (c : Dev nD) (t : Fin cfg0.N) (h0 : t.val % 128 = 0) (j : Fin 64) :
    (outsAt0 V c t.val t.isLt).1 (ix2 (0 : Fin 1) j)
      = ∑ r : Fin 8192, Payloads.h0 (blk0 V c t) (blk1 V c t) (blk2 V c t) (blk3 V c t) (blk4 V c t) (blk5 V c t)
        (blk6 V c t) (blk7 V c t) (blk8 V c t) (blk9 V c t) (blk10 V c t) (blk11 V c t) (blk12 V c t) (blk13 V c t)
        (blk14 V c t) (blk15 V c t) (blk16 V c t) (ix2 r j) := by
  rw [outsAt0_A V c t h0]
  dsimp only
  refine (congrFun (pieceA17 c (grid0.coords t) (ms0_0 t) (hs0_0 t) (ms0_1 t) (hs0_1 t) (ms0_2 t) (hs0_2 t) (ms0_3 t)
    (hs0_3 t) (ms0_4 t) (hs0_4 t) (ms0_5 t) (hs0_5 t) (ms0_6 t) (hs0_6 t) (ms0_7 t) (hs0_7 t) (ms0_8 t) (hs0_8 t)
    (ms0_9 t) (hs0_9 t) (ms0_10 t) (hs0_10 t) (ms0_11 t) (hs0_11 t) (ms0_12 t) (hs0_12 t) (ms0_13 t) (hs0_13 t)
    (ms0_14 t) (hs0_14 t) (ms0_15 t) (hs0_15 t) (ms0_16 t) (hs0_16 t) (ms0_17 t) (hs0_17 t) (ms0_18 t) (hs0_18 t)
    (blk0 V c t) (blk1 V c t) (blk2 V c t) (blk3 V c t) (blk4 V c t) (blk5 V c t) (blk6 V c t) (blk7 V c t)
    (blk8 V c t) (blk9 V c t) (blk10 V c t) (blk11 V c t) (blk12 V c t) (blk13 V c t) (blk14 V c t) (blk15 V c t)
    (blk16 V c t) ((hcond0_0 t).mpr h0)) (ix2 (0 : Fin 1) j)).trans ?_
  refine (Payloads.sumUpdate_apply (blk0 V c t) (blk1 V c t) (blk2 V c t) (blk3 V c t) (blk4 V c t) (blk5 V c t)
    (blk6 V c t) (blk7 V c t) (blk8 V c t) (blk9 V c t) (blk10 V c t) (blk11 V c t) (blk12 V c t) (blk13 V c t)
    (blk14 V c t) (blk15 V c t) (blk16 V c t) (k0_pay1 (F := Ideal)) j).trans ?_
  rw [(Payloads.zeroRow_apply j).1, zero_add]

/-- After a later point it is what the point before left plus the block's column sums. -/
theorem later17 (c : Dev nD) (t : Fin cfg0.N) (h0 : ¬t.val % 128 = 0) (j : Fin 64) :
    (outsAt0 V c t.val t.isLt).1 (ix2 (0 : Fin 1) j)
      = (outsAt0 V c (t.val - 1) (Nat.lt_of_le_of_lt (Nat.sub_le _ _) t.isLt)).1 (ix2 (0 : Fin 1) j)
        + ∑ r : Fin 8192, Payloads.h0 (blk0 V c t) (blk1 V c t) (blk2 V c t) (blk3 V c t) (blk4 V c t) (blk5 V c t)
          (blk6 V c t) (blk7 V c t) (blk8 V c t) (blk9 V c t) (blk10 V c t) (blk11 V c t) (blk12 V c t) (blk13 V c t)
          (blk14 V c t) (blk15 V c t) (blk16 V c t) (ix2 r j) := by
  rw [outsAt0_B V c t h0]
  dsimp only
  refine (congrFun (pieceB17 c (grid0.coords t) (ms0_0 t) (hs0_0 t) (ms0_1 t) (hs0_1 t) (ms0_2 t) (hs0_2 t) (ms0_3 t)
    (hs0_3 t) (ms0_4 t) (hs0_4 t) (ms0_5 t) (hs0_5 t) (ms0_6 t) (hs0_6 t) (ms0_7 t) (hs0_7 t) (ms0_8 t) (hs0_8 t)
    (ms0_9 t) (hs0_9 t) (ms0_10 t) (hs0_10 t) (ms0_11 t) (hs0_11 t) (ms0_12 t) (hs0_12 t) (ms0_13 t) (hs0_13 t)
    (ms0_14 t) (hs0_14 t) (ms0_15 t) (hs0_15 t) (ms0_16 t) (hs0_16 t) (ms0_17 t) (hs0_17 t) (ms0_18 t) (hs0_18 t)
    (blk0 V c t) (blk1 V c t) (blk2 V c t) (blk3 V c t) (blk4 V c t) (blk5 V c t) (blk6 V c t) (blk7 V c t)
    (blk8 V c t) (blk9 V c t) (blk10 V c t) (blk11 V c t) (blk12 V c t) (blk13 V c t) (blk14 V c t) (blk15 V c t)
    (blk16 V c t) (fun h => h0 ((hcond0_0 t).mp h))
    (outsAt0 V c (t.val - 1) (Nat.lt_of_le_of_lt (Nat.sub_le _ _) t.isLt)).1
    (outsAt0 V c (t.val - 1) (Nat.lt_of_le_of_lt (Nat.sub_le _ _) t.isLt)).2) (ix2 (0 : Fin 1) j)).trans ?_
  exact Payloads.sumUpdate_apply (blk0 V c t) (blk1 V c t) (blk2 V c t) (blk3 V c t) (blk4 V c t) (blk5 V c t)
    (blk6 V c t) (blk7 V c t) (blk8 V c t) (blk9 V c t) (blk10 V c t) (blk11 V c t) (blk12 V c t) (blk13 V c t)
    (blk14 V c t) (blk15 V c t) (blk16 V c t)
    (outsAt0 V c (t.val - 1) (Nat.lt_of_le_of_lt (Nat.sub_le _ _) t.isLt)).1 j

/-- After the first point the second row is the block's column sums of squares. -/
theorem first18 (c : Dev nD) (t : Fin cfg0.N) (h0 : t.val % 128 = 0) (j : Fin 64) :
    (outsAt0 V c t.val t.isLt).2 (ix2 (0 : Fin 1) j)
      = ∑ r : Fin 8192, Payloads.h0 (blk0 V c t) (blk1 V c t) (blk2 V c t) (blk3 V c t) (blk4 V c t) (blk5 V c t)
          (blk6 V c t) (blk7 V c t) (blk8 V c t) (blk9 V c t) (blk10 V c t) (blk11 V c t) (blk12 V c t) (blk13 V c t)
          (blk14 V c t) (blk15 V c t) (blk16 V c t) (ix2 r j)
        * Payloads.h0 (blk0 V c t) (blk1 V c t) (blk2 V c t) (blk3 V c t) (blk4 V c t) (blk5 V c t)
          (blk6 V c t) (blk7 V c t) (blk8 V c t) (blk9 V c t) (blk10 V c t) (blk11 V c t) (blk12 V c t) (blk13 V c t)
          (blk14 V c t) (blk15 V c t) (blk16 V c t) (ix2 r j) := by
  rw [outsAt0_A V c t h0]
  dsimp only
  refine (congrFun (pieceA18 c (grid0.coords t) (ms0_0 t) (hs0_0 t) (ms0_1 t) (hs0_1 t) (ms0_2 t) (hs0_2 t) (ms0_3 t)
    (hs0_3 t) (ms0_4 t) (hs0_4 t) (ms0_5 t) (hs0_5 t) (ms0_6 t) (hs0_6 t) (ms0_7 t) (hs0_7 t) (ms0_8 t) (hs0_8 t)
    (ms0_9 t) (hs0_9 t) (ms0_10 t) (hs0_10 t) (ms0_11 t) (hs0_11 t) (ms0_12 t) (hs0_12 t) (ms0_13 t) (hs0_13 t)
    (ms0_14 t) (hs0_14 t) (ms0_15 t) (hs0_15 t) (ms0_16 t) (hs0_16 t) (ms0_17 t) (hs0_17 t) (ms0_18 t) (hs0_18 t)
    (blk0 V c t) (blk1 V c t) (blk2 V c t) (blk3 V c t) (blk4 V c t) (blk5 V c t) (blk6 V c t) (blk7 V c t)
    (blk8 V c t) (blk9 V c t) (blk10 V c t) (blk11 V c t) (blk12 V c t) (blk13 V c t) (blk14 V c t) (blk15 V c t)
    (blk16 V c t) ((hcond0_0 t).mpr h0)) (ix2 (0 : Fin 1) j)).trans ?_
  refine (Payloads.sqUpdate_apply (blk0 V c t) (blk1 V c t) (blk2 V c t) (blk3 V c t) (blk4 V c t) (blk5 V c t)
    (blk6 V c t) (blk7 V c t) (blk8 V c t) (blk9 V c t) (blk10 V c t) (blk11 V c t) (blk12 V c t) (blk13 V c t)
    (blk14 V c t) (blk15 V c t) (blk16 V c t) (k0_pay2 (F := Ideal)) j).trans ?_
  rw [(Payloads.zeroRow_apply j).2, zero_add]

/-- After a later point it is what the point before left plus the block's column sums of squares. -/
theorem later18 (c : Dev nD) (t : Fin cfg0.N) (h0 : ¬t.val % 128 = 0) (j : Fin 64) :
    (outsAt0 V c t.val t.isLt).2 (ix2 (0 : Fin 1) j)
      = (outsAt0 V c (t.val - 1) (Nat.lt_of_le_of_lt (Nat.sub_le _ _) t.isLt)).2 (ix2 (0 : Fin 1) j)
        + ∑ r : Fin 8192, Payloads.h0 (blk0 V c t) (blk1 V c t) (blk2 V c t) (blk3 V c t) (blk4 V c t) (blk5 V c t)
            (blk6 V c t) (blk7 V c t) (blk8 V c t) (blk9 V c t) (blk10 V c t) (blk11 V c t) (blk12 V c t) (blk13 V c t)
            (blk14 V c t) (blk15 V c t) (blk16 V c t) (ix2 r j)
          * Payloads.h0 (blk0 V c t) (blk1 V c t) (blk2 V c t) (blk3 V c t) (blk4 V c t) (blk5 V c t)
            (blk6 V c t) (blk7 V c t) (blk8 V c t) (blk9 V c t) (blk10 V c t) (blk11 V c t) (blk12 V c t) (blk13 V c t)
            (blk14 V c t) (blk15 V c t) (blk16 V c t) (ix2 r j) := by
  rw [outsAt0_B V c t h0]
  dsimp only
  refine (congrFun (pieceB18 c (grid0.coords t) (ms0_0 t) (hs0_0 t) (ms0_1 t) (hs0_1 t) (ms0_2 t) (hs0_2 t) (ms0_3 t)
    (hs0_3 t) (ms0_4 t) (hs0_4 t) (ms0_5 t) (hs0_5 t) (ms0_6 t) (hs0_6 t) (ms0_7 t) (hs0_7 t) (ms0_8 t) (hs0_8 t)
    (ms0_9 t) (hs0_9 t) (ms0_10 t) (hs0_10 t) (ms0_11 t) (hs0_11 t) (ms0_12 t) (hs0_12 t) (ms0_13 t) (hs0_13 t)
    (ms0_14 t) (hs0_14 t) (ms0_15 t) (hs0_15 t) (ms0_16 t) (hs0_16 t) (ms0_17 t) (hs0_17 t) (ms0_18 t) (hs0_18 t)
    (blk0 V c t) (blk1 V c t) (blk2 V c t) (blk3 V c t) (blk4 V c t) (blk5 V c t) (blk6 V c t) (blk7 V c t)
    (blk8 V c t) (blk9 V c t) (blk10 V c t) (blk11 V c t) (blk12 V c t) (blk13 V c t) (blk14 V c t) (blk15 V c t)
    (blk16 V c t) (fun h => h0 ((hcond0_0 t).mp h))
    (outsAt0 V c (t.val - 1) (Nat.lt_of_le_of_lt (Nat.sub_le _ _) t.isLt)).1
    (outsAt0 V c (t.val - 1) (Nat.lt_of_le_of_lt (Nat.sub_le _ _) t.isLt)).2) (ix2 (0 : Fin 1) j)).trans ?_
  exact Payloads.sqUpdate_apply (blk0 V c t) (blk1 V c t) (blk2 V c t) (blk3 V c t) (blk4 V c t) (blk5 V c t)
    (blk6 V c t) (blk7 V c t) (blk8 V c t) (blk9 V c t) (blk10 V c t) (blk11 V c t) (blk12 V c t) (blk13 V c t)
    (blk14 V c t) (blk15 V c t) (blk16 V c t)
    (outsAt0 V c (t.val - 1) (Nat.lt_of_le_of_lt (Nat.sub_le _ _) t.isLt)).2 j

/-! ## The running rows: induction over the points -/

/-- After point n the first row holds, at feature j, the sum of the rows 0 … 8192 (n + 1) - 1: the first point starts
    from the zero row, every later point adds its block to what the point before left. Only sums are regrouped. -/
theorem inv1 (c : Dev nD) (P : Params) (X : Mat 1048576 3) (hV : Entry.Trunk V c P X) (j : Fin 64) :
    ∀ (n : ℕ) (hn : n < cfg0.N),
      (outsAt0 V c n hn).1 (ix2 (0 : Fin 1) j) = ∑ k ∈ Finset.range (8192 * (n + 1)), rowAt P X j k
  | 0, hn => by
    refine (first17 V c ⟨0, hn⟩ rfl j).trans ?_
    rw [blockSum1 V c P X hV j ⟨0, hn⟩]
    simp only [Nat.mul_zero, Nat.zero_add, Nat.mul_one]
  | n + 1, hn => by
    have hN : cfg0.N = 128 := N_0
    have hB : ¬(⟨n + 1, hn⟩ : Fin cfg0.N).val % 128 = 0 := by dsimp only; omega
    refine (later17 V c ⟨n + 1, hn⟩ hB j).trans ?_
    show (outsAt0 V c n _).1 (ix2 (0 : Fin 1) j) + _ = _
    rw [inv1 c P X hV j n (Nat.lt_of_succ_lt hn), blockSum1 V c P X hV j ⟨n + 1, hn⟩,
      show 8192 * (n + 1 + 1) = 8192 * (n + 1) + 8192 by omega]
    exact (Finset.sum_range_add (rowAt P X j) (8192 * (n + 1)) 8192).symm

/-- The second row holds the sum of their squares. -/
theorem inv2 (c : Dev nD) (P : Params) (X : Mat 1048576 3) (hV : Entry.Trunk V c P X) (j : Fin 64) :
    ∀ (n : ℕ) (hn : n < cfg0.N),
      (outsAt0 V c n hn).2 (ix2 (0 : Fin 1) j)
        = ∑ k ∈ Finset.range (8192 * (n + 1)), rowAt P X j k * rowAt P X j k
  | 0, hn => by
    refine (first18 V c ⟨0, hn⟩ rfl j).trans ?_
    rw [blockSum2 V c P X hV j ⟨0, hn⟩]
    simp only [Nat.mul_zero, Nat.zero_add, Nat.mul_one]
  | n + 1, hn => by
    have hN : cfg0.N = 128 := N_0
    have hB : ¬(⟨n + 1, hn⟩ : Fin cfg0.N).val % 128 = 0 := by dsimp only; omega
    refine (later18 V c ⟨n + 1, hn⟩ hB j).trans ?_
    show (outsAt0 V c n _).2 (ix2 (0 : Fin 1) j) + _ = _
    rw [inv2 c P X hV j n (Nat.lt_of_succ_lt hn), blockSum2 V c P X hV j ⟨n + 1, hn⟩,
      show 8192 * (n + 1 + 1) = 8192 * (n + 1) + 8192 by omega]
    exact (Finset.sum_range_add (fun k => rowAt P X j k * rowAt P X j k) (8192 * (n + 1)) 8192).symm

/-! ## The arrays after the region -/

theorem h127 : 127 < cfg0.N := by rw [show cfg0.N = 128 from N_0]; decide

/-- The output windows stay on their one block, which is the whole one-row array. -/
theorem idx17 : ∀ (t : Fin cfg0.N) (a : Fin 2), win0_17.index t a = 0 :=
  (by decide +kernel : ∀ (t : Fin grid0.N) (a : Fin 2), win0_17.index t a = 0)
theorem idx18 : ∀ (t : Fin cfg0.N) (a : Fin 2), win0_18.index t a = 0 :=
  (by decide +kernel : ∀ (t : Fin grid0.N) (a : Fin 2), win0_18.index t a = 0)
theorem xsz17 : ∀ t : Fin cfg0.N, win0_17.xsize (grid0.coords t) 0 = 1 ∧ win0_17.xsize (grid0.coords t) 1 = 64 :=
  (by decide +kernel : ∀ t : Fin grid0.N, win0_17.xsize (grid0.coords t) 0 = 1 ∧ win0_17.xsize (grid0.coords t) 1 = 64)
theorem xsz18 : ∀ t : Fin cfg0.N, win0_18.xsize (grid0.coords t) 0 = 1 ∧ win0_18.xsize (grid0.coords t) 1 = 64 :=
  (by decide +kernel : ∀ t : Fin grid0.N, win0_18.xsize (grid0.coords t) 0 = 1 ∧ win0_18.xsize (grid0.coords t) 1 = 64)

/-- A row written back through such a block is the row, whatever the row is. -/
theorem cut_read17 (c : Dev nD) (t : Fin cfg0.N) (G : Buf (Elt Ideal) ((c : Thread nD τ).loc main_v11_0)) :
    (cfg0.win 17).cut (grid0.coords t) G = ((cfg0.win 17).blk t).view.read (Elt Ideal) G := by
  have hz' : (fun a => win0_17.index t a * main_v11_0.ty.shape.size a) = fun _ => 0 :=
    funext fun a => by rw [idx17 t a]; exact Nat.zero_mul _
  exact (Memref.read_access_unit_zero (Elt Ideal) main_v11_0 hz' (fun a => by rw [congrFun hz' a]; simp) G).symm
theorem cut_read18 (c : Dev nD) (t : Fin cfg0.N) (G : Buf (Elt Ideal) ((c : Thread nD τ).loc main_v11_1)) :
    (cfg0.win 18).cut (grid0.coords t) G = ((cfg0.win 18).blk t).view.read (Elt Ideal) G := by
  have hz' : (fun a => win0_18.index t a * main_v11_1.ty.shape.size a) = fun _ => 0 :=
    funext fun a => by rw [idx18 t a]; exact Nat.zero_mul _
  exact (Memref.read_access_unit_zero (Elt Ideal) main_v11_1 hz' (fun a => by rw [congrFun hz' a]; simp) G).symm

/-- The rows after a point depend on the point's number only. -/
theorem outs_congr (c : Dev nD) (n n' : ℕ) (hn : n < cfg0.N) (hn' : n' < cfg0.N) (h : n = n') :
    outsAt0 V c n hn = outsAt0 V c n' hn' := by subst h; rfl

/-- What the two rows hold after the last point. -/
abbrev res17 (c : Dev nD) : Buf (Elt Ideal) ((c : Thread nD τ).loc main_v11_0) := (outsAt0 V c 127 h127).1
abbrev res18 (c : Dev nD) : Buf (Elt Ideal) ((c : Thread nD τ).loc main_v11_1) := (outsAt0 V c 127 h127).2

/-- Only the last point writes a row back, and it writes what the row then holds. -/
theorem flushed17 (c : Dev nD) (t : Fin cfg0.N) (hf : (cfg0.win 17).flush t = true) :
    (dat0 V c).flushed 17 t = ((cfg0.win 17).blk t).view.read (Elt Ideal) (res17 V c) := by
  have hN : cfg0.N = 128 := N_0
  have h3 : t.val = 127 := by have := (flush0_17 t).mp hf; have := t.isLt; omega
  show (cfg0.win 17).cut (grid0.coords t) ((dat0 V c).after 17 t) = _
  rw [after0_17, outs_congr V c t.val 127 t.isLt h127 h3]
  exact cut_read17 c t (res17 V c)
theorem flushed18 (c : Dev nD) (t : Fin cfg0.N) (hf : (cfg0.win 18).flush t = true) :
    (dat0 V c).flushed 18 t = ((cfg0.win 18).blk t).view.read (Elt Ideal) (res18 V c) := by
  have hN : cfg0.N = 128 := N_0
  have h3 : t.val = 127 := by have := (flush0_18 t).mp hf; have := t.isLt; omega
  show (cfg0.win 18).cut (grid0.coords t) ((dat0 V c).after 18 t) = _
  rw [after0_18, outs_congr V c t.val 127 t.isLt h127 h3]
  exact cut_read18 c t (res18 V c)

/-- The last point's block covers the one-row array, so the array ends holding the row. -/
theorem final17 (c : Dev nD) : (dat0 V c).arrAt 17 cfg0.N = res17 V c :=
  (dat0 V c).arrAt_eq_of_cover 17 (res17 V c) (flushed17 V c) fun i =>
    ⟨⟨127, h127⟩, (flush0_17 ⟨127, h127⟩).mpr rfl, by
      show i ∈ ((View.whole main_v11_0).slice (win0_17.rect ⟨127, h127⟩)).set
      rw [View.set_slice_whole, Rect.mem_set_unit]
      intro a
      have h0 : (i 0 : Nat) < 1 := (i 0).isLt
      have h1 : (i 1 : Nat) < 64 := (i 1).isLt
      match a with
      | ⟨0, _⟩ =>
        show win0_17.index ⟨127, h127⟩ 0 * win0_17.size 0 ≤ (i 0 : Nat)
          ∧ (i 0 : Nat) < win0_17.index ⟨127, h127⟩ 0 * win0_17.size 0 + win0_17.xsize (grid0.coords ⟨127, h127⟩) 0
        rw [idx17 ⟨127, h127⟩ 0, (xsz17 ⟨127, h127⟩).1]; omega
      | ⟨1, _⟩ =>
        show win0_17.index ⟨127, h127⟩ 1 * win0_17.size 1 ≤ (i 1 : Nat)
          ∧ (i 1 : Nat) < win0_17.index ⟨127, h127⟩ 1 * win0_17.size 1 + win0_17.xsize (grid0.coords ⟨127, h127⟩) 1
        rw [idx17 ⟨127, h127⟩ 1, (xsz17 ⟨127, h127⟩).2]; omega⟩
theorem final18 (c : Dev nD) : (dat0 V c).arrAt 18 cfg0.N = res18 V c :=
  (dat0 V c).arrAt_eq_of_cover 18 (res18 V c) (flushed18 V c) fun i =>
    ⟨⟨127, h127⟩, (flush0_18 ⟨127, h127⟩).mpr rfl, by
      show i ∈ ((View.whole main_v11_1).slice (win0_18.rect ⟨127, h127⟩)).set
      rw [View.set_slice_whole, Rect.mem_set_unit]
      intro a
      have h0 : (i 0 : Nat) < 1 := (i 0).isLt
      have h1 : (i 1 : Nat) < 64 := (i 1).isLt
      match a with
      | ⟨0, _⟩ =>
        show win0_18.index ⟨127, h127⟩ 0 * win0_18.size 0 ≤ (i 0 : Nat)
          ∧ (i 0 : Nat) < win0_18.index ⟨127, h127⟩ 0 * win0_18.size 0 + win0_18.xsize (grid0.coords ⟨127, h127⟩) 0
        rw [idx18 ⟨127, h127⟩ 0, (xsz18 ⟨127, h127⟩).1]; omega
      | ⟨1, _⟩ =>
        show win0_18.index ⟨127, h127⟩ 1 * win0_18.size 1 ≤ (i 1 : Nat)
          ∧ (i 1 : Nat) < win0_18.index ⟨127, h127⟩ 1 * win0_18.size 1 + win0_18.xsize (grid0.coords ⟨127, h127⟩) 1
        rw [idx18 ⟨127, h127⟩ 1, (xsz18 ⟨127, h127⟩).2]; omega⟩

/-- The rows 0 … 1048575 are the whole batch. -/
theorem sum_rows (P : Params) (X : Mat 1048576 3) (j : Fin 64) :
    ∑ k ∈ Finset.range (8192 * (127 + 1)), rowAt P X j k = sum1 P X j := by
  unfold sum1
  rw [show 8192 * (127 + 1) = 1048576 from rfl, Finset.sum_range]
  exact Finset.sum_congr rfl fun i _ => dif_pos i.isLt
theorem sum_sq_rows (P : Params) (X : Mat 1048576 3) (j : Fin 64) :
    ∑ k ∈ Finset.range (8192 * (127 + 1)), rowAt P X j k * rowAt P X j k = sum2 P X j := by
  unfold sum2
  rw [show 8192 * (127 + 1) = 1048576 from rfl, Finset.sum_range]
  exact Finset.sum_congr rfl fun i _ => by unfold rowAt; rw [dif_pos i.isLt]

/-- After the first region the first accumulator array holds, at feature `j`, the trunk's feature `j` summed over every
    row of the batch, and the second the sum of its squares. -/
theorem sums (c : Dev nD) (P : Params) (X : Mat 1048576 3) (hV : Entry.Trunk V c P X) (j : Fin 64) :
    (dat0 V c).arrAt 17 cfg0.N (ix2 (0 : Fin 1) j) = sum1 P X j
      ∧ (dat0 V c).arrAt 18 cfg0.N (ix2 (0 : Fin 1) j) = sum2 P X j :=
  ⟨(congrFun (final17 V c) (ix2 (0 : Fin 1) j)).trans ((inv1 V c P X hV j 127 h127).trans (sum_rows P X j)),
   (congrFun (final18 V c) (ix2 (0 : Fin 1) j)).trans ((inv2 V c P X hV j 127 h127).trans (sum_sq_rows P X j))⟩

end Cert.KernelIdeal.Stats

end
-- ==== Proof.FinalRegion.lean ====
/-
  The second region: 128 independent points, point `t` writing rows 8192 t … 8192 t + 8191 of the result from the
  same rows of the batch, the weights and the two statistics rows. The blocks tile the result array, so after the
  region every entry is the specification's output of its row.
-/
import proofs.«121510_j66580583023034_1_alg».proof.Proof.Gen.KernelIdeal.Frame
import proofs.«121510_j66580583023034_1_alg».proof.Proof.Spec
import proofs.«121510_j66580583023034_1_alg».proof.Proof.Entry
import proofs.«121510_j66580583023034_1_alg».proof.Proof.Payloads
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Final

open Idealize.ShloMosaic Idealize.ShloMosaic.TcCoe Idealize.ShloMosaic.ValueIdx Idealize.SL.Sem
open Cert.KernelIdeal Cert.KernelIdeal.Gen Cert.Spec

variable (V : (c : Dev nD) → (b : Ref sig .tc) → Buf (Elt Ideal) ((c : Thread nD τ).loc b))

/-- Two zero offsets, however they are spelt. -/
theorem hz : (![0, 0] : Fin 2 → Nat) = fun _ => 0 := funext fun a => by fin_cases a <;> rfl

/-- The whole result as one function of the index: entry (i, k) is the specification's output k of row i. -/
def G (P : Params) (X : Mat 1048576 3) (mu var : Fin 64 → EReal) : Mat 1048576 3 := fun idx =>
  outAt P (hAt P X ⟨(idx 0).val, idx2_lt0 idx⟩) mu var ⟨(idx 1).val, idx2_lt1 idx⟩

theorem G_ix2 (P : Params) (X : Mat 1048576 3) (mu var : Fin 64 → EReal) (i : Fin 1048576) (k : Fin 3) :
    G P X mu var (ix2 i k) = outAt P (hAt P X i) mu var k := rfl

/-- The batch's window and the result's window move with the point: block t on the rows, block 0 on the columns. -/
theorem idx_moving : ∀ t : Fin cfg1.N,
    (win1_0.index t (0 : Fin 2) = t.val ∧ win1_0.index t (1 : Fin 2) = 0)
    ∧ (win1_23.index t (0 : Fin 2) = t.val ∧ win1_23.index t (1 : Fin 2) = 0) :=
  (by decide +kernel : ∀ t : Fin grid1.N, _)

/-- The grid has 128 points. -/
theorem point_lt (t : Fin cfg1.N) : t.val < 128 := Nat.lt_of_lt_of_eq t.isLt N_1

/-- Row r of the batch's block at point t is row 8192 t + r of the batch. -/
theorem blk0 (c : Dev nD) (t : Fin cfg1.N) (r : Fin 8192) (a : Fin 3) (i : Fin 1048576) (hi : i.val = 8192 * t.val + r.val) :
    (iblk1 V c 0 t : Vec Ideal S8192x3 .f32) (ix2 r a) = V c main_arg0 (ix2 i a) := by
  obtain ⟨⟨e0, e1⟩, -⟩ := idx_moving t
  unfold iblk1
  rw [View.read_apply]
  show V c main_arg0 _ = V c main_arg0 _
  congr 1
  funext d
  apply Fin.ext
  match d with
  | ⟨0, _⟩ => show win1_0.index t (0 : Fin 2) * 8192 + 1 * r.val = i.val; rw [e0, hi]; omega
  | ⟨1, _⟩ => show win1_0.index t (1 : Fin 2) * 3 + 1 * a.val = a.val; rw [e1]; omega

/-- A window whose block index is zero on both axes at every point (decided over the grid) holds its whole array at
    every point: the element at y of the block sits at y of the array. The arguments are the entry contents, the core,
    the point, the window and its array. -/
local macro "whole_window " V:term:max c:term:max t:term:max w:term:max A:term:max : tactic =>
  `(tactic| (
    have h : ∀ (s : Fin cfg1.N) (a : Fin 2), ($w).index s a = 0 :=
      (by decide +kernel : ∀ (s : Fin grid1.N) (a : Fin 2), _)
    funext y
    unfold iblk1
    rw [View.read_apply]
    show $V $c $A _ = $V $c $A y
    exact congrArg _ (funext fun a => Fin.ext (Pipeline.Window.rect_emb_val_of_index_zero $w $t a (h $t a) y))))

/-- Windows 1 … 16, the trunk's weights (each bias a one-row matrix), are their whole arrays at every point. -/
theorem blk1 (c : Dev nD) (t : Fin cfg1.N) : (iblk1 V c 1 t : Vec Ideal S16x1 .f32) = V c main_arg1 := by
  whole_window V c t win1_1 main_arg1
theorem blk2 (c : Dev nD) (t : Fin cfg1.N) : (iblk1 V c 2 t : Vec Ideal S1x16 .f32) = V c main_v0 := by
  whole_window V c t win1_2 main_v0
theorem blk3 (c : Dev nD) (t : Fin cfg1.N) : (iblk1 V c 3 t : Vec Ideal S16x1 .f32) = V c main_arg5 := by
  whole_window V c t win1_3 main_arg5
theorem blk4 (c : Dev nD) (t : Fin cfg1.N) : (iblk1 V c 4 t : Vec Ideal S1x16 .f32) = V c main_v1 := by
  whole_window V c t win1_4 main_v1
theorem blk5 (c : Dev nD) (t : Fin cfg1.N) : (iblk1 V c 5 t : Vec Ideal S48x16 .f32) = V c main_arg7 := by
  whole_window V c t win1_5 main_arg7
theorem blk6 (c : Dev nD) (t : Fin cfg1.N) : (iblk1 V c 6 t : Vec Ideal S1x48 .f32) = V c main_v2 := by
  whole_window V c t win1_6 main_v2
theorem blk7 (c : Dev nD) (t : Fin cfg1.N) : (iblk1 V c 7 t : Vec Ideal S48x16 .f32) = V c main_arg9 := by
  whole_window V c t win1_7 main_arg9
theorem blk8 (c : Dev nD) (t : Fin cfg1.N) : (iblk1 V c 8 t : Vec Ideal S1x48 .f32) = V c main_v3 := by
  whole_window V c t win1_8 main_v3
theorem blk9 (c : Dev nD) (t : Fin cfg1.N) : (iblk1 V c 9 t : Vec Ideal S48x16 .f32) = V c main_arg13 := by
  whole_window V c t win1_9 main_arg13
theorem blk10 (c : Dev nD) (t : Fin cfg1.N) : (iblk1 V c 10 t : Vec Ideal S1x48 .f32) = V c main_v4 := by
  whole_window V c t win1_10 main_v4
theorem blk11 (c : Dev nD) (t : Fin cfg1.N) : (iblk1 V c 11 t : Vec Ideal S16x16 .f32) = V c main_arg15 := by
  whole_window V c t win1_11 main_arg15
theorem blk12 (c : Dev nD) (t : Fin cfg1.N) : (iblk1 V c 12 t : Vec Ideal S1x16 .f32) = V c main_v5 := by
  whole_window V c t win1_12 main_v5
theorem blk13 (c : Dev nD) (t : Fin cfg1.N) : (iblk1 V c 13 t : Vec Ideal S16x32 .f32) = V c main_arg17 := by
  whole_window V c t win1_13 main_arg17
theorem blk14 (c : Dev nD) (t : Fin cfg1.N) : (iblk1 V c 14 t : Vec Ideal S1x16 .f32) = V c main_v6 := by
  whole_window V c t win1_14 main_v6
theorem blk15 (c : Dev nD) (t : Fin cfg1.N) : (iblk1 V c 15 t : Vec Ideal S64x32 .f32) = V c main_arg19 := by
  whole_window V c t win1_15 main_arg19
theorem blk16 (c : Dev nD) (t : Fin cfg1.N) : (iblk1 V c 16 t : Vec Ideal S1x64 .f32) = V c main_v7 := by
  whole_window V c t win1_16 main_v7

/-- Windows 17 … 22, the mean row, the variance row, the normalisation's scale and shift rows and the last layer's
    weights and bias row, are their whole arrays at every point. -/
theorem blk17 (c : Dev nD) (t : Fin cfg1.N) : (iblk1 V c 17 t : Vec Ideal S1x64 .f32) = V c main_v13 := by
  whole_window V c t win1_17 main_v13
theorem blk18 (c : Dev nD) (t : Fin cfg1.N) : (iblk1 V c 18 t : Vec Ideal S1x64 .f32) = V c main_v17 := by
  whole_window V c t win1_18 main_v17
theorem blk19 (c : Dev nD) (t : Fin cfg1.N) : (iblk1 V c 19 t : Vec Ideal S1x64 .f32) = V c main_v8 := by
  whole_window V c t win1_19 main_v8
theorem blk20 (c : Dev nD) (t : Fin cfg1.N) : (iblk1 V c 20 t : Vec Ideal S1x64 .f32) = V c main_v9 := by
  whole_window V c t win1_20 main_v9
theorem blk21 (c : Dev nD) (t : Fin cfg1.N) : (iblk1 V c 21 t : Vec Ideal S3x64 .f32) = V c main_arg23 := by
  whole_window V c t win1_21 main_arg23
theorem blk22 (c : Dev nD) (t : Fin cfg1.N) : (iblk1 V c 22 t : Vec Ideal S1x3 .f32) = V c main_v10 := by
  whole_window V c t win1_22 main_v10

/-- The sixteen weight blocks at a point hold the weights P. -/
theorem agrees (c : Dev nD) (P : Params) (X : Mat 1048576 3) (hV : Entry.Trunk V c P X) (t : Fin cfg1.N) :
    Payloads.Agrees P (iblk1 V c 1 t) (iblk1 V c 2 t) (iblk1 V c 3 t) (iblk1 V c 4 t) (iblk1 V c 5 t) (iblk1 V c 6 t)
      (iblk1 V c 7 t) (iblk1 V c 8 t) (iblk1 V c 9 t) (iblk1 V c 10 t) (iblk1 V c 11 t) (iblk1 V c 12 t)
      (iblk1 V c 13 t) (iblk1 V c 14 t) (iblk1 V c 15 t) (iblk1 V c 16 t) where
  ehrW o := (congrFun (blk1 V c t) _).trans (hV.ehrW o)
  ehrB o := (congrFun (blk2 V c t) _).trans (hV.ehrB o)
  bioW o := (congrFun (blk3 V c t) _).trans (hV.bioW o)
  bioB o := (congrFun (blk4 V c t) _).trans (hV.bioB o)
  bioQkvW o q := (congrFun (blk5 V c t) _).trans (hV.bioQkvW o q)
  bioQkvB o := (congrFun (blk6 V c t) _).trans (hV.bioQkvB o)
  ehrQkvW o q := (congrFun (blk7 V c t) _).trans (hV.ehrQkvW o q)
  ehrQkvB o := (congrFun (blk8 V c t) _).trans (hV.ehrQkvB o)
  attnInW o q := (congrFun (blk9 V c t) _).trans (hV.attnInW o q)
  attnInB o := (congrFun (blk10 V c t) _).trans (hV.attnInB o)
  attnOutW o q := (congrFun (blk11 V c t) _).trans (hV.attnOutW o q)
  attnOutB o := (congrFun (blk12 V c t) _).trans (hV.attnOutB o)
  abW o q := (congrFun (blk13 V c t) _).trans (hV.abW o q)
  abB o := (congrFun (blk14 V c t) _).trans (hV.abB o)
  f1W o q := (congrFun (blk15 V c t) _).trans (hV.f1W o q)
  f1B o := (congrFun (blk16 V c t) _).trans (hV.f1B o)

/-- What the body stores at point t, at row r and output k of its block, is the specification's output of row
    8192 t + r of the batch. -/
theorem point_eq (c : Dev nD) (P : Params) (X : Mat 1048576 3) (mu var : Fin 64 → EReal)
    (hV : Entry.Final V c P X mu var) (t : Fin cfg1.N) (r : Fin 8192) (k : Fin 3) (i : Fin 1048576)
    (hi : i.val = 8192 * t.val + r.val) :
    Payloads.out1 (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) (iblk1 V c 10 t) (iblk1 V c 11 t)
      (iblk1 V c 12 t) (iblk1 V c 13 t) (iblk1 V c 14 t) (iblk1 V c 15 t) (iblk1 V c 16 t) (iblk1 V c 17 t)
      (iblk1 V c 18 t) (iblk1 V c 19 t) (iblk1 V c 20 t) (iblk1 V c 21 t) (iblk1 V c 22 t) (ix2 r k)
      = outAt P (hAt P X i) mu var k := by
  refine (Payloads.out1_apply P (iblk1 V c 0 t) (iblk1 V c 1 t) (iblk1 V c 2 t) (iblk1 V c 3 t) (iblk1 V c 4 t)
    (iblk1 V c 5 t) (iblk1 V c 6 t) (iblk1 V c 7 t) (iblk1 V c 8 t) (iblk1 V c 9 t) (iblk1 V c 10 t) (iblk1 V c 11 t)
    (iblk1 V c 12 t) (iblk1 V c 13 t) (iblk1 V c 14 t) (iblk1 V c 15 t) (iblk1 V c 16 t) (iblk1 V c 17 t)
    (iblk1 V c 18 t) (iblk1 V c 19 t) (iblk1 V c 20 t) (iblk1 V c 21 t) (iblk1 V c 22 t)
    (agrees V c P X hV.toTrunk t) mu var
    (fun j => (congrFun (blk17 V c t) _).trans (hV.mean j))
    (fun j => (congrFun (blk18 V c t) _).trans (hV.variance j))
    (fun j => (congrFun (blk19 V c t) _).trans (hV.bnG j))
    (fun j => (congrFun (blk20 V c t) _).trans (hV.bnB j))
    (fun k j => (congrFun (blk21 V c t) _).trans (hV.f2W k j))
    (fun k => (congrFun (blk22 V c t) _).trans (hV.f2B k)) r k).trans ?_
  rw [blk0 V c t r 0 i hi, blk0 V c t r 2 i hi, hV.x i 0, hV.x i 2]
  rfl

/-- What point t writes back is block t of G. -/
theorem flushed_eq (c : Dev nD) (P : Params) (X : Mat 1048576 3) (mu var : Fin 64 → EReal)
    (hV : Entry.Final V c P X mu var) (t : Fin cfg1.N) :
    (dat1 V c).flushed 23 t = ((cfg1.win 23).blk t).view.read (Elt Ideal) (G P X mu var) := by
  show (cfg1.win 23).cut (grid1.coords t) ((dat1 V c).after 23 t) = _
  rw [after1_23]
  unfold out1_23
  rw [View.canon_unit_zero hz]
  simp only [View.ld_unit_zero (S := S8192x3) hz, View.ld_unit_zero (S := S16x1) hz, View.ld_unit_zero (S := S1x16) hz,
    View.ld_unit_zero (S := S48x16) hz, View.ld_unit_zero (S := S1x48) hz, View.ld_unit_zero (S := S16x16) hz,
    View.ld_unit_zero (S := S16x32) hz, View.ld_unit_zero (S := S64x32) hz, View.ld_unit_zero (S := S1x64) hz,
    View.ld_unit_zero (S := S3x64) hz, View.ld_unit_zero (S := S1x3) hz]
  funext y
  obtain ⟨r, k, rfl⟩ : ∃ (r : Fin 8192) (k : Fin 3), y = ix2 r k := ⟨y 0, y 1, eq_ix2 y⟩
  have ht := point_lt t
  obtain ⟨-, e0, e1⟩ := idx_moving t
  have hemb : ((cfg1.win 23).blk t).view.emb (ix2 r k) = ix2 (⟨8192 * t.val + r.val, by omega⟩ : Fin 1048576) k := by
    funext d
    apply Fin.ext
    match d with
    | ⟨0, _⟩ => show win1_23.index t (0 : Fin 2) * 8192 + 1 * r.val = 8192 * t.val + r.val; rw [e0]; omega
    | ⟨1, _⟩ => show win1_23.index t (1 : Fin 2) * 3 + 1 * k.val = k.val; rw [e1]; omega
  show Payloads.out1 (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) (iblk1 V c 10 t) (iblk1 V c 11 t)
      (iblk1 V c 12 t) (iblk1 V c 13 t) (iblk1 V c 14 t) (iblk1 V c 15 t) (iblk1 V c 16 t) (iblk1 V c 17 t)
      (iblk1 V c 18 t) (iblk1 V c 19 t) (iblk1 V c 20 t) (iblk1 V c 21 t) (iblk1 V c 22 t) (ix2 r k)
    = G P X mu var (((cfg1.win 23).blk t).view.emb (ix2 r k))
  rw [hemb, G_ix2]
  exact point_eq V c P X mu var hV t r k _ rfl

/-- An index of the result array is in point t's block iff each coordinate is in the block's range on its axis. -/
theorem mem_blk (t : Fin cfg1.N) (i : S1048576x3.Idx) :
    i ∈ ((cfg1.win 23).blk t).view.set ↔ ∀ a : Fin 2, win1_23.index t a * S8192x3.size a ≤ (i a).val
      ∧ (i a).val < win1_23.index t a * S8192x3.size a + S8192x3.size a := by
  show i ∈ ((View.whole main_v18).slice (win1_23.rect t)).set ↔ _
  rw [View.set_slice_whole, Rect.mem_set_unit]
  exact Iff.rfl

/-- Every entry of the result array is in some point's block: row i in block i / 8192. -/
theorem cover (i : S1048576x3.Idx) :
    ∃ t : Fin cfg1.N, (cfg1.win 23).flush t = true ∧ i ∈ ((cfg1.win 23).blk t).view.set := by
  have hi0 : (i 0).val < 1048576 := idx2_lt0 i
  have hi1 : (i 1).val < 3 := idx2_lt1 i
  have hN : cfg1.N = 128 := N_1
  refine ⟨⟨(i 0).val / 8192, by rw [hN]; omega⟩, flush1_23 _, ?_⟩
  rw [mem_blk]
  obtain ⟨-, e0, e1⟩ := idx_moving ⟨(i 0).val / 8192, by rw [hN]; omega⟩
  intro a
  match a with
  | ⟨0, _⟩ =>
    show win1_23.index _ (0 : Fin 2) * 8192 ≤ (i 0).val ∧ (i 0).val < win1_23.index _ (0 : Fin 2) * 8192 + 8192
    rw [e0]
    show (i 0).val / 8192 * 8192 ≤ (i 0).val ∧ (i 0).val < (i 0).val / 8192 * 8192 + 8192
    omega
  | ⟨1, _⟩ =>
    show win1_23.index _ (1 : Fin 2) * 3 ≤ (i 1).val ∧ (i 1).val < win1_23.index _ (1 : Fin 2) * 3 + 3
    rw [e1]
    omega

/-- After the second region the result array holds, at row `i` and output `k`, the specification's output of row `i`
    under the statistics `mu`, `var` the region was entered with. -/
theorem result (c : Dev nD) (P : Params) (X : Mat 1048576 3) (mu var : Fin 64 → EReal)
    (hV : Entry.Final V c P X mu var) (i : Fin 1048576) (k : Fin 3) :
    (dat1 V c).arrAt 23 cfg1.N (ix2 i k) = outAt P (hAt P X i) mu var k := by
  have h := (dat1 V c).arrAt_eq_of_cover 23 (G P X mu var) (fun t _ => flushed_eq V c P X mu var hV t) cover
  rw [h]
  rfl

end Cert.KernelIdeal.Final

end
-- ==== Proof.HostReads.lean ====
/-
  What the kernel program's host operations put in front of its two regions.

  Before the first region eleven bias vectors are reshaped to one-row matrices and nothing else is written, so the
  region finds the batch and the weights as launched. Between the regions the two accumulated rows are divided by the
  number of rows (the mean, the mean of squares) and the variance is taken as the mean of squares minus the squared
  mean; no other buffer changes, and the first region leaves its input arrays as it found them. After the second
  region the result array holds the specification's result with the variance taken that way.
-/
import proofs.«121510_j66580583023034_1_alg».proof.Proof.Gen.KernelIdeal.Frame
import proofs.«121510_j66580583023034_1_alg».proof.Proof.Spec
import proofs.«121510_j66580583023034_1_alg».proof.Proof.Entry
import proofs.«121510_j66580583023034_1_alg».proof.Proof.StatsRegion
import proofs.«121510_j66580583023034_1_alg».proof.Proof.FinalRegion
import Idealize.ShloMosaic.PureOps.Ideal.Laws
import Idealize.ShloMosaic.Lib.ValueIdx
import Idealize.ShloMosaic.Lib.ValueLayout
import Idealize.ShloMosaic.Lib.IdealHost
import Idealize.ShloMosaic.Lib.StableHlo.Run

set_option maxRecDepth 16384

noncomputable section

namespace Cert.KernelIdeal.HostReads

open Idealize.ShloMosaic Idealize.ShloMosaic.TcCoe Idealize.ShloMosaic.ValueIdx Idealize.SL.Sem Idealize.ShloMosaic.StableHlo
open Cert.KernelIdeal Cert.KernelIdeal.Gen Cert.Spec

variable (m : (ℓ : Loc nD τ sig) → Buf (Elt Ideal) ℓ) (ρ : Dev nD → PrngReg)

/-- No operation of a host stretch writes the buffer: one inequality of references per operation. -/
local macro "no_write" : tactic => `(tactic| (
  refine List.forall_iff_forall_mem.mp ?_
  simp only [hostOps0, hostOps1, List.Forall, StableHlo.nullary_writes, StableHlo.unary_writes, StableHlo.binary_writes,
    StableHlo.reshape_writes, Finset.mem_singleton]
  repeat' apply And.intro
  all_goals exact StableHlo.devRef_ne_of_ne (by decide)))

/-- The result of one of the first stretch's reshapes, read off the stretch. -/
local macro "reshaped" c:term:max b:term:max : tactic => `(tactic| (
  show StableHlo.after hostOps0 (W0 _ _ $c) (Proc.devRef .tc $b) = _
  after_results; rfl))

/-! ## In front of the first region -/

/-- A buffer the first stretch does not write is as launched. -/
theorem V1_of (c : Dev nD) (b : Ref sig .tc)
    (h : ∀ op ∈ (hostOps0 : List (HloOp τ sig (Elt Ideal))), Proc.devRef .tc b ∉ op.writes) :
    V1 m ρ c b = m ((c : Thread nD τ).loc b) :=
  (StableHlo.after_of_forall_not_mem (b := Proc.devRef .tc b) _ _ h).trans rfl

theorem V1_main_v0 (c : Dev nD) : V1 m ρ c main_v0 = shapeCast S1x16 (m ((c : Thread nD τ).loc main_arg2)) shapeCasts_S16_S1x16 := by
  reshaped c main_v0
theorem V1_main_v1 (c : Dev nD) : V1 m ρ c main_v1 = shapeCast S1x16 (m ((c : Thread nD τ).loc main_arg6)) shapeCasts_S16_S1x16 := by
  reshaped c main_v1
theorem V1_main_v2 (c : Dev nD) : V1 m ρ c main_v2 = shapeCast S1x48 (m ((c : Thread nD τ).loc main_arg8)) shapeCasts_S48_S1x48 := by
  reshaped c main_v2
theorem V1_main_v3 (c : Dev nD) : V1 m ρ c main_v3 = shapeCast S1x48 (m ((c : Thread nD τ).loc main_arg10)) shapeCasts_S48_S1x48 := by
  reshaped c main_v3
theorem V1_main_v4 (c : Dev nD) : V1 m ρ c main_v4 = shapeCast S1x48 (m ((c : Thread nD τ).loc main_arg14)) shapeCasts_S48_S1x48 := by
  reshaped c main_v4
theorem V1_main_v5 (c : Dev nD) : V1 m ρ c main_v5 = shapeCast S1x16 (m ((c : Thread nD τ).loc main_arg16)) shapeCasts_S16_S1x16 := by
  reshaped c main_v5
theorem V1_main_v6 (c : Dev nD) : V1 m ρ c main_v6 = shapeCast S1x16 (m ((c : Thread nD τ).loc main_arg18)) shapeCasts_S16_S1x16 := by
  reshaped c main_v6
theorem V1_main_v7 (c : Dev nD) : V1 m ρ c main_v7 = shapeCast S1x64 (m ((c : Thread nD τ).loc main_arg20)) shapeCasts_S64_S1x64 := by
  reshaped c main_v7
theorem V1_main_v8 (c : Dev nD) : V1 m ρ c main_v8 = shapeCast S1x64 (m ((c : Thread nD τ).loc main_arg21)) shapeCasts_S64_S1x64 := by
  reshaped c main_v8
theorem V1_main_v9 (c : Dev nD) : V1 m ρ c main_v9 = shapeCast S1x64 (m ((c : Thread nD τ).loc main_arg22)) shapeCasts_S64_S1x64 := by
  reshaped c main_v9
theorem V1_main_v10 (c : Dev nD) : V1 m ρ c main_v10 = shapeCast S1x3 (m ((c : Thread nD τ).loc main_arg24)) shapeCasts_S3_S1x3 := by
  reshaped c main_v10

/-- A vector reshaped to one row, read at its column. -/
theorem row_apply {n : ℕ} (v : FVec Ideal ⟨1, ![n]⟩ .f32) (h : (⟨1, ![n]⟩ : Shape).ShapeCasts ⟨2, ![1, n]⟩) (o : Fin n) :
    shapeCast ⟨2, ![1, n]⟩ v h (ix2 (0 : Fin 1) o) = v (ix1 o) :=
  shapeCast_a_1a_apply v h (0 : Fin 1) o

/-- The first region finds the batch and the trunk's weights as launched. -/
theorem entry0 (c : Dev nD) : Entry.Trunk (V1 m ρ) c (Entry.paramsOf m c) (Entry.batchOf m c) where
  x i a := congrFun (V1_of m ρ c main_arg0 (by no_write)) _
  ehrW o := congrFun (V1_of m ρ c main_arg1 (by no_write)) _
  ehrB o := (congrFun (V1_main_v0 m ρ c) _).trans (row_apply _ _ o)
  bioW o := congrFun (V1_of m ρ c main_arg5 (by no_write)) _
  bioB o := (congrFun (V1_main_v1 m ρ c) _).trans (row_apply _ _ o)
  bioQkvW o q := congrFun (V1_of m ρ c main_arg7 (by no_write)) _
  bioQkvB o := (congrFun (V1_main_v2 m ρ c) _).trans (row_apply _ _ o)
  ehrQkvW o q := congrFun (V1_of m ρ c main_arg9 (by no_write)) _
  ehrQkvB o := (congrFun (V1_main_v3 m ρ c) _).trans (row_apply _ _ o)
  attnInW o q := congrFun (V1_of m ρ c main_arg13 (by no_write)) _
  attnInB o := (congrFun (V1_main_v4 m ρ c) _).trans (row_apply _ _ o)
  attnOutW o q := congrFun (V1_of m ρ c main_arg15 (by no_write)) _
  attnOutB o := (congrFun (V1_main_v5 m ρ c) _).trans (row_apply _ _ o)
  abW o q := congrFun (V1_of m ρ c main_arg17 (by no_write)) _
  abB o := (congrFun (V1_main_v6 m ρ c) _).trans (row_apply _ _ o)
  f1W o q := congrFun (V1_of m ρ c main_arg19 (by no_write)) _
  f1B o := (congrFun (V1_main_v7 m ρ c) _).trans (row_apply _ _ o)

/-! ## Between the regions -/

/-- An array the first region only reads, and the second stretch does not write, is in front of the second region
    what it was in front of the first. -/
theorem V3_of_input (c : Dev nD) (w : Fin cfg0.W) (hin : (cfg0.win w).isOut = false)
    (h : ∀ op ∈ (hostOps1 : List (HloOp τ sig (Elt Ideal))), Proc.devRef .tc (Pipeline.arrRef spec0 w) ∉ op.writes) :
    V3 m ρ c (Pipeline.arrRef spec0 w) = V1 m ρ c (Pipeline.arrRef spec0 w) :=
  (StableHlo.after_of_forall_not_mem (b := Proc.devRef .tc (Pipeline.arrRef spec0 w)) _ _ h).trans
    ((W2_arr m ρ c w).trans (((dat0 (V1 m ρ) c).arrAt_in w hin _).trans (A_eq0 (V1 m ρ) c w)))

/-- A buffer that is no array of the first region, and that the second stretch does not write, likewise. -/
theorem V3_of_other (c : Dev nD) (b : Ref sig .tc) (hb : ∀ w, Pipeline.arrRef spec0 w ≠ b)
    (h : ∀ op ∈ (hostOps1 : List (HloOp τ sig (Elt Ideal))), Proc.devRef .tc b ∉ op.writes) :
    V3 m ρ c b = V1 m ρ c b :=
  (StableHlo.after_of_forall_not_mem (b := Proc.devRef .tc b) _ _ h).trans (W2_of_ne m ρ c b hb)

/-- The mean row: the first accumulated row divided by the number of rows. -/
theorem V3_main_v13 (c : Dev nD) : V3 m ρ c main_v13
    = Host.divf (W2 m ρ c (Proc.devRef .tc main_v11_0)) (broadcastInDim S1x64 ![] bcast_S_S1x64 (constant (F := Ideal) S_ .f32 0x49800000#32)) := by
  show StableHlo.after hostOps1 (W2 m ρ c) (Proc.devRef .tc main_v13) = _
  after_results

/-- The variance row: the second accumulated row divided by the number of rows, minus the squared mean row. -/
theorem V3_main_v17 (c : Dev nD) : V3 m ρ c main_v17
    = subf (Host.divf (W2 m ρ c (Proc.devRef .tc main_v11_1)) (broadcastInDim S1x64 ![] bcast_S_S1x64 (constant (F := Ideal) S_ .f32 0x49800000#32)))
        (mulf (Host.divf (W2 m ρ c (Proc.devRef .tc main_v11_0)) (broadcastInDim S1x64 ![] bcast_S_S1x64 (constant (F := Ideal) S_ .f32 0x49800000#32)))
          (Host.divf (W2 m ρ c (Proc.devRef .tc main_v11_0)) (broadcastInDim S1x64 ![] bcast_S_S1x64 (constant (F := Ideal) S_ .f32 0x49800000#32)))) := by
  show StableHlo.after hostOps1 (W2 m ρ c) (Proc.devRef .tc main_v17) = _
  after_results

/-- The broadcast row count, read at an entry, is the specification's divisor. -/
theorem nB_apply (j : S1x64.Idx) :
    broadcastInDim S1x64 ![] bcast_S_S1x64 (constant (F := Ideal) S_ .f32 0x49800000#32) j = nB := by
  rw [broadcastInDim_scalar_apply]; rfl

/-- The two accumulated rows after the first region are the trunk's sums over the whole batch. -/
theorem acc1 (c : Dev nD) (j : Fin 64) :
    W2 m ρ c (Proc.devRef .tc main_v11_0) (ix2 (0 : Fin 1) j) = sum1 (Entry.paramsOf m c) (Entry.batchOf m c) j :=
  (congrFun (W2_arr m ρ c 17) _).trans (Stats.sums (V1 m ρ) c _ _ (entry0 m ρ c) j).1
theorem acc2 (c : Dev nD) (j : Fin 64) :
    W2 m ρ c (Proc.devRef .tc main_v11_1) (ix2 (0 : Fin 1) j) = sum2 (Entry.paramsOf m c) (Entry.batchOf m c) j :=
  (congrFun (W2_arr m ρ c 18) _).trans (Stats.sums (V1 m ρ) c _ _ (entry0 m ρ c) j).2

theorem mean_apply (c : Dev nD) (j : Fin 64) :
    V3 m ρ c main_v13 (ix2 (0 : Fin 1) j) = mean (Entry.paramsOf m c) (Entry.batchOf m c) j := by
  rw [V3_main_v13]
  show Ideal.div (W2 m ρ c (Proc.devRef .tc main_v11_0) (ix2 (0 : Fin 1) j)) (broadcastInDim S1x64 ![] bcast_S_S1x64 (constant (F := Ideal) S_ .f32 0x49800000#32) (ix2 (0 : Fin 1) j)) = _
  rw [nB_apply, acc1]; rfl

theorem var_apply (c : Dev nD) (j : Fin 64) :
    V3 m ρ c main_v17 (ix2 (0 : Fin 1) j) = varK (Entry.paramsOf m c) (Entry.batchOf m c) j := by
  rw [V3_main_v17]
  show Ideal.div (W2 m ρ c (Proc.devRef .tc main_v11_1) (ix2 (0 : Fin 1) j)) (broadcastInDim S1x64 ![] bcast_S_S1x64 (constant (F := Ideal) S_ .f32 0x49800000#32) (ix2 (0 : Fin 1) j))
      - Ideal.div (W2 m ρ c (Proc.devRef .tc main_v11_0) (ix2 (0 : Fin 1) j)) (broadcastInDim S1x64 ![] bcast_S_S1x64 (constant (F := Ideal) S_ .f32 0x49800000#32) (ix2 (0 : Fin 1) j))
        * Ideal.div (W2 m ρ c (Proc.devRef .tc main_v11_0) (ix2 (0 : Fin 1) j)) (broadcastInDim S1x64 ![] bcast_S_S1x64 (constant (F := Ideal) S_ .f32 0x49800000#32) (ix2 (0 : Fin 1) j)) = _
  rw [nB_apply, acc1, acc2]; rfl

/-- The second region finds the batch, the weights, and the statistics of the whole batch. -/
theorem entry1 (c : Dev nD) :
    Entry.Final (V3 m ρ) c (Entry.paramsOf m c) (Entry.batchOf m c)
      (mean (Entry.paramsOf m c) (Entry.batchOf m c)) (varK (Entry.paramsOf m c) (Entry.batchOf m c)) where
  x i a := (congrFun (V3_of_input m ρ c 0 rfl (by no_write)) _).trans ((entry0 m ρ c).x i a)
  ehrW o := (congrFun (V3_of_input m ρ c 1 rfl (by no_write)) _).trans ((entry0 m ρ c).ehrW o)
  ehrB o := (congrFun (V3_of_input m ρ c 2 rfl (by no_write)) _).trans ((entry0 m ρ c).ehrB o)
  bioW o := (congrFun (V3_of_input m ρ c 3 rfl (by no_write)) _).trans ((entry0 m ρ c).bioW o)
  bioB o := (congrFun (V3_of_input m ρ c 4 rfl (by no_write)) _).trans ((entry0 m ρ c).bioB o)
  bioQkvW o q := (congrFun (V3_of_input m ρ c 5 rfl (by no_write)) _).trans ((entry0 m ρ c).bioQkvW o q)
  bioQkvB o := (congrFun (V3_of_input m ρ c 6 rfl (by no_write)) _).trans ((entry0 m ρ c).bioQkvB o)
  ehrQkvW o q := (congrFun (V3_of_input m ρ c 7 rfl (by no_write)) _).trans ((entry0 m ρ c).ehrQkvW o q)
  ehrQkvB o := (congrFun (V3_of_input m ρ c 8 rfl (by no_write)) _).trans ((entry0 m ρ c).ehrQkvB o)
  attnInW o q := (congrFun (V3_of_input m ρ c 9 rfl (by no_write)) _).trans ((entry0 m ρ c).attnInW o q)
  attnInB o := (congrFun (V3_of_input m ρ c 10 rfl (by no_write)) _).trans ((entry0 m ρ c).attnInB o)
  attnOutW o q := (congrFun (V3_of_input m ρ c 11 rfl (by no_write)) _).trans ((entry0 m ρ c).attnOutW o q)
  attnOutB o := (congrFun (V3_of_input m ρ c 12 rfl (by no_write)) _).trans ((entry0 m ρ c).attnOutB o)
  abW o q := (congrFun (V3_of_input m ρ c 13 rfl (by no_write)) _).trans ((entry0 m ρ c).abW o q)
  abB o := (congrFun (V3_of_input m ρ c 14 rfl (by no_write)) _).trans ((entry0 m ρ c).abB o)
  f1W o q := (congrFun (V3_of_input m ρ c 15 rfl (by no_write)) _).trans ((entry0 m ρ c).f1W o q)
  f1B o := (congrFun (V3_of_input m ρ c 16 rfl (by no_write)) _).trans ((entry0 m ρ c).f1B o)
  mean j := mean_apply m ρ c j
  variance j := var_apply m ρ c j
  bnG j := (congrFun ((V3_of_other m ρ c main_v8 (by decide) (by no_write)).trans (V1_main_v8 m ρ c)) _).trans (row_apply _ _ j)
  bnB j := (congrFun ((V3_of_other m ρ c main_v9 (by decide) (by no_write)).trans (V1_main_v9 m ρ c)) _).trans (row_apply _ _ j)
  f2W k j := congrFun ((V3_of_other m ρ c main_arg23 (by decide) (by no_write)).trans (V1_of m ρ c main_arg23 (by no_write))) _
  f2B k := (congrFun ((V3_of_other m ρ c main_v10 (by decide) (by no_write)).trans (V1_main_v10 m ρ c)) _).trans (row_apply _ _ k)

/-! ## After the second region -/

/-- The kernel program's result array at the last segment boundary is the specification's result. -/
theorem kernel_value (c : Dev nD) :
    W4 m ρ c (Proc.devRef .tc main_v18) = outK (Entry.paramsOf m c) (Entry.batchOf m c) := by
  refine (W4_arr m ρ c 23).trans (funext fun idx => ?_)
  obtain ⟨i, k, rfl⟩ : ∃ (i : Fin 1048576) (k : Fin 3), idx = ix2 i k := ⟨idx 0, idx 1, eq_ix2 idx⟩
  exact Final.result (V3 m ρ) c _ _ _ _ (entry1 m ρ c) i k

end Cert.KernelIdeal.HostReads

end
-- ==== Proof.RefValue.lean ====
/-
  The reference program's result, stage by stage, is the specification's result with the variance taken as the mean
  of the squared deviations.
-/
import proofs.«121510_j66580583023034_1_alg».proof.Proof.Gen.ReferenceIdeal.Run
import proofs.«121510_j66580583023034_1_alg».proof.Proof.Gen.ReferenceIdeal.Read
import proofs.«121510_j66580583023034_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Idealize.ShloMosaic Idealize.ShloMosaic.ValueIdx Cert.ReferenceIdeal Cert.ReferenceIdeal.Read Cert.Spec

/-- A rank-2 index with the given coordinates is `ix2` of them. -/
theorem ix2_of {n0 n1 : ℕ} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- A rank-1 index with the given coordinate is `ix1` of it. -/
theorem ix1_of {n : ℕ} (j : (⟨1, ![n]⟩ : Shape).Idx) (a : Fin n) (h0 : (j 0).val = a.val) : j = ix1 a :=
  funext fun d => Fin.ext (by match d with | ⟨0, _⟩ => exact h0)

/-- The maximum with the zero word is the maximum with zero. -/
theorem relu_zero (a : EReal) :
    FloatOps.maximumf (F := Ideal) (φ := .f32) a (FloatOps.ofBits .f32 0x00000000#32) = max a 0 := by
  show max a (Ideal.ofBits .f32 0x00000000#32) = _
  rw [Ideal.ofBits_zero_f32]

/-- A sum of products plus a bias, read as one affine layer. -/
theorem lin_of {k n : ℕ} (W : Mat n k) (b : Vc n) (v : Fin k → EReal) (o : Fin n) (L R : Fin k → EReal) (c : EReal)
    (hL : ∀ q, L q = v q) (hR : ∀ q, R q = W (ix2 o q)) (hc : c = b (ix1 o)) :
    FloatOps.addf (F := Ideal) (φ := .f32) (∑ q : Fin k, L q * R q) c = lin W b v o := by
  show (∑ q : Fin k, L q * R q) + c = (∑ q : Fin k, v q * W (ix2 o q)) + b (ix1 o)
  rw [hc]
  exact congrArg (· + b (ix1 o)) (Finset.sum_congr rfl fun q _ => by rw [hL, hR])

/-- The first encoder (first scalar of the row). -/
theorem enc_v6 (X : Mat 1048576 3) (W : Mat 16 1) (b : Vc 16) (i : Fin 1048576) (o : Fin 16) :
    val_main_v6 (F := Ideal) X W b (ix2 i o) = enc W b (X (ix2 i (0 : Fin 3))) o := by
  rw [val_main_v6_apply, val_main_v5_apply, val_main_v2_apply, val_main_v4_apply, val_main_v3_apply,
    val_main_call0_v0_apply, val_main_call0_cst_apply, Fin.sum_univ_one, val_main_v0_apply, val_main_v1_apply]
  have e0 : idx_main_v0 (lidx_main_v2 (ix2 i o) 0) = ix2 i (0 : Fin 3) := ix2_of _ _ _ rfl rfl
  have e1 : idx_main_v1 (ridx_main_v2 (ix2 i o) 0) = ix2 o (0 : Fin 1) := ix2_of _ _ _ rfl rfl
  have e2 : idx_main_v3 (idx_main_v4 (ix2 i o)) = ix1 o := ix1_of _ _ rfl
  rw [e0, e1, e2, relu_zero]
  rfl

/-- The third encoder (third scalar of the row). -/
theorem enc_v20 (X : Mat 1048576 3) (W : Mat 16 1) (b : Vc 16) (i : Fin 1048576) (o : Fin 16) :
    val_main_v20 (F := Ideal) X W b (ix2 i o) = enc W b (X (ix2 i (2 : Fin 3))) o := by
  rw [val_main_v20_apply, val_main_v19_apply, val_main_v16_apply, val_main_v18_apply, val_main_v17_apply,
    val_main_call2_v0_apply, val_main_call2_cst_apply, Fin.sum_univ_one, val_main_v14_apply, val_main_v15_apply]
  have e0 : idx_main_v14 (lidx_main_v16 (ix2 i o) 0) = ix2 i (2 : Fin 3) := ix2_of _ _ _ rfl rfl
  have e1 : idx_main_v15 (ridx_main_v16 (ix2 i o) 0) = ix2 o (0 : Fin 1) := ix2_of _ _ _ rfl rfl
  have e2 : idx_main_v17 (idx_main_v18 (ix2 i o)) = ix1 o := ix1_of _ _ rfl
  rw [e0, e1, e2, relu_zero]
  rfl

/-- The stacked layer on the third encoder. -/
theorem lin_v25 (X : Mat 1048576 3) (W : Mat 16 1) (b : Vc 16) (W' : Mat 48 16) (b' : Vc 48) (i : Fin 1048576) (o : Fin 48) :
    val_main_v25 (F := Ideal) X W b W' b' (ix2 i o) = lin W' b' (enc W b (X (ix2 i (2 : Fin 3)))) o := by
  rw [val_main_v25_apply, val_main_v22_apply, val_main_v24_apply, val_main_v23_apply]
  exact lin_of _ _ _ _ _ _ _
    (fun q => (congrArg _ (ix2_of _ i q rfl rfl)).trans (enc_v20 X W b i q))
    (fun q => (val_main_v21_apply (F := Ideal) W' _).trans (congrArg _ (ix2_of _ o q rfl rfl)))
    (congrArg _ (ix1_of _ o rfl))

/-- The stacked layer on the first encoder. -/
theorem lin_v30 (X : Mat 1048576 3) (W : Mat 16 1) (b : Vc 16) (W' : Mat 48 16) (b' : Vc 48) (i : Fin 1048576) (o : Fin 48) :
    val_main_v30 (F := Ideal) X W b W' b' (ix2 i o) = lin W' b' (enc W b (X (ix2 i (0 : Fin 3)))) o := by
  rw [val_main_v30_apply, val_main_v27_apply, val_main_v29_apply, val_main_v28_apply]
  exact lin_of _ _ _ _ _ _ _
    (fun q => (congrArg _ (ix2_of _ i q rfl rfl)).trans (enc_v6 X W b i q))
    (fun q => (val_main_v26_apply (F := Ideal) W' _).trans (congrArg _ (ix2_of _ o q rfl rfl)))
    (congrArg _ (ix1_of _ o rfl))

/-- The value slice of the stacked layer on the third encoder. -/
theorem upper_v36 (X : Mat 1048576 3) (W : Mat 16 1) (b : Vc 16) (W' : Mat 48 16) (b' : Vc 48) (i : Fin 1048576) (o : Fin 16) :
    val_main_v36 (F := Ideal) X W b W' b' (ix2 i o) = upper (lin W' b' (enc W b (X (ix2 i (2 : Fin 3))))) o := by
  rw [val_main_v36_apply]
  exact (congrArg _ (ix2_of _ i (⟨32 + o.val, by omega⟩ : Fin 48) rfl rfl)).trans (lin_v25 X W b W' b' i _)

/-- The value slice of the stacked layer on the first encoder. -/
theorem upper_v37 (X : Mat 1048576 3) (W : Mat 16 1) (b : Vc 16) (W' : Mat 48 16) (b' : Vc 48) (i : Fin 1048576) (o : Fin 16) :
    val_main_v37 (F := Ideal) X W b W' b' (ix2 i o) = upper (lin W' b' (enc W b (X (ix2 i (0 : Fin 3))))) o := by
  rw [val_main_v37_apply]
  exact (congrArg _ (ix2_of _ i (⟨32 + o.val, by omega⟩ : Fin 48) rfl rfl)).trans (lin_v30 X W b W' b' i _)

/-- The value projection of the attention on the first branch's value slice. -/
theorem vproj_v44 (P : Params) (X : Mat 1048576 3) (i : Fin 1048576) (o : Fin 16) :
    val_main_v44 (F := Ideal) X P.ehrW P.ehrB P.ehrQkvW P.ehrQkvB P.attnInW P.attnInB (ix2 i o)
      = vproj P (upper (lin P.ehrQkvW P.ehrQkvB (enc P.ehrW P.ehrB (X (ix2 i (0 : Fin 3)))))) o := by
  rw [val_main_v44_apply, val_main_v41_apply, val_main_v43_apply, val_main_v42_apply, val_main_v39_apply]
  exact lin_of P.attnInW P.attnInB _ (⟨32 + o.val, by omega⟩ : Fin 48) _ _ _
    (fun q => (congrArg _ (ix2_of _ i q rfl rfl)).trans (upper_v37 X _ _ _ _ i q))
    (fun q => (val_main_v40_apply (F := Ideal) P.attnInW _).trans ((val_main_v38_apply (F := Ideal) P.attnInW _).trans
      (congrArg _ (ix2_of _ (⟨32 + o.val, by omega⟩ : Fin 48) q rfl rfl))))
    (congrArg _ (ix1_of _ (⟨32 + o.val, by omega⟩ : Fin 48) rfl))

/-- The attention on the first branch's value slice. -/
theorem attn_v49 (P : Params) (X : Mat 1048576 3) (i : Fin 1048576) (o : Fin 16) :
    val_main_v49 (F := Ideal) X P.ehrW P.ehrB P.ehrQkvW P.ehrQkvB P.attnInW P.attnInB P.attnOutW P.attnOutB (ix2 i o)
      = attn P (upper (lin P.ehrQkvW P.ehrQkvB (enc P.ehrW P.ehrB (X (ix2 i (0 : Fin 3)))))) o := by
  rw [val_main_v49_apply, val_main_v46_apply, val_main_v48_apply, val_main_v47_apply]
  exact lin_of P.attnOutW P.attnOutB _ o _ _ _
    (fun q => (congrArg _ (ix2_of _ i q rfl rfl)).trans (vproj_v44 P X i q))
    (fun q => (val_main_v45_apply (F := Ideal) P.attnOutW _).trans (congrArg _ (ix2_of _ o q rfl rfl)))
    (congrArg _ (ix1_of _ o rfl))

/-- The value projection of the attention on the second branch's value slice. -/
theorem vproj_v56 (P : Params) (X : Mat 1048576 3) (i : Fin 1048576) (o : Fin 16) :
    val_main_v56 (F := Ideal) X P.bioW P.bioB P.bioQkvW P.bioQkvB P.attnInW P.attnInB (ix2 i o)
      = vproj P (upper (lin P.bioQkvW P.bioQkvB (enc P.bioW P.bioB (X (ix2 i (2 : Fin 3)))))) o := by
  rw [val_main_v56_apply, val_main_v53_apply, val_main_v55_apply, val_main_v54_apply, val_main_v51_apply]
  exact lin_of P.attnInW P.attnInB _ (⟨32 + o.val, by omega⟩ : Fin 48) _ _ _
    (fun q => (congrArg _ (ix2_of _ i q rfl rfl)).trans (upper_v36 X _ _ _ _ i q))
    (fun q => (val_main_v52_apply (F := Ideal) P.attnInW _).trans ((val_main_v50_apply (F := Ideal) P.attnInW _).trans
      (congrArg _ (ix2_of _ (⟨32 + o.val, by omega⟩ : Fin 48) q rfl rfl))))
    (congrArg _ (ix1_of _ (⟨32 + o.val, by omega⟩ : Fin 48) rfl))

/-- The attention on the second branch's value slice. -/
theorem attn_v61 (P : Params) (X : Mat 1048576 3) (i : Fin 1048576) (o : Fin 16) :
    val_main_v61 (F := Ideal) X P.bioW P.bioB P.bioQkvW P.bioQkvB P.attnInW P.attnInB P.attnOutW P.attnOutB (ix2 i o)
      = attn P (upper (lin P.bioQkvW P.bioQkvB (enc P.bioW P.bioB (X (ix2 i (2 : Fin 3)))))) o := by
  rw [val_main_v61_apply, val_main_v58_apply, val_main_v60_apply, val_main_v59_apply]
  exact lin_of P.attnOutW P.attnOutB _ o _ _ _
    (fun q => (congrArg _ (ix2_of _ i q rfl rfl)).trans (vproj_v56 P X i q))
    (fun q => (val_main_v57_apply (F := Ideal) P.attnOutW _).trans (congrArg _ (ix2_of _ o q rfl rfl)))
    (congrArg _ (ix1_of _ o rfl))

/-- Two sixteen-column arrays laid side by side, read at a row and a column. -/
theorem concat_join {α : Type} (A B : S1048576x16.Idx → α)
    (h : Shape.Concatenates [S1048576x16, S1048576x16] S1048576x32 1) (i : Fin 1048576) (q : Fin 32) :
    concatenate S1048576x32 1 [⟨S1048576x16, A⟩, ⟨S1048576x16, B⟩] h (ix2 i q)
      = if hq : q.val < 16 then A (ix2 i ⟨q.val, hq⟩) else B (ix2 i ⟨q.val - 16, by omega⟩) := by
  by_cases hq : q.val < 16
  · rw [dif_pos hq]
    refine concatenate_pair_apply_left (t := S1048576x32) (s₁ := S1048576x16) (s₂ := S1048576x16) 1 A B h
      (ix2 i q) rfl (ix2 i ⟨q.val, hq⟩) ?_
    intro b
    match b with
    | ⟨0, _⟩ => rfl
    | ⟨1, _⟩ => rfl
  · rw [dif_neg hq]
    refine concatenate_pair_apply_right (t := S1048576x32) (s₁ := S1048576x16) (s₂ := S1048576x16) 1 A B h
      (ix2 i q) rfl rfl (ix2 i ⟨q.val - 16, by omega⟩) ?_ ?_
    · intro b hb
      match b, hb with
      | ⟨0, _⟩, _ => rfl
      | ⟨1, _⟩, hb => exact absurd rfl hb
    · show (q.val - 16) + 16 = q.val
      omega

/-- The value slices of the two branches and the fused sixteen features on row `i`. -/
def vbAt (P : Params) (X : Mat 1048576 3) (i : Fin 1048576) : Fin 16 → EReal :=
  upper (lin P.ehrQkvW P.ehrQkvB (enc P.ehrW P.ehrB (X (ix2 i (0 : Fin 3)))))
def vaAt (P : Params) (X : Mat 1048576 3) (i : Fin 1048576) : Fin 16 → EReal :=
  upper (lin P.bioQkvW P.bioQkvB (enc P.bioW P.bioB (X (ix2 i (2 : Fin 3)))))
def abAt (P : Params) (X : Mat 1048576 3) (i : Fin 1048576) : Fin 16 → EReal :=
  lin P.abW P.abB (join (attn P (vbAt P X i)) (attn P (vaAt P X i)))

/-- The trunk of row `i` over the fused features. -/
theorem hAt_eq (P : Params) (X : Mat 1048576 3) (i : Fin 1048576) :
    hAt P X i = lin P.f1W P.f1B (join (abAt P X i) (attn P (abAt P X i))) := rfl

/-- The two attentions side by side. -/
theorem join_v62 (P : Params) (X : Mat 1048576 3) (i : Fin 1048576) (q : Fin 32) :
    val_main_v62 (F := Ideal) X P.ehrW P.ehrB P.bioW P.bioB P.bioQkvW P.bioQkvB P.ehrQkvW P.ehrQkvB P.attnInW P.attnInB
        P.attnOutW P.attnOutB (ix2 i q)
      = join (attn P (vbAt P X i)) (attn P (vaAt P X i)) q := by
  unfold val_main_v62
  rw [concat_join]
  unfold join
  by_cases hq : q.val < 16
  · rw [dif_pos hq, dif_pos hq]
    exact attn_v49 P X i _
  · rw [dif_neg hq, dif_neg hq]
    exact attn_v61 P X i _

/-- The fused sixteen features. -/
theorem ab_v67 (P : Params) (X : Mat 1048576 3) (i : Fin 1048576) (o : Fin 16) :
    val_main_v67 (F := Ideal) X P.ehrW P.ehrB P.bioW P.bioB P.bioQkvW P.bioQkvB P.ehrQkvW P.ehrQkvB P.attnInW P.attnInB
        P.attnOutW P.attnOutB P.abW P.abB (ix2 i o)
      = abAt P X i o := by
  rw [val_main_v67_apply, val_main_v64_apply, val_main_v66_apply, val_main_v65_apply]
  exact lin_of P.abW P.abB _ o _ _ _
    (fun q => (congrArg _ (ix2_of _ i q rfl rfl)).trans (join_v62 P X i q))
    (fun q => (val_main_v63_apply (F := Ideal) P.abW _).trans (congrArg _ (ix2_of _ o q rfl rfl)))
    (congrArg _ (ix1_of _ o rfl))

/-- The value projection of the attention on the fused features. -/
theorem vproj_v74 (P : Params) (X : Mat 1048576 3) (i : Fin 1048576) (o : Fin 16) :
    val_main_v74 (F := Ideal) X P.ehrW P.ehrB P.bioW P.bioB P.bioQkvW P.bioQkvB P.ehrQkvW P.ehrQkvB P.attnInW P.attnInB
        P.attnOutW P.attnOutB P.abW P.abB (ix2 i o)
      = vproj P (abAt P X i) o := by
  rw [val_main_v74_apply, val_main_v71_apply, val_main_v73_apply, val_main_v72_apply, val_main_v69_apply]
  exact lin_of P.attnInW P.attnInB _ (⟨32 + o.val, by omega⟩ : Fin 48) _ _ _
    (fun q => (congrArg _ (ix2_of _ i q rfl rfl)).trans (ab_v67 P X i q))
    (fun q => (val_main_v70_apply (F := Ideal) P.attnInW _).trans ((val_main_v68_apply (F := Ideal) P.attnInW _).trans
      (congrArg _ (ix2_of _ (⟨32 + o.val, by omega⟩ : Fin 48) q rfl rfl))))
    (congrArg _ (ix1_of _ (⟨32 + o.val, by omega⟩ : Fin 48) rfl))

/-- The attention on the fused features. -/
theorem attn_v79 (P : Params) (X : Mat 1048576 3) (i : Fin 1048576) (o : Fin 16) :
    val_main_v79 (F := Ideal) X P.ehrW P.ehrB P.bioW P.bioB P.bioQkvW P.bioQkvB P.ehrQkvW P.ehrQkvB P.attnInW P.attnInB
        P.attnOutW P.attnOutB P.abW P.abB (ix2 i o)
      = attn P (abAt P X i) o := by
  rw [val_main_v79_apply, val_main_v76_apply, val_main_v78_apply, val_main_v77_apply]
  exact lin_of P.attnOutW P.attnOutB _ o _ _ _
    (fun q => (congrArg _ (ix2_of _ i q rfl rfl)).trans (vproj_v74 P X i q))
    (fun q => (val_main_v75_apply (F := Ideal) P.attnOutW _).trans (congrArg _ (ix2_of _ o q rfl rfl)))
    (congrArg _ (ix1_of _ o rfl))

/-- The fused features beside their attention. -/
theorem join_v80 (P : Params) (X : Mat 1048576 3) (i : Fin 1048576) (q : Fin 32) :
    val_main_v80 (F := Ideal) X P.ehrW P.ehrB P.bioW P.bioB P.bioQkvW P.bioQkvB P.ehrQkvW P.ehrQkvB P.attnInW P.attnInB
        P.attnOutW P.attnOutB P.abW P.abB (ix2 i q)
      = join (abAt P X i) (attn P (abAt P X i)) q := by
  unfold val_main_v80
  rw [concat_join]
  unfold join
  by_cases hq : q.val < 16
  · rw [dif_pos hq, dif_pos hq]
    exact ab_v67 P X i _
  · rw [dif_neg hq, dif_neg hq]
    exact attn_v79 P X i _

/-- The trunk: stage 85 at row `i`, feature `j`. -/
theorem h_v85 (P : Params) (X : Mat 1048576 3) (i : Fin 1048576) (j : Fin 64) :
    val_main_v85 (F := Ideal) X P.ehrW P.ehrB P.bioW P.bioB P.bioQkvW P.bioQkvB P.ehrQkvW P.ehrQkvB P.attnInW P.attnInB
        P.attnOutW P.attnOutB P.abW P.abB P.f1W P.f1B (ix2 i j)
      = hAt P X i j := by
  rw [val_main_v85_apply, val_main_v82_apply, val_main_v84_apply, val_main_v83_apply, hAt_eq]
  exact lin_of P.f1W P.f1B _ j _ _ _
    (fun q => (congrArg _ (ix2_of _ i q rfl rfl)).trans (join_v80 P X i q))
    (fun q => (val_main_v81_apply (F := Ideal) P.f1W _).trans (congrArg _ (ix2_of _ j q rfl rfl)))
    (congrArg _ (ix1_of _ j rfl))

/-- The batch mean: stage 88 at feature `j`. -/
theorem mean_v88 (P : Params) (X : Mat 1048576 3) (j : Fin 64) :
    val_main_v88 (F := Ideal) X P.ehrW P.ehrB P.bioW P.bioB P.bioQkvW P.bioQkvB P.ehrQkvW P.ehrQkvB P.attnInW P.attnInB
        P.attnOutW P.attnOutB P.abW P.abB P.f1W P.f1B (ix1 j)
      = mean P X j := by
  rw [val_main_v88_apply, val_main_v86_apply, val_main_v87_apply, val_main_cst_0_apply, val_main_cst_apply]
  have hs : (∑ k : Fin 1048576, val_main_v85 (F := Ideal) X P.ehrW P.ehrB P.bioW P.bioB P.bioQkvW P.bioQkvB P.ehrQkvW P.ehrQkvB P.attnInW P.attnInB
        P.attnOutW P.attnOutB P.abW P.abB P.f1W P.f1B (idx_main_v86 (ix1 j) k)) = sum1 P X j :=
    Finset.sum_congr rfl (fun k _ => (congrArg _ (ix2_of _ k j rfl rfl)).trans (h_v85 P X k j))
  rw [hs]
  show Ideal.div (Ideal.ofBits .f32 0x00000000#32 + sum1 P X j) nB = Ideal.div (sum1 P X j) nB
  rw [Ideal.ofBits_zero_f32, zero_add]

/-- The deviation from the mean: stage 91 at row `i`, feature `j`. -/
theorem dev_v91 (P : Params) (X : Mat 1048576 3) (i : Fin 1048576) (j : Fin 64) :
    val_main_v91 (F := Ideal) X P.ehrW P.ehrB P.bioW P.bioB P.bioQkvW P.bioQkvB P.ehrQkvW P.ehrQkvB P.attnInW P.attnInB
        P.attnOutW P.attnOutB P.abW P.abB P.f1W P.f1B (ix2 i j)
      = hAt P X i j - mean P X j := by
  rw [val_main_v91_apply, val_main_v90_apply, val_main_v89_apply]
  have e : idx_main_v89 (idx_main_v90 (ix2 i j)) = ix1 j := ix1_of _ _ rfl
  rw [e, h_v85, mean_v88]
  rfl

/-- The variance as the mean of the squared deviations: stage 95 at feature `j`. -/
theorem var_v95 (P : Params) (X : Mat 1048576 3) (j : Fin 64) :
    val_main_v95 (F := Ideal) X P.ehrW P.ehrB P.bioW P.bioB P.bioQkvW P.bioQkvB P.ehrQkvW P.ehrQkvB P.attnInW P.attnInB
        P.attnOutW P.attnOutB P.abW P.abB P.f1W P.f1B (ix1 j)
      = varR P X j := by
  rw [val_main_v95_apply, val_main_v93_apply, val_main_v94_apply, val_main_cst_2_apply, val_main_cst_1_apply]
  have hs : (∑ k : Fin 1048576, val_main_v92 (F := Ideal) X P.ehrW P.ehrB P.bioW P.bioB P.bioQkvW P.bioQkvB P.ehrQkvW P.ehrQkvB P.attnInW P.attnInB
        P.attnOutW P.attnOutB P.abW P.abB P.f1W P.f1B (idx_main_v93 (ix1 j) k))
      = ∑ i : Fin 1048576, (hAt P X i j - mean P X j) * (hAt P X i j - mean P X j) :=
    Finset.sum_congr rfl (fun k _ => by
      rw [show idx_main_v93 (ix1 j) k = ix2 k j from ix2_of _ _ _ rfl rfl, val_main_v92_apply, dev_v91]
      rfl)
  rw [hs]
  show Ideal.div (Ideal.ofBits .f32 0x00000000#32
      + ∑ i : Fin 1048576, (hAt P X i j - mean P X j) * (hAt P X i j - mean P X j)) nB = varR P X j
  rw [Ideal.ofBits_zero_f32, zero_add]
  rfl

/-- The reciprocal square root of the variance plus epsilon: stage 101 at feature `j`. -/
theorem rsqrt_v101 (P : Params) (X : Mat 1048576 3) (j : Fin 64) :
    val_main_v101 (F := Ideal) X P.ehrW P.ehrB P.bioW P.bioB P.bioQkvW P.bioQkvB P.ehrQkvW P.ehrQkvB P.attnInW P.attnInB
        P.attnOutW P.attnOutB P.abW P.abB P.f1W P.f1B (ix1 j)
      = Ideal.rsqrt (varR P X j + eps) := by
  rw [val_main_v101_apply, val_main_v100_apply, val_main_v99_apply, val_main_cst_3_apply, var_v95]
  rfl

/-- The normalised, rectified feature `j` of row `i`. -/
def nrm (P : Params) (X : Mat 1048576 3) (i : Fin 1048576) (j : Fin 64) : EReal :=
  max ((hAt P X i j - mean P X j) * Ideal.rsqrt (varR P X j + eps) * P.bnG (ix1 j) + P.bnB (ix1 j)) 0

/-- The output of a row is the last affine layer on its normalised, rectified features. -/
theorem outAt_eq (P : Params) (X : Mat 1048576 3) (i : Fin 1048576) (k : Fin 3) :
    outAt P (hAt P X i) (mean P X) (varR P X) k = lin P.f2W P.f2B (nrm P X i) k := rfl

/-- The normalised, rectified rows: stage 111 at row `i`, feature `j`. -/
theorem nrm_v111 (P : Params) (X : Mat 1048576 3) (i : Fin 1048576) (j : Fin 64) :
    val_main_v111 (F := Ideal) X P.ehrW P.ehrB P.bioW P.bioB P.bioQkvW P.bioQkvB P.ehrQkvW P.ehrQkvB P.attnInW P.attnInB
        P.attnOutW P.attnOutB P.abW P.abB P.f1W P.f1B P.bnG P.bnB (ix2 i j)
      = nrm P X i j := by
  rw [val_main_v111_apply, val_main_v110_apply, val_main_v107_apply, val_main_v104_apply, val_main_v98_apply,
    val_main_v97_apply, val_main_v96_apply, val_main_v103_apply, val_main_v102_apply, val_main_v106_apply,
    val_main_v105_apply, val_main_v109_apply, val_main_v108_apply, val_main_call3_v0_apply, val_main_call3_cst_apply]
  have e1 : idx_main_v96 (idx_main_v97 (ix2 i j)) = ix1 j := ix1_of _ _ rfl
  have e2 : idx_main_v102 (idx_main_v103 (ix2 i j)) = ix1 j := ix1_of _ _ rfl
  have e3 : idx_main_v105 (idx_main_v106 (ix2 i j)) = ix1 j := ix1_of _ _ rfl
  have e4 : idx_main_v108 (idx_main_v109 (ix2 i j)) = ix1 j := ix1_of _ _ rfl
  rw [e1, e2, e3, e4, h_v85, mean_v88, rsqrt_v101, relu_zero]
  rfl

/-- The last stage of the reference, as a function of the batch and the weights, is `outR`. -/
theorem value (P : Params) (X : Mat 1048576 3) :
    val_main_v116 (F := Ideal) X P.ehrW P.ehrB P.bioW P.bioB P.bioQkvW P.bioQkvB P.ehrQkvW P.ehrQkvB P.attnInW P.attnInB P.attnOutW P.attnOutB P.abW P.abB P.f1W P.f1B P.bnG P.bnB P.f2W P.f2B = outR P X := by
  funext idx
  obtain ⟨i, k, rfl⟩ : ∃ (i : Fin 1048576) (k : Fin 3), idx = ix2 i k := ⟨idx 0, idx 1, eq_ix2 idx⟩
  rw [outR_ix2, outAt_eq, val_main_v116_apply, val_main_v113_apply, val_main_v115_apply, val_main_v114_apply]
  exact lin_of P.f2W P.f2B _ k _ _ _
    (fun q => (congrArg _ (ix2_of _ i q rfl rfl)).trans (nrm_v111 P X i q))
    (fun q => (val_main_v112_apply (F := Ideal) P.f2W _).trans (congrArg _ (ix2_of _ k q rfl rfl)))
    (congrArg _ (ix1_of _ k rfl))

end Cert.ReferenceIdeal.RefValue

end
-- ==== Proof.lean ====
/-
  The kernel and the reference compute one function of the batch and the weights.

  Both programs map each of the 1048576 rows through the same small trunk — two scalars embedded in sixteen
  dimensions by an affine map and a rectifier, the value parts of two stacked 48-wide layers, a length-one attention
  (which is its value projection followed by its output projection) applied three times, two joins and two further
  affine layers, to 64 features per row —, normalise every feature by its mean and variance over ALL rows, rectify,
  and apply a last affine layer to three outputs per row. At the exact instance a change of float format is the
  identity and a matrix product is the plain sum of products, so the two trunks are the same sums, and the kernel's
  blockwise accumulation of the column sums over 128 blocks of 8192 rows is a regrouping of the reference's one sum.
  The kernel makes two passes over the batch: the first accumulates, per feature, the sum and the sum of squares of
  the trunk; between the passes the mean is the sum over the row count and the variance is the mean of squares minus
  the squared mean; the second pass recomputes the trunk block by block and writes the normalised, projected rows,
  its blocks tiling the result. The reference takes the variance as the mean of the squared deviations instead.
  The two variances agree on real numbers, and under the precondition (every input entry finite) every trunk entry
  is a real number, sums and products and maxima of reals being real; that is the one place the precondition is used.
  The frames of the two kernel programs are the generated ones; the reference's frame is its generated run with
  the result dropped; the kernel's idealisation rewrote no operation, so nothing is owed for it.
-/
import proofs.«121510_j66580583023034_1_alg».proof.Defs
import proofs.«121510_j66580583023034_1_alg».proof.Proof.Gen.Kernel
import proofs.«121510_j66580583023034_1_alg».proof.Proof.Gen.Kernel.Skeleton
import proofs.«121510_j66580583023034_1_alg».proof.Proof.Gen.Kernel.Launch
import proofs.«121510_j66580583023034_1_alg».proof.Proof.Gen.Kernel.Points
import proofs.«121510_j66580583023034_1_alg».proof.Proof.Gen.Kernel.Frame
import proofs.«121510_j66580583023034_1_alg».proof.Proof.Gen.KernelIdeal
import proofs.«121510_j66580583023034_1_alg».proof.Proof.Gen.KernelIdeal.Skeleton
import proofs.«121510_j66580583023034_1_alg».proof.Proof.Gen.KernelIdeal.Launch
import proofs.«121510_j66580583023034_1_alg».proof.Proof.Gen.KernelIdeal.Points
import proofs.«121510_j66580583023034_1_alg».proof.Proof.Gen.KernelIdeal.Frame
import proofs.«121510_j66580583023034_1_alg».proof.Proof.Gen.ReferenceIdeal
import proofs.«121510_j66580583023034_1_alg».proof.Proof.Gen.ReferenceIdeal.Run
import proofs.«121510_j66580583023034_1_alg».proof.Proof.Gen.ReferenceIdeal.Read
import proofs.«121510_j66580583023034_1_alg».proof.Proof.Gen.Pre_finite_inputs
import proofs.«121510_j66580583023034_1_alg».proof.Proof.Spec
import proofs.«121510_j66580583023034_1_alg».proof.Proof.Finite
import proofs.«121510_j66580583023034_1_alg».proof.Proof.Moments
import proofs.«121510_j66580583023034_1_alg».proof.Proof.Entry
import proofs.«121510_j66580583023034_1_alg».proof.Proof.PreDecode
import proofs.«121510_j66580583023034_1_alg».proof.Proof.KernelRun
import proofs.«121510_j66580583023034_1_alg».proof.Proof.HostReads
import proofs.«121510_j66580583023034_1_alg».proof.Proof.RefValue
import Idealize.ShloMosaic.Adequacy
import Idealize.ShloMosaic.Init

noncomputable section

namespace Cert.Proof

open Idealize.ShloMosaic Idealize.ShloMosaic.TcCoe Idealize.SL.Sem Cert.Spec

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the specification's result: the kernel's with the
    variance as the mean of squares minus the squared mean, the reference's as the mean of squared deviations, one
    array when every input entry is a real number. -/
theorem algebraic : Cert.algebraic_KernelIdeal_ReferenceIdeal := by
  intro m ρ m' ρ' hpre hagree
  refine ⟨fun c => outK (Cert.KernelIdeal.Entry.paramsOf m c) (Cert.KernelIdeal.Entry.batchOf m c), ?_, ?_⟩
  · exact (θ_run Cert.KernelIdeal.defs _ _).mono
      (fun r h c => ⟨(h c).1.trans (Cert.KernelIdeal.HostReads.kernel_value m ρ c), (h c).2⟩)
      (Cert.KernelIdeal.Run.run_named m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22, h23, h24⟩ := hagree c
    have hfin := Cert.KernelIdeal.PreDecode.finite_of_pre m hpre c
    rw [Cert.ReferenceIdeal.Read.val_main_v116_eq, h0, h1, h2, h5, h6, h7, h8, h9, h10, h13, h14, h15, h16, h17, h18, h19, h20, h21, h22, h23, h24]
    exact (Cert.ReferenceIdeal.RefValue.value (Cert.KernelIdeal.Entry.paramsOf m c) (Cert.KernelIdeal.Entry.batchOf m c)).trans
      (outK_eq_outR _ _ hfin.1 hfin.2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
